-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128 : Shape := ⟨2, ![2048, 128]⟩
abbrev S2048x2048x64 : Shape := ⟨3, ![2048, 2048, 64]⟩
abbrev S128x8 : Shape := ⟨2, ![128, 8]⟩
abbrev S8 : Shape := ⟨1, ![8]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩
abbrev S2048x64 : Shape := ⟨2, ![2048, 64]⟩
abbrev S1x64 : Shape := ⟨2, ![1, 64]⟩
abbrev S64x2048 : Shape := ⟨2, ![64, 2048]⟩
abbrev S2048x2048 : Shape := ⟨2, ![2048, 2048]⟩
abbrev S4194304x64 : Shape := ⟨2, ![4194304, 64]⟩
abbrev S4194304x1 : Shape := ⟨2, ![4194304, 1]⟩
abbrev S1x1 : Shape := ⟨2, ![1, 1]⟩
abbrev S2048 : Shape := ⟨1, ![2048]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S2048x2048x64 : S_.BroadcastsInDim S2048x2048x64 (![] : Fin 0 → Fin S2048x2048x64.rank)
  reducesTo_S2048x2048x64_S_d0_1_2 : S2048x2048x64.ReducesTo [0, 1, 2] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S64_S1x64_1 : S64.BroadcastsInDim S1x64 (![1] : Fin 1 → Fin S1x64.rank)
  bcast_S1x64_S2048x64_0_1 : S1x64.BroadcastsInDim S2048x64 (![0, 1] : Fin 2 → Fin S2048x64.rank)
  transposes_S2048x64_S64x2048_1_0 : S2048x64.Transposes [1, 0] S64x2048
  bcast_S_S2048x2048 : S_.BroadcastsInDim S2048x2048 (![] : Fin 0 → Fin S2048x2048.rank)
  shapeCasts_S2048x2048x64_S4194304x64 : S2048x2048x64.ShapeCasts S4194304x64
  bcast_S1_S1x1_1 : S1.BroadcastsInDim S1x1 (![1] : Fin 1 → Fin S1x1.rank)
  bcast_S1x1_S4194304x1_0_1 : S1x1.BroadcastsInDim S4194304x1 (![0, 1] : Fin 2 → Fin S4194304x1.rank)
  shapeCasts_S4194304x1_S2048x2048 : S4194304x1.ShapeCasts S2048x2048
  reducesTo_S2048x2048_S2048_d0 : S2048x2048.ReducesTo [0] S2048
  bcast_S_S2048 : S_.BroadcastsInDim S2048 (![] : Fin 0 → Fin S2048.rank)
  reducesTo_S2048_S_d0 : S2048.ReducesTo [0] S_
  dot_S2048x128_S128x64_S2048x64_1_0_0_1_n_n_wf : DotDims.WF S2048x128 S128x64 S2048x64 [1] [0] [0] [1] [] []
  dot_S2048x64_S64x2048_S2048x2048_1_0_0_1_n_n_wf : DotDims.WF S2048x64 S64x2048 S2048x2048 [1] [0] [0] [1] [] []
  dot_S4194304x64_S64x1_S4194304x1_1_0_0_1_n_n_wf : DotDims.WF S4194304x64 S64x1 S4194304x1 [1] [0] [0] [1] [] []

variable [Facts]

def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x64_S64x2048_S2048x2048_1_0_0_1_n_n : DotDims S2048x64 S64x2048 S2048x2048 where
  lhsContracting := [1]
  rhsContracting := [0]
  lhsNonContracting := [0]
  rhsNonContracting := [1]
  lhsBatch := []
  rhsBatch := []
  wf := dot_S2048x64_S64x2048_S2048x2048_1_0_0_1_n_n_wf
def dot_S4194304x64_S64x1_S4194304x1_1_0_0_1_n_n : DotDims S4194304x64 S64x1 S4194304x1 where
  lhsContracting := [1]
  rhsContracting := [0]
  lhsNonContracting := [0]
  rhsNonContracting := [1]
  lhsBatch := []
  rhsBatch := []
  wf := dot_S4194304x64_S64x1_S4194304x1_1_0_0_1_n_n_wf
def fn_part4 {F : FTy → Type} [FloatOps F] (main_v48 : IVec S_ 1) (main_v72 : FVec F S2048x2048 .f32) : IVec S_ 1 :=
  let main_cst_21 : FVec F S_ .f32 := constant S_ .f32 0x00000000#32
  let main_v73 : FVec F S2048 .f32 := (fun x v => Host.reduceAdd x v reducesTo_S2048x2048_S2048_d0 h_S_) main_v72 main_cst_21
  let main_cst_22 : FVec F S_ .f32 := constant S_ .f32 0x00000000#32
  let main_v74 : FVec F S2048 .f32 := broadcastInDim S2048 ![] bcast_S_S2048 main_cst_22
  let main_v75 : IVec S2048 1 := cmpf .ogt main_v73 main_v74
  let main_c_23 : IVec S_ 1 := constantI S_ 1 1#1
  let main_v76 : IVec S_ 1 := (fun x v => Host.reduce IntOp.andi x v reducesTo_S2048_S_d0 h_S_) main_v75 main_c_23
  let main_v77 : IVec S_ 1 := andi main_v48 main_v76
  main_v77

def fn_part3 {F : FTy → Type} [FloatOps F] (main_arg0 : FVec F S2048x128 .f32) (main_arg1 : FVec F S2048x2048x64 .f32) (main_arg6 : FVec F S128x64 .f32) (main_arg7 : FVec F S64 .f32) (main_arg8 : FVec F S64x1 .f32) (main_arg9 : FVec F S1 .f32) (main_v48 : IVec S_ 1) (main_v49 : FVec F S2048x64 .f32) (main_v51 : FVec F S2048x64 .f32) : IVec S_ 1 :=
  let main_v52 : FVec F S2048x64 .f32 := addf main_v49 main_v51
  let main_v53 : FVec F S2048x64 .f32 := (fun l r => Host.dotGeneral dot_S2048x128_S128x64_S2048x64_1_0_0_1_n_n none l r) main_arg0 main_arg6
  let main_v54 : FVec F S1x64 .f32 := broadcastInDim S1x64 ![1] bcast_S64_S1x64_1 main_arg7
  let main_v55 : FVec F S2048x64 .f32 := broadcastInDim S2048x64 ![0, 1] bcast_S1x64_S2048x64_0_1 main_v54
  let main_v56 : FVec F S2048x64 .f32 := addf main_v53 main_v55
  let main_v57 : FVec F S64x2048 .f32 := (transpose S64x2048 [1, 0] · transposes_S2048x64_S64x2048_1_0) main_v56
  let main_v58 : FVec F S2048x2048 .f32 := (fun l r => Host.dotGeneral dot_S2048x64_S64x2048_S2048x2048_1_0_0_1_n_n none l r) main_v52 main_v57
  let main_cst_18 : FVec F S_ .f32 := constant S_ .f32 0x42800000#32
  let main_v59 : FVec F S_ .f32 := Host.sqrt main_cst_18
  let main_cst_19 : FVec F S_ .f32 := constant S_ .f32 0x3F800000#32
  let main_v60 : FVec F S_ .f32 := Host.divf main_cst_19 main_v59
  let main_v61 : FVec F S2048x2048 .f32 := broadcastInDim S2048x2048 ![] bcast_S_S2048x2048 main_v60
  let main_v62 : FVec F S2048x2048 .f32 := mulf main_v58 main_v61
  let main_v63 : FVec F S4194304x64 .f32 := shapeCast S4194304x64 main_arg1 shapeCasts_S2048x2048x64_S4194304x64
  let main_v64 : FVec F S4194304x1 .f32 := (fun l r => Host.dotGeneral dot_S4194304x64_S64x1_S4194304x1_1_0_0_1_n_n none l r) main_v63 main_arg8
  let main_v65 : FVec F S1x1 .f32 := broadcastInDim S1x1 ![1] bcast_S1_S1x1_1 main_arg9
  let main_v66 : FVec F S4194304x1 .f32 := broadcastInDim S4194304x1 ![0, 1] bcast_S1x1_S4194304x1_0_1 main_v65
  let main_v67 : FVec F S4194304x1 .f32 := addf main_v64 main_v66
  let main_v68 : FVec F S2048x2048 .f32 := shapeCast S2048x2048 main_v67 shapeCasts_S4194304x1_S2048x2048
  let main_cst_20 : FVec F S_ .f32 := constant S_ .f32 0x00000000#32
  let main_v69 : FVec F S2048x2048 .f32 := broadcastInDim S2048x2048 ![] bcast_S_S2048x2048 main_cst_20
  let main_v70 : FVec F S2048x2048 .f32 := maximumf main_v68 main_v69
  let main_v71 : FVec F S2048x2048 .f32 := Host.exp main_v62
  let main_v72 : FVec F S2048x2048 .f32 := mulf main_v70 main_v71
  fn_part4 (F := F) main_v48 main_v72

def fn_part2 {F : FTy → Type} [FloatOps F] (main_arg0 : FVec F S2048x128 .f32) (main_arg1 : FVec F S2048x2048x64 .f32) (main_arg4 : FVec F S128x64 .f32) (main_arg5 : FVec F S64 .f32) (main_arg6 : FVec F S128x64 .f32) (main_arg7 : FVec F S64 .f32) (main_arg8 : FVec F S64x1 .f32) (main_arg9 : FVec F S1 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x1 .f32 := Host.absf main_arg8
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S2048x64 .f32 := (fun l r => Host.dotGeneral dot_S2048x128_S128x64_S2048x64_1_0_0_1_n_n none l r) main_arg0 main_arg4
  let main_v50 : FVec F S1x64 .f32 := broadcastInDim S1x64 ![1] bcast_S64_S1x64_1 main_arg5
  let main_v51 : FVec F S2048x64 .f32 := broadcastInDim S2048x64 ![0, 1] bcast_S1x64_S2048x64_0_1 main_v50
  fn_part3 (F := F) main_arg0 main_arg1 main_arg6 main_arg7 main_arg8 main_arg9 main_v48 main_v49 main_v51

def fn_part1 {F : FTy → Type} [FloatOps F] (main_arg0 : FVec F S2048x128 .f32) (main_arg1 : FVec F S2048x2048x64 .f32) (main_arg4 : FVec F S128x64 .f32) (main_arg5 : FVec F S64 .f32) (main_arg6 : FVec F S128x64 .f32) (main_arg7 : FVec F S64 .f32) (main_arg8 : FVec F S64x1 .f32) (main_arg9 : FVec F S1 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg0 main_arg1 main_arg4 main_arg5 main_arg6 main_arg7 main_arg8 main_arg9 main_v33

def fn {F : FTy → Type} [FloatOps F] (main_arg0 : FVec F S2048x128 .f32) (main_arg1 : FVec F S2048x2048x64 .f32) (main_arg2 : FVec F S128x8 .f32) (main_arg3 : FVec F S8 .f32) (main_arg4 : FVec F S128x64 .f32) (main_arg5 : FVec F S64 .f32) (main_arg6 : FVec F S128x64 .f32) (main_arg7 : FVec F S64 .f32) (main_arg8 : FVec F S64x1 .f32) (main_arg9 : FVec F S1 .f32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S2048x2048x64 .f32 := Host.absf main_arg1
  let main_cst_0 : FVec F S_ .f32 := constant S_ .f32 0x7F800000#32
  let main_v5 : FVec F S2048x2048x64 .f32 := broadcastInDim S2048x2048x64 ![] bcast_S_S2048x2048x64 main_cst_0
  let main_v6 : IVec S2048x2048x64 1 := cmpf .olt main_v4 main_v5
  let main_c_1 : IVec S_ 1 := constantI S_ 1 1#1
  let main_v7 : IVec S_ 1 := (fun x v => Host.reduce IntOp.andi x v reducesTo_S2048x2048x64_S_d0_1_2 h_S_) main_v6 main_c_1
  let main_v8 : IVec S_ 1 := andi main_v3 main_v7
  let main_v9 : FVec F S128x8 .f32 := Host.absf main_arg2
  let main_cst_2 : FVec F S_ .f32 := constant S_ .f32 0x7F800000#32
  let main_v10 : FVec F S128x8 .f32 := broadcastInDim S128x8 ![] bcast_S_S128x8 main_cst_2
  let main_v11 : IVec S128x8 1 := cmpf .olt main_v9 main_v10
  let main_c_3 : IVec S_ 1 := constantI S_ 1 1#1
  let main_v12 : IVec S_ 1 := (fun x v => Host.reduce IntOp.andi x v reducesTo_S128x8_S_d0_1 h_S_) main_v11 main_c_3
  let main_v13 : IVec S_ 1 := andi main_v8 main_v12
  let main_v14 : FVec F S8 .f32 := Host.absf main_arg3
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg0 main_arg1 main_arg4 main_arg5 main_arg6 main_arg7 main_arg8 main_arg9 main_v13 main_v16
-- ==== Kernel.lean ====
abbrev S2048x128 : Shape := ⟨2, ![2048, 128]⟩
abbrev S2048x2048x64 : Shape := ⟨3, ![2048, 2048, 64]⟩
abbrev S128x8 : Shape := ⟨2, ![128, 8]⟩
abbrev S8 : Shape := ⟨1, ![8]⟩
abbrev S128x64 : Shape := ⟨2, ![128, 64]⟩
abbrev S64 : Shape := ⟨1, ![64]⟩
abbrev S64x1 : Shape := ⟨2, ![64, 1]⟩
abbrev S1 : Shape := ⟨1, ![1]⟩
abbrev S2048x8 : Shape := ⟨2, ![2048, 8]⟩
abbrev S1x8 : Shape := ⟨2, ![1, 8]⟩
abbrev S2048x64 : Shape := ⟨2, ![2048, 64]⟩
abbrev S1x64 : Shape := ⟨2, ![1, 64]⟩
abbrev S1x1 : Shape := ⟨2, ![1, 1]⟩
abbrev S2048x2048 : Shape := ⟨2, ![2048, 2048]⟩
abbrev S1x2048 : Shape := ⟨2, ![1, 2048]⟩
abbrev S128x256x64 : Shape := ⟨3, ![128, 256, 64]⟩
abbrev S256x64 : Shape := ⟨2, ![256, 64]⟩
abbrev S128x256 : Shape := ⟨2, ![128, 256]⟩
abbrev S1x256 : Shape := ⟨2, ![1, 256]⟩
abbrev S1x1x64 : Shape := ⟨3, ![1, 1, 64]⟩
abbrev S64x256 : Shape := ⟨2, ![64, 256]⟩
abbrev S256 : Shape := ⟨1, ![256]⟩
abbrev S2048x1 : Shape := ⟨2, ![2048, 1]⟩
abbrev S512x2048 : Shape := ⟨2, ![512, 2048]⟩
abbrev S512x8 : Shape := ⟨2, ![512, 8]⟩

abbrev nBuf : Space → Nat
  | .hbm => 30
  | .vmem => 18
  | .smem => 0
  | _ => 0

abbrev bufTy : (tb : Table) → Fin (tcTables nBuf tb) → BufTy
  | .hbm, ⟨0, _⟩ => ⟨S2048x128, .f32⟩
  | .hbm, ⟨1, _⟩ => ⟨S2048x2048x64, .f32⟩
  | .hbm, ⟨2, _⟩ => ⟨S128x8, .f32⟩
  | .hbm, ⟨3, _⟩ => ⟨S8, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S2048x8, .f32⟩
  | .hbm, ⟨11, _⟩ => ⟨S1x8, .f32⟩
  | .hbm, ⟨12, _⟩ => ⟨S2048x8, .f32⟩
  | .hbm, ⟨13, _⟩ => ⟨S2048x8, .f32⟩
  | .hbm, ⟨14, _⟩ => ⟨S2048x64, .f32⟩
  | .hbm, ⟨15, _⟩ => ⟨S1x64, .f32⟩
  | .hbm, ⟨16, _⟩ => ⟨S2048x64, .f32⟩
  | .hbm, ⟨17, _⟩ => ⟨S2048x64, .f32⟩
  | .hbm, ⟨18, _⟩ => ⟨S2048x64, .f32⟩
  | .hbm, ⟨19, _⟩ => ⟨S1x64, .f32⟩
  | .hbm, ⟨20, _⟩ => ⟨S2048x64, .f32⟩
  | .hbm, ⟨21, _⟩ => ⟨S2048x64, .f32⟩
  | .hbm, ⟨22, _⟩ => ⟨S1x64, .f32⟩
  | .hbm, ⟨23, _⟩ => ⟨S1x1, .f32⟩
  | .hbm, ⟨24, _⟩ => ⟨S2048x2048, .f32⟩
  | .hbm, ⟨25, _⟩ => ⟨S1x2048, .f32⟩
  | .hbm, ⟨26, _⟩ => ⟨S2048x1, .f32⟩
  | .hbm, ⟨27, _⟩ => ⟨S2048x8, .f32⟩
  | .hbm, ⟨28, _⟩ => ⟨S2048x8, .f32⟩
  | .hbm, ⟨29, _⟩ => ⟨S2048x8, .f32⟩
  | .local _ .vmem, ⟨0, _⟩ => ⟨S128x256x64, .f32⟩
  | .local _ .vmem, ⟨1, _⟩ => ⟨S128x256x64, .f32⟩
  | .local _ .vmem, ⟨2, _⟩ => ⟨S128x64, .f32⟩
  | .local _ .vmem, ⟨3, _⟩ => ⟨S128x64, .f32⟩
  | .local _ .vmem, ⟨4, _⟩ => ⟨S256x64, .f32⟩
  | .local _ .vmem, ⟨5, _⟩ => ⟨S256x64, .f32⟩
  | .local _ .vmem, ⟨6, _⟩ => ⟨S1x64, .f32⟩
  | .local _ .vmem, ⟨7, _⟩ => ⟨S1x1, .f32⟩
  | .local _ .vmem, ⟨8, _⟩ => ⟨S128x256, .f32⟩
  | .local _ .vmem, ⟨9, _⟩ => ⟨S128x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S512x2048, .f32⟩
  | .local _ .vmem, ⟨14, _⟩ => ⟨S512x2048, .f32⟩
  | .local _ .vmem, ⟨15, _⟩ => ⟨S2048x8, .f32⟩
  | .local _ .vmem, ⟨16, _⟩ => ⟨S512x8, .f32⟩
  | .local _ .vmem, ⟨17, _⟩ => ⟨S512x8, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v36 : BitVec 1 := Scalar.cmpi .eq arg1 c15_i32
  let v37 : BitVec 32 := Scalar.extui v36
  let c0_i32_21 : BitVec 32 := 0#32
  let v38 : BitVec 1 := Scalar.cmpi .ne v37 c0_i32_21
  v38

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S128x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S8_S1x8_1 : S8.BroadcastsInDim S1x8 (![1] : Fin 1 → Fin S1x8.rank)
  bcast_S1x8_S2048x8_0_1 : S1x8.BroadcastsInDim S2048x8 (![0, 1] : Fin 2 → Fin S2048x8.rank)
  bcast_S64_S1x64_1 : S64.BroadcastsInDim S1x64 (![1] : Fin 1 → Fin S1x64.rank)
  bcast_S1x64_S2048x64_0_1 : S1x64.BroadcastsInDim S2048x64 (![0, 1] : Fin 2 → Fin S2048x64.rank)
  transposes_S64x1_S1x64_1_0 : S64x1.Transposes [1, 0] S1x64
  shapeCasts_S1_S1x1 : S1.ShapeCasts S1x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S128x256x64_S128x256x64_0_0_0 : ∀ a, (![0, 0, 0] : Fin 3 → Nat) a + S128x256x64.size a ≤ S128x256x64.size a
  h_S128x256x64 : 0 < S128x256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S1x64_S1x1x64 : S1x64.ShapeCasts S1x1x64
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  broadcasts_S1x1x64_S128x256x64 : S1x1x64.Broadcasts S128x256x64
  reduces_S128x256x64_S128x256 : S128x256x64.Reduces [2] S128x256
  inb_S128x64_S128x64_0_0 : ∀ a, (![0, 0] : Fin 2 → Nat) a + S128x64.size a ≤ S128x64.size a
  h_S128x64 : 0 < S128x64.numel
  shapeCasts_S128x64_S128x64 : S128x64.ShapeCasts S128x64
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  shapeCasts_S256x64_S256x64 : S256x64.ShapeCasts S256x64
  transposes_S256x64_p1_0_S64x256 : S256x64.Transposes [1, 0] S64x256
  inb_S128x256_S128x256_0_0 : ∀ a, (![0, 0] : Fin 2 → Nat) a + S128x256.size a ≤ S128x256.size a
  h_S128x256 : 0 < S128x256.numel
  reduces_S128x256_S256 : S128x256.Reduces [0] S256
  shapeCasts_S256_S1x256 : S256.ShapeCasts S1x256
  transposes_S1x2048_S2048x1_1_0 : S1x2048.Transposes [1, 0] S2048x1
  bcast_S2048x1_S2048x8_0_1 : S2048x1.BroadcastsInDim S2048x8 (![0, 1] : Fin 2 → Fin S2048x8.rank)
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x8_S2048x8_0_0 : ∀ a, (![0, 0] : Fin 2 → Nat) a + S2048x8.size a ≤ S2048x8.size a
  h_S2048x8 : 0 < S2048x8.numel
  shapeCasts_S2048x8_S2048x8 : S2048x8.ShapeCasts S2048x8
  inb_S512x8_S512x8_0_0 : ∀ a, (![0, 0] : Fin 2 → Nat) a + S512x8.size a ≤ S512x8.size a
  h_S512x8 : 0 < S512x8.numel
  dot_S2048x128_S128x8_S2048x8_1_0_0_1_n_n_wf : DotDims.WF S2048x128 S128x8 S2048x8 [1] [0] [0] [1] [] []
  dot_S2048x128_S128x64_S2048x64_1_0_0_1_n_n_wf : DotDims.WF S2048x128 S128x64 S2048x64 [1] [0] [0] [1] [] []
  dot_S128x64_S64x256_S128x256_1_0_0_1_n_n_wf : DotDims.WF S128x64 S64x256 S128x256 [1] [0] [0] [1] [] []
  dot_S512x2048_S2048x8_S512x8_1_0_0_1_n_n_wf : DotDims.WF S512x2048 S2048x8 S512x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256x64.size a ≤ S2048x2048x64.size a
  hwx0_0 : ∀ i : grid0.Coords, EltTy.bits .f32 = 32 ∨ (Rect.block (s := S2048x2048x64) S128x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S2048x64.size a
  hwx0_1 : ∀ i : grid0.Coords, EltTy.bits .f32 = 32 ∨ (Rect.block (s := S2048x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S2048x64.size a
  hwx0_2 : ∀ i : grid0.Coords, EltTy.bits .f32 = 32 ∨ (Rect.block (s := S2048x64) S256x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S2048x2048.size a
  hwx0_5 : ∀ i : grid0.Coords, EltTy.bits .f32 = 32 ∨ (Rect.block (s := S2048x2048) S128x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x2048.size a
  hwx0_6 : ∀ i : grid0.Coords, EltTy.bits .f32 = 32 ∨ (Rect.block (s := S1x2048) S1x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S2048x2048.size a
  hwx1_0 : ∀ i : grid1.Coords, EltTy.bits .f32 = 32 ∨ (Rect.block (s := S2048x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x8.size a ≤ S2048x8.size a
  hwx1_1 : ∀ i : grid1.Coords, EltTy.bits .f32 = 32 ∨ (Rect.block (s := S2048x8) S2048x8.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x8.size a ≤ S2048x8.size a
  hwx1_2 : ∀ i : grid1.Coords, EltTy.bits .f32 = 32 ∨ (Rect.block (s := S2048x8) S512x8.size (cc1_transform_2 i) (hinb1_2 i)).WholeWords (EltTy.packing .f32)

variable [Facts₀]

def dot_S2048x128_S128x8_S2048x8_1_0_0_1_n_n : DotDims S2048x128 S128x8 S2048x8 where
  lhsContracting := [1]
  rhsContracting := [0]
  lhsNonContracting := [0]
  rhsNonContracting := [1]
  lhsBatch := []
  rhsBatch := []
  wf := dot_S2048x128_S128x8_S2048x8_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S128x64_S64x256_S128x256_1_0_0_1_n_n : DotDims S128x64 S64x256 S128x256 where
  lhsContracting := [1]
  rhsContracting := [0]
  lhsNonContracting := [0]
  rhsNonContracting := [1]
  lhsBatch := []
  rhsBatch := []
  wf := dot_S128x64_S64x256_S128x256_1_0_0_1_n_n_wf
def dot_S512x2048_S2048x8_S512x8_1_0_0_1_n_n : DotDims S512x2048 S2048x8 S512x8 where
  lhsContracting := [1]
  rhsContracting := [0]
  lhsNonContracting := [0]
  rhsNonContracting := [1]
  lhsBatch := []
  rhsBatch := []
  wf := dot_S512x2048_S2048x8_S512x8_1_0_0_1_n_n_wf

abbrev win0_0 : Pipeline.Window sig grid0 :=
  Pipeline.Window.ofSpec (Memref.whole main_arg1) S128x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14_0) S128x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v14_1) S1x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v14_0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S2048x8.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S512x8.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S2048x128 : Shape := ⟨2, ![2048, 128]⟩
abbrev S2048x2048x64 : Shape := ⟨3, ![2048, 2048, 64]⟩
abbrev S128x8 : Shape := ⟨2, ![128, 8]⟩
abbrev S8 : Shape := ⟨1, ![8]⟩
abbrev S128x64 : Shape := ⟨2, ![128, 64]⟩
abbrev S64 : Shape := ⟨1, ![64]⟩
abbrev S64x1 : Shape := ⟨2, ![64, 1]⟩
abbrev S1 : Shape := ⟨1, ![1]⟩
abbrev S2048x8 : Shape := ⟨2, ![2048, 8]⟩
abbrev S1x8 : Shape := ⟨2, ![1, 8]⟩
abbrev S2048x64 : Shape := ⟨2, ![2048, 64]⟩
abbrev S1x64 : Shape := ⟨2, ![1, 64]⟩
abbrev S64x2048 : Shape := ⟨2, ![64, 2048]⟩
abbrev S2048x2048 : Shape := ⟨2, ![2048, 2048]⟩
abbrev S_ : Shape := ⟨0, ![]⟩
abbrev S4194304x64 : Shape := ⟨2, ![4194304, 64]⟩
abbrev S4194304x1 : Shape := ⟨2, ![4194304, 1]⟩
abbrev S1x1 : Shape := ⟨2, ![1, 1]⟩
abbrev S2048 : Shape := ⟨1, ![2048]⟩
abbrev S1x2048 : Shape := ⟨2, ![1, 2048]⟩

abbrev nBuf : Space → Nat
  | .hbm => 47
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048x2048x64, .f32⟩
  | .hbm, ⟨2, _⟩ => ⟨S128x8, .f32⟩
  | .hbm, ⟨3, _⟩ => ⟨S8, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S2048x8, .f32⟩
  | .hbm, ⟨11, _⟩ => ⟨S1x8, .f32⟩
  | .hbm, ⟨12, _⟩ => ⟨S2048x8, .f32⟩
  | .hbm, ⟨13, _⟩ => ⟨S2048x8, .f32⟩
  | .hbm, ⟨14, _⟩ => ⟨S2048x64, .f32⟩
  | .hbm, ⟨15, _⟩ => ⟨S1x64, .f32⟩
  | .hbm, ⟨16, _⟩ => ⟨S2048x64, .f32⟩
  | .hbm, ⟨17, _⟩ => ⟨S2048x64, .f32⟩
  | .hbm, ⟨18, _⟩ => ⟨S2048x64, .f32⟩
  | .hbm, ⟨19, _⟩ => ⟨S1x64, .f32⟩
  | .hbm, ⟨20, _⟩ => ⟨S2048x64, .f32⟩
  | .hbm, ⟨21, _⟩ => ⟨S2048x64, .f32⟩
  | .hbm, ⟨22, _⟩ => ⟨S64x2048, .f32⟩
  | .hbm, ⟨23, _⟩ => ⟨S2048x2048, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S2048x2048, .f32⟩
  | .hbm, ⟨29, _⟩ => ⟨S2048x2048, .f32⟩
  | .hbm, ⟨30, _⟩ => ⟨S4194304x64, .f32⟩
  | .hbm, ⟨31, _⟩ => ⟨S4194304x1, .f32⟩
  | .hbm, ⟨32, _⟩ => ⟨S1x1, .f32⟩
  | .hbm, ⟨33, _⟩ => ⟨S4194304x1, .f32⟩
  | .hbm, ⟨34, _⟩ => ⟨S4194304x1, .f32⟩
  | .hbm, ⟨35, _⟩ => ⟨S2048x2048, .f32⟩
  | .hbm, ⟨36, _⟩ => ⟨S_, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S_, .f32⟩
  | .hbm, ⟨42, _⟩ => ⟨S2048, .f32⟩
  | .hbm, ⟨43, _⟩ => ⟨S1x2048, .f32⟩
  | .hbm, ⟨44, _⟩ => ⟨S2048x2048, .f32⟩
  | .hbm, ⟨45, _⟩ => ⟨S2048x2048, .f32⟩
  | .hbm, ⟨46, _⟩ => ⟨S2048x8, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_cst : Ref sig .tc := ⟨.hbm, 36, rfl⟩
abbrev main_call0_v0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_1 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]

class Facts₀ : Prop where
  bcast_S8_S1x8_1 : S8.BroadcastsInDim S1x8 (![1] : Fin 1 → Fin S1x8.rank)
  bcast_S1x8_S2048x8_0_1 : S1x8.BroadcastsInDim S2048x8 (![0, 1] : Fin 2 → Fin S2048x8.rank)
  bcast_S64_S1x64_1 : S64.BroadcastsInDim S1x64 (![1] : Fin 1 → Fin S1x64.rank)
  bcast_S1x64_S2048x64_0_1 : S1x64.BroadcastsInDim S2048x64 (![0, 1] : Fin 2 → Fin S2048x64.rank)
  transposes_S2048x64_S64x2048_1_0 : S2048x64.Transposes [1, 0] S64x2048
  bcast_S_S2048x2048 : S_.BroadcastsInDim S2048x2048 (![] : Fin 0 → Fin S2048x2048.rank)
  shapeCasts_S2048x2048x64_S4194304x64 : S2048x2048x64.ShapeCasts S4194304x64
  bcast_S1_S1x1_1 : S1.BroadcastsInDim S1x1 (![1] : Fin 1 → Fin S1x1.rank)
  bcast_S1x1_S4194304x1_0_1 : S1x1.BroadcastsInDim S4194304x1 (![0, 1] : Fin 2 → Fin S4194304x1.rank)
  shapeCasts_S4194304x1_S2048x2048 : S4194304x1.ShapeCasts S2048x2048
  reducesTo_S2048x2048_S2048_d0 : S2048x2048.ReducesTo [0] S2048
  h_S_ : 0 < S_.numel
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  dot_S2048x128_S128x8_S2048x8_1_0_0_1_n_n_wf : DotDims.WF S2048x128 S128x8 S2048x8 [1] [0] [0] [1] [] []
  dot_S2048x128_S128x64_S2048x64_1_0_0_1_n_n_wf : DotDims.WF S2048x128 S128x64 S2048x64 [1] [0] [0] [1] [] []
  dot_S2048x64_S64x2048_S2048x2048_1_0_0_1_n_n_wf : DotDims.WF S2048x64 S64x2048 S2048x2048 [1] [0] [0] [1] [] []
  dot_S4194304x64_S64x1_S4194304x1_1_0_0_1_n_n_wf : DotDims.WF S4194304x64 S64x1 S4194304x1 [1] [0] [0] [1] [] []
  dot_S2048x2048_S2048x8_S2048x8_1_0_0_1_n_n_wf : DotDims.WF S2048x2048 S2048x8 S2048x8 [1] [0] [0] [1] [] []

variable [Facts₀]

def dot_S2048x128_S128x8_S2048x8_1_0_0_1_n_n : DotDims S2048x128 S128x8 S2048x8 where
  lhsContracting := [1]
  rhsContracting := [0]
  lhsNonContracting := [0]
  rhsNonContracting := [1]
  lhsBatch := []
  rhsBatch := []
  wf := dot_S2048x128_S128x8_S2048x8_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x64_S64x2048_S2048x2048_1_0_0_1_n_n : DotDims S2048x64 S64x2048 S2048x2048 where
  lhsContracting := [1]
  rhsContracting := [0]
  lhsNonContracting := [0]
  rhsNonContracting := [1]
  lhsBatch := []
  rhsBatch := []
  wf := dot_S2048x64_S64x2048_S2048x2048_1_0_0_1_n_n_wf
def dot_S4194304x64_S64x1_S4194304x1_1_0_0_1_n_n : DotDims S4194304x64 S64x1 S4194304x1 where
  lhsContracting := [1]
  rhsContracting := [0]
  lhsNonContracting := [0]
  rhsNonContracting := [1]
  lhsBatch := []
  rhsBatch := []
  wf := dot_S4194304x64_S64x1_S4194304x1_1_0_0_1_n_n_wf
def dot_S2048x2048_S2048x8_S2048x8_1_0_0_1_n_n : DotDims S2048x2048 S2048x8 S2048x8 where
  lhsContracting := [1]
  rhsContracting := [0]
  lhsNonContracting := [0]
  rhsNonContracting := [1]
  lhsBatch := []
  rhsBatch := []
  wf := dot_S2048x2048_S2048x8_S2048x8_1_0_0_1_n_n_wf

class Facts : Prop extends Facts₀ where

variable [Facts]
-- ==== Proof.Kernel.Shared.lean ====
/-
  What both kernel regions' frame proofs share: the two branch conditions of the gate kernel's body in
  closed form over the grid (the accumulator is reset at the first row tile of every column tile and the
  column sums are handed to their output window at the last one), where the column-sum window is idle,
  the staging and scratch memrefs by name, the blocks the input windows hold at a point, and the class
  invariant of region 0 with the accumulator scratch split off.
-/
import proofs.«146286_j30580167147772_1_alg».proof.Proof.Gen.Kernel.Launch
import proofs.«146286_j30580167147772_1_alg».proof.Proof.Gen.Kernel.Skeleton
import proofs.«146286_j30580167147772_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions of the gate kernel -/

/-- "This is the first row tile of the column tile": the accumulator is reset here. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- "This is the last row tile of the column tile": the accumulated column sums go to their window here. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows of region 0 are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Away from the last row tile the column-sum window is idle and is not written back. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel

/-! ## The memrefs the body is called with -/

abbrev ms0_0 (t : Fin cfg0.N) : Memref sig .tc .vmem S128x256x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
/-- The accumulator: a scoped buffer of the kernel's own, carried from point to point. -/
abbrev scM0_0 : Memref sig .tc .vmem S1x256 .f32 := Memref.whole cc0_scratch0

/-- One staging buffer of each output window of region 0 and the scratch, as views their contents are stated through. -/
abbrev VO0_5 : View sig .tc .vmem S128x256 .f32 := (Memref.whole cc0_stg5_0 : Memref sig .tc .vmem S128x256 .f32).view
abbrev VO0_6 : View sig .tc .vmem S1x256 .f32 := (Memref.whole cc0_stg6_0 : Memref sig .tc .vmem S1x256 .f32).view
abbrev VS0_0 : View sig .tc .vmem S1x256 .f32 := scM0_0.view

/-- The scoped buffers region 0 neither stages nor names: region 1's staging buffers, each whole at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- Region 0's class invariant with the accumulator as a memref owned at some contents. -/
theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA others0; rw [scopedRest0_eq]; simp only [scM0_0, owns_whole]; try rfl

/-! ## The blocks the input windows of region 0 hold -/

section Blocks
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The same for region 1's two input windows. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Blocks

end Cert.Kernel.Hand

end
-- ==== Proof.Kernel.Run0A.lean ====
/-
  The gate kernel's body at the first row tile of a column tile: the accumulator, whatever it held, is reset, the gated block is stored, and the block's column sums are added to the accumulator; the column-sum window is left as found. The pieces the stores leave are found by running the body.
-/
import proofs.«146286_j30580167147772_1_alg».proof.Proof.Kernel.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hc0 : cond0_0 i) (hc1 : ¬cond0_1 i)
    (x0 : Vec F S128x256x64 .f32) (x1 : Vec F S128x64 .f32) (x2 : Vec F S256x64 .f32) (x3 : Vec F S1x64 .f32) (x4 : Vec F S1x1 .f32) :
    Σ' (L5 : List (View.Piece (Elt F) S128x256 .f32)), { LS0 : List (View.Piece (Elt F) S1x256 .f32) //
      ∀ (xi6 : Vec F S1x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__geom_gate_kernel i arg2 harg2 arg3 harg3 arg4 harg4 arg5 harg5 arg6 harg6 arg7 harg7 arg8 harg8 arg9 harg9) K } := by
  refine ⟨?_, ?_, fun xi6 E K => ?run⟩
  case run =>
    simp only [cc0__geom_gate_kernel_eq_skeleton]; unfold cc0__geom_gate_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    iexists _; iexact HS0

end Cert.Kernel.Hand

end
-- ==== Proof.Kernel.Run0B.lean ====
/-
  The gate kernel's body at a row tile that is neither the first nor the last of its column tile: the gated block is stored and its column sums are added to what the accumulator held; the column-sum window is left as found.
-/
import proofs.«146286_j30580167147772_1_alg».proof.Proof.Kernel.Run0A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : ¬cond0_1 i)
    (x0 : Vec F S128x256x64 .f32) (x1 : Vec F S128x64 .f32) (x2 : Vec F S256x64 .f32) (x3 : Vec F S1x64 .f32) (x4 : Vec F S1x1 .f32) (xs0 : Vec F S1x256 .f32) :
    Σ' (L5 : List (View.Piece (Elt F) S128x256 .f32)), { LS0 : List (View.Piece (Elt F) S1x256 .f32) //
      ∀ (xi6 : Vec F S1x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__geom_gate_kernel i arg2 harg2 arg3 harg3 arg4 harg4 arg5 harg5 arg6 harg6 arg7 harg7 arg8 harg8 arg9 harg9) K } := by
  refine ⟨?_, ?_, fun xi6 E K => ?run⟩
  case run =>
    simp only [cc0__geom_gate_kernel_eq_skeleton]; unfold cc0__geom_gate_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    iexists _; iexact HS0

end Cert.Kernel.Hand

end
-- ==== Proof.Kernel.Run0C.lean ====
/-
  The gate kernel's body at the last row tile of a column tile: the gated block is stored, its column sums are added to what the accumulator held, and the accumulator is copied to the column-sum window.
-/
import proofs.«146286_j30580167147772_1_alg».proof.Proof.Kernel.Run0B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : cond0_1 i)
    (x0 : Vec F S128x256x64 .f32) (x1 : Vec F S128x64 .f32) (x2 : Vec F S256x64 .f32) (x3 : Vec F S1x64 .f32) (x4 : Vec F S1x1 .f32) (xs0 : Vec F S1x256 .f32) :
    Σ' (L5 : List (View.Piece (Elt F) S128x256 .f32)) (L6 : List (View.Piece (Elt F) S1x256 .f32)), { LS0 : List (View.Piece (Elt F) S1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0__geom_gate_kernel i arg2 harg2 arg3 harg3 arg4 harg4 arg5 harg5 arg6 harg6 arg7 harg7 arg8 harg8 arg9 harg9) K } := by
  refine ⟨?_, ?_, ?_, fun E K => ?run⟩
  case run =>
    simp only [cc0__geom_gate_kernel_eq_skeleton]; unfold cc0__geom_gate_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact HS0

end Cert.Kernel.Hand

end
-- ==== Proof.Kernel.Region0.lean ====
/-
  Region 0, the gate kernel, as proof data for the pipeline: what the stores of each of the body's three
  cases leave in the gated-block window, the column-sum window and the accumulator (the pieces the runs
  found, read back), what those hold after each grid point by recursion on the point (the accumulator at a
  later row tile is computed from what the tile before left), the region invariant that carries the
  accumulator between points, and the body obligation at every point.
-/
import proofs.«146286_j30580167147772_1_alg».proof.Proof.Kernel.Run0C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

theorem cover0_A_5 (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hc0 : cond0_0 i) (hc1 : ¬cond0_1 i) (x0 : Vec F S128x256x64 .f32) (x1 : Vec F S128x64 .f32) (x2 : Vec F S256x64 .f32) (x3 : Vec F S1x64 .f32) (x4 : Vec F S1x1 .f32) (y : S128x256.Idx) :
    ∃ pc ∈ (kernelRun0_A c i arg2 harg2 arg3 harg3 arg4 harg4 arg5 harg5 arg6 harg6 arg7 harg7 arg8 harg8 arg9 harg9 hc0 hc1 x0 x1 x2 x3 x4).1, y ∈ pc.1.set :=
  View.cover_of_tiledL (kernelRun0_A c i arg2 harg2 arg3 harg3 arg4 harg4 arg5 harg5 arg6 harg6 arg7 harg7 arg8 harg8 arg9 harg9 hc0 hc1 x0 x1 x2 x3 x4).1 S128x256.size (by sl_kernel_rfl) y
theorem scover0_A_0 (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hc0 : cond0_0 i) (hc1 : ¬cond0_1 i) (x0 : Vec F S128x256x64 .f32) (x1 : Vec F S128x64 .f32) (x2 : Vec F S256x64 .f32) (x3 : Vec F S1x64 .f32) (x4 : Vec F S1x1 .f32) (y : S1x256.Idx) :
    ∃ pc ∈ (kernelRun0_A c i arg2 harg2 arg3 harg3 arg4 harg4 arg5 harg5 arg6 harg6 arg7 harg7 arg8 harg8 arg9 harg9 hc0 hc1 x0 x1 x2 x3 x4).2.1, y ∈ pc.1.set :=
  View.cover_of_tiledL (kernelRun0_A c i arg2 harg2 arg3 harg3 arg4 harg4 arg5 harg5 arg6 harg6 arg7 harg7 arg8 harg8 arg9 harg9 hc0 hc1 x0 x1 x2 x3 x4).2.1 S1x256.size (by sl_kernel_rfl) y
theorem cover0_B_5 (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : ¬cond0_1 i) (x0 : Vec F S128x256x64 .f32) (x1 : Vec F S128x64 .f32) (x2 : Vec F S256x64 .f32) (x3 : Vec F S1x64 .f32) (x4 : Vec F S1x1 .f32) (xs0 : Vec F S1x256 .f32) (y : S128x256.Idx) :
    ∃ pc ∈ (kernelRun0_B c i arg2 harg2 arg3 harg3 arg4 harg4 arg5 harg5 arg6 harg6 arg7 harg7 arg8 harg8 arg9 harg9 hc0 hc1 x0 x1 x2 x3 x4 xs0).1, y ∈ pc.1.set :=
  View.cover_of_tiledL (kernelRun0_B c i arg2 harg2 arg3 harg3 arg4 harg4 arg5 harg5 arg6 harg6 arg7 harg7 arg8 harg8 arg9 harg9 hc0 hc1 x0 x1 x2 x3 x4 xs0).1 S128x256.size (by sl_kernel_rfl) y
theorem scover0_B_0 (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : ¬cond0_1 i) (x0 : Vec F S128x256x64 .f32) (x1 : Vec F S128x64 .f32) (x2 : Vec F S256x64 .f32) (x3 : Vec F S1x64 .f32) (x4 : Vec F S1x1 .f32) (xs0 : Vec F S1x256 .f32) (y : S1x256.Idx) :
    ∃ pc ∈ (kernelRun0_B c i arg2 harg2 arg3 harg3 arg4 harg4 arg5 harg5 arg6 harg6 arg7 harg7 arg8 harg8 arg9 harg9 hc0 hc1 x0 x1 x2 x3 x4 xs0).2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 x4 xs0).2.1 S1x256.size (by sl_kernel_rfl) y
theorem cover0_C_5 (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : cond0_1 i) (x0 : Vec F S128x256x64 .f32) (x1 : Vec F S128x64 .f32) (x2 : Vec F S256x64 .f32) (x3 : Vec F S1x64 .f32) (x4 : Vec F S1x1 .f32) (xs0 : Vec F S1x256 .f32) (y : S128x256.Idx) :
    ∃ pc ∈ (kernelRun0_C c i arg2 harg2 arg3 harg3 arg4 harg4 arg5 harg5 arg6 harg6 arg7 harg7 arg8 harg8 arg9 harg9 hc0 hc1 x0 x1 x2 x3 x4 xs0).1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 xs0).1 S128x256.size (by sl_kernel_rfl) y
theorem cover0_C_6 (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : cond0_1 i) (x0 : Vec F S128x256x64 .f32) (x1 : Vec F S128x64 .f32) (x2 : Vec F S256x64 .f32) (x3 : Vec F S1x64 .f32) (x4 : Vec F S1x1 .f32) (xs0 : Vec F S1x256 .f32) (y : S1x256.Idx) :
    ∃ pc ∈ (kernelRun0_C c i arg2 harg2 arg3 harg3 arg4 harg4 arg5 harg5 arg6 harg6 arg7 harg7 arg8 harg8 arg9 harg9 hc0 hc1 x0 x1 x2 x3 x4 xs0).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 xs0).2.1 S1x256.size (by sl_kernel_rfl) y
theorem scover0_C_0 (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : cond0_1 i) (x0 : Vec F S128x256x64 .f32) (x1 : Vec F S128x64 .f32) (x2 : Vec F S256x64 .f32) (x3 : Vec F S1x64 .f32) (x4 : Vec F S1x1 .f32) (xs0 : Vec F S1x256 .f32) (y : S1x256.Idx) :
    ∃ pc ∈ (kernelRun0_C c i arg2 harg2 arg3 harg3 arg4 harg4 arg5 harg5 arg6 harg6 arg7 harg7 arg8 harg8 arg9 harg9 hc0 hc1 x0 x1 x2 x3 x4 xs0).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 xs0).2.2.1 S1x256.size (by sl_kernel_rfl) y

/-- A case's pieces for the gated-block window, read back over junk. -/
def out0_A_5 (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hc0 : cond0_0 i) (hc1 : ¬cond0_1 i) (x0 : Vec F S128x256x64 .f32) (x1 : Vec F S128x64 .f32) (x2 : Vec F S256x64 .f32) (x3 : Vec F S1x64 .f32) (x4 : Vec F S1x1 .f32) : Vec F S128x256 .f32 :=
  VO0_5.read (Elt F) (VO0_5.writes (Elt F) VO0_5.junk (kernelRun0_A c i arg2 harg2 arg3 harg3 arg4 harg4 arg5 harg5 arg6 harg6 arg7 harg7 arg8 harg8 arg9 harg9 hc0 hc1 x0 x1 x2 x3 x4).1)
def sout0_A_0 (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hc0 : cond0_0 i) (hc1 : ¬cond0_1 i) (x0 : Vec F S128x256x64 .f32) (x1 : Vec F S128x64 .f32) (x2 : Vec F S256x64 .f32) (x3 : Vec F S1x64 .f32) (x4 : Vec F S1x1 .f32) : Vec F S1x256 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2 x3 x4).2.1)
def out0_B_5 (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : ¬cond0_1 i) (x0 : Vec F S128x256x64 .f32) (x1 : Vec F S128x64 .f32) (x2 : Vec F S256x64 .f32) (x3 : Vec F S1x64 .f32) (x4 : Vec F S1x1 .f32) (xs0 : Vec F S1x256 .f32) : Vec F S128x256 .f32 :=
  VO0_5.read (Elt F) (VO0_5.writes (Elt F) VO0_5.junk (kernelRun0_B c i arg2 harg2 arg3 harg3 arg4 harg4 arg5 harg5 arg6 harg6 arg7 harg7 arg8 harg8 arg9 harg9 hc0 hc1 x0 x1 x2 x3 x4 xs0).1)
def sout0_B_0 (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : ¬cond0_1 i) (x0 : Vec F S128x256x64 .f32) (x1 : Vec F S128x64 .f32) (x2 : Vec F S256x64 .f32) (x3 : Vec F S1x64 .f32) (x4 : Vec F S1x1 .f32) (xs0 : Vec F S1x256 .f32) : Vec F S1x256 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 x3 x4 xs0).2.1)
def out0_C_5 (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : cond0_1 i) (x0 : Vec F S128x256x64 .f32) (x1 : Vec F S128x64 .f32) (x2 : Vec F S256x64 .f32) (x3 : Vec F S1x64 .f32) (x4 : Vec F S1x1 .f32) (xs0 : Vec F S1x256 .f32) : Vec F S128x256 .f32 :=
  VO0_5.read (Elt F) (VO0_5.writes (Elt F) VO0_5.junk (kernelRun0_C c i arg2 harg2 arg3 harg3 arg4 harg4 arg5 harg5 arg6 harg6 arg7 harg7 arg8 harg8 arg9 harg9 hc0 hc1 x0 x1 x2 x3 x4 xs0).1)
def out0_C_6 (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : cond0_1 i) (x0 : Vec F S128x256x64 .f32) (x1 : Vec F S128x64 .f32) (x2 : Vec F S256x64 .f32) (x3 : Vec F S1x64 .f32) (x4 : Vec F S1x1 .f32) (xs0 : Vec F S1x256 .f32) : Vec F S1x256 .f32 :=
  VO0_6.read (Elt F) (VO0_6.writes (Elt F) VO0_6.junk (kernelRun0_C c i arg2 harg2 arg3 harg3 arg4 harg4 arg5 harg5 arg6 harg6 arg7 harg7 arg8 harg8 arg9 harg9 hc0 hc1 x0 x1 x2 x3 x4 xs0).2.1)
def sout0_C_0 (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : cond0_1 i) (x0 : Vec F S128x256x64 .f32) (x1 : Vec F S128x64 .f32) (x2 : Vec F S256x64 .f32) (x3 : Vec F S1x64 .f32) (x4 : Vec F S1x1 .f32) (xs0 : Vec F S1x256 .f32) : Vec F S1x256 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 x3 x4 xs0).2.2.1)
/-- The column-sum window where no case stores into it: a placeholder nothing consults (the window is idle and not written back there). -/
def out0_idle_6 : Vec F S1x256 .f32 := VO0_6.read (Elt F) (VO0_6.writes (Elt F) VO0_6.junk [])

section Region
variable (V : (c : Dev nD) → (b : Ref sig .tc) → Buf (Elt F) ((c : Thread nD τ).loc b))

/-! ## What the two output windows and the accumulator hold after each point -/

/-- The gated block, the column-sum window and the accumulator after the body at position `n`: the case the closed forms
    select there, run at the point's memrefs and input blocks, the accumulator of a later row tile computed from what
    position `n - 1` left. -/
def outsAt0 (c : Dev nD) : (n : ℕ) → n < cfg0.N → Vec F S128x256 .f32 × Vec F S1x256 .f32 × Vec F S1x256 .f32
  | 0, hn =>
    (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩),
     out0_idle_6,
     sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 16 = 0 then
      if h1 : (n + 1) % 16 = 15 then
        False.elim (by omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩),
         out0_idle_6,
         sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      if h1 : (n + 1) % 16 = 15 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2,
         out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2,
         sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2,
         out0_idle_6,
         sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2)

theorem outsAt0_A (c : Dev nD) (t : Fin cfg0.N) (h0 : t.val % 16 = 0) (h1 : ¬t.val % 16 = 15) :
    outsAt0 V c t.val t.isLt =
      (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t),
       out0_idle_6,
       sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 V c t.val t.isLt =
      (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2,
       out0_idle_6,
       sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 V c t.val t.isLt =
      (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2,
       out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2,
       sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator carried between points -/

/-- Before the first point the class's invariant (the accumulator at anything); afterwards the accumulator at what
    the point before left in it, region 1's staging buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ others0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2.2) ∗ others0 c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2.2) ∗ others0 c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]
theorem leaves0_3 (c : Dev nD) (t : Fin cfg0.N) : (dat0 V c).leavesExact 3 t = owns (c : Thread nD τ) (ms0_3 t) fullShare (iblk0 V c 3 t) := by
  unfold Dat.leavesExact; rw [liveAt0_3 t, after0_3]
theorem leaves0_4 (c : Dev nD) (t : Fin cfg0.N) : (dat0 V c).leavesExact 4 t = owns (c : Thread nD τ) (ms0_4 t) fullShare (iblk0 V c 4 t) := by
  unfold Dat.leavesExact; rw [liveAt0_4 t, after0_4]
theorem leaves0_5 (c : Dev nD) (t : Fin cfg0.N) : (dat0 V c).leavesExact 5 t = owns (c : Thread nD τ) (ms0_5 t) fullShare ((outsAt0 V c t.val t.isLt).1) := by
  unfold Dat.leavesExact; rw [liveAt0_5 t, after0_5]

set_option maxHeartbeats 4800000 in
/-- The body at any point: the closed forms say which case the point is in; the invariant hands the body the accumulator
    at what the point before left (at anything at the very first point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2, leaves0_3, leaves0_4, leaves0_5]
  have hN : t.val < 128 := lt_of_lt_of_eq t.isLt (show cfg0.N = 128 from N_0)
  by_cases h0 : t.val % 16 = 0
  · have h1 : ¬t.val % 16 = 15 := by omega
    rw [Dat.leavesExact_idle (dat0 V c) 6 t (idleAt0_6 t (fun h => h1 ((hcond0_1 t).mp h))) (noFlush0_6 t (fun h => h1 ((hcond0_1 t).mp h)))]
    rw [outsAt0_A V c t h0 h1]
    unfold out0_A_5 sout0_A_0; (try dsimp only)
    by_cases hz : t.val = 0
    · rw [PhiS_castSucc V c t, PhiS_zero V c _ _ hz, PhiA0_eq]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      iintro ⟨H0, H1, H2, H3, H4, ⟨%e5, H5⟩, H6, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _)
      iexists _; iexact H6
    · rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexists _; iexact HS0
      iintro ⟨H0, H1, H2, H3, H4, ⟨%e5, H5⟩, H6, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _)
      iexists _; iexact H6
  · have hz : t.val ≠ 0 := by omega
    by_cases h1 : t.val % 16 = 15
    · rw [show (dat0 V c).leavesExact 6 t = owns (c : Thread nD τ) (ms0_6 t) fullShare ((dat0 V c).after 6 t) from by
        unfold Dat.leavesExact; rw [liveAt0_6 t ((hcond0_1 t).mpr h1)], after0_6]
      rw [outsAt0_C V c t h0 h1]
      unfold out0_C_5 out0_C_6 sout0_C_0; (try dsimp only)
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      iintro ⟨H0, H1, H2, H3, H4, ⟨%e5, H5⟩, ⟨%e6, H6⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_C_5 c _ _ _ _ _ _ _ _ _ _ _ _ _ _ _ _ _ _ _ _ _ _ _ _ _)
      unfold owns; iexists _; isplitr
      swap; · iexact H6
      ipureintro; exact View.read_writes_of_cover _ _ _ _ _ (cover0_C_6 c _ _ _ _ _ _ _ _ _ _ _ _ _ _ _ _ _ _ _ _ _ _ _ _ _)
    · rw [Dat.leavesExact_idle (dat0 V c) 6 t (idleAt0_6 t (fun h => h1 ((hcond0_1 t).mp h))) (noFlush0_6 t (fun h => h1 ((hcond0_1 t).mp h)))]
      rw [outsAt0_B V c t h0 h1]
      unfold out0_B_5 sout0_B_0; (try dsimp only)
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _).2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      iintro ⟨H0, H1, H2, H3, H4, ⟨%e5, H5⟩, H6, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _)
      iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hoth⟩, Hg⟩
  isplitl [HS0 Hoth]
  · isplitl [HS0]
    · iexists _; iexact HS0
    iexact Hoth
  iexact Hg

theorem hout0 (c : Dev nD) : (dat0 V c).Φ (Fin.last cfg0.N) ⊢ Pipeline.ΦA spec0 c :=
  Phi_out0 V c _ (by rw [Fin.val_last]; have : cfg0.N = 128 := N_0; omega)

end Region

end Cert.Kernel.Hand

end
-- ==== Proof.Kernel.Region1.lean ====
/-
  Region 1, the weighted-sum kernel, as proof data for the pipeline: each grid point contracts a block of 512
  rows of the un-normalised weights with the whole rescaled value array and stores the product block; the body
  keeps nothing between points, so what the output window holds after a point is one function of the two input
  blocks at that point.
-/
import proofs.«146286_j30580167147772_1_alg».proof.Proof.Kernel.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The body's accesses, and what it leaves in the output window -/

abbrev r1_0 : Rect S512x2048 := Rect.unit (s := S512x2048) ![0, 0] S512x2048.size inb_S512x2048_S512x2048_0_0
abbrev r1_1 : Rect S2048x8 := Rect.unit (s := S2048x8) ![0, 0] S2048x8.size inb_S2048x8_S2048x8_0_0
abbrev r1_2 : Rect S512x8 := Rect.unit (s := S512x8) ![0, 0] S512x8.size inb_S512x8_S512x8_0_0

/-- The product block: the one store's payload over the two loaded blocks. -/
def out1_2 (x0 : Vec F S512x2048 .f32) (x1 : Vec F S2048x8 .f32) : Vec F S512x8 .f32 :=
  View.canon [⟨r1_2, k1_pay1 (View.ld x0 r1_0) (View.ld x1 r1_1)⟩]

theorem cover1_2 (p0 : Vec F S512x8 .f32) (y : S512x8.Idx) :
    ∃ pc ∈ ([⟨r1_2, p0⟩] : List (View.Piece (Elt F) S512x8 .f32)), y ∈ pc.1.set :=
  View.cover_of_tiled [⟨r1_2, p0⟩] S512x8.size (by rfl) y

set_option maxHeartbeats 1000000 in
/-- The body on whole staging memrefs, the inputs' at read contents and the output's at anything, runs to the
    continuation holding the inputs' as they were and the output's at the product block. -/
theorem sound_kernel1 (c : Dev nD) (E : Set ℕ) (i : grid1.Coords) (arg1 : Memref sig .tc .vmem S512x2048 .f32) (harg1 : arg1.IsWhole) (arg2 : Memref sig .tc .vmem S2048x8 .f32) (harg2 : arg2.IsWhole) (arg3 : Memref sig .tc .vmem S512x8 .f32) (harg3 : arg3.IsWhole)
    (x0 : Vec F S512x2048 .f32) (x1 : Vec F S2048x8 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__wsum_kernel i arg1 harg1 arg2 harg2 arg3 harg3) K := by
  simp only [cc1__wsum_kernel_eq_skeleton]; unfold cc1__wsum_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Region

end Cert.Kernel.Hand

end
-- ==== Proof.Kernel.Main.lean ====
/-
  The whole run of the program: the buffers' contents at each boundary of @main as a fold (the host
  operations before the gate kernel, what the gate kernel's pipeline leaves in its two result arrays, the
  three host operations that rescale the value projection, what the weighted-sum kernel's pipeline leaves in
  the result), both kernel regions as segments over the thread state "every unscoped buffer at the
  boundary's contents", and the launch: every weakly fair execution terminates, nothing faults, and at the
  end every unscoped buffer holds the last boundary's contents. The argument arrays are written by no host
  operation and by no region, so the fold at an argument walks back to the launch memory.
-/
import proofs.«146286_j30580167147772_1_alg».proof.Proof.Kernel.Region0
import proofs.«146286_j30580167147772_1_alg».proof.Proof.Kernel.Region1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m ρ 0 c).Φ 0 from hin0 (V1 m ρ) c)
    unfold Pipeline.ΦA
    iintro ⟨Hp, -, Hr⟩
    isplitl [Hr]; · iexact Hr
    iexact Hp
  hout c := by
    rw [Pipeline.ownSems0_none]
    refine BIBase.Entails.trans (show (pdats m ρ 0 c).Φ (Fin.last _) ⊢ Pipeline.ΦA spec0 c from hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and at the end every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c)⟩) (run_all m ρ)

/-- The result array and the arguments at the end: the result is what the weighted-sum kernel's pipeline leaves in it. -/
theorem run_value : θ_run defs (onTc (τ := τ) (main (F := F))) ⟨m, fun _ => 0, ρ⟩ (fun r => ∀ c : Dev nD,
      r.2.mem ((c.tc : Thread nD τ).loc main_v18) = (dat1 (V3 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(h c _ (mem_uc main_v18 (by decide))).trans (W4_arr m ρ c 2),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c)⟩) (run_all m ρ)

end Cert.Kernel.Hand

end
-- ==== Proof.KernelIdeal.Shared.lean ====
/-
  What both kernel regions' frame proofs share: the two branch conditions of the gate kernel's body in
  closed form over the grid (the accumulator is reset at the first row tile of every column tile and the
  column sums are handed to their output window at the last one), where the column-sum window is idle,
  the staging and scratch memrefs by name, the blocks the input windows hold at a point, and the class
  invariant of region 0 with the accumulator scratch split off.
-/
import proofs.«146286_j30580167147772_1_alg».proof.Proof.Gen.KernelIdeal.Launch
import proofs.«146286_j30580167147772_1_alg».proof.Proof.Gen.KernelIdeal.Skeleton
import proofs.«146286_j30580167147772_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions of the gate kernel -/

/-- "This is the first row tile of the column tile": the accumulator is reset here. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- "This is the last row tile of the column tile": the accumulated column sums go to their window here. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows of region 0 are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Away from the last row tile the column-sum window is idle and is not written back. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel

/-! ## The memrefs the body is called with -/

abbrev ms0_0 (t : Fin cfg0.N) : Memref sig .tc .vmem S128x256x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
/-- The accumulator: a scoped buffer of the kernel's own, carried from point to point. -/
abbrev scM0_0 : Memref sig .tc .vmem S1x256 .f32 := Memref.whole cc0_scratch0

/-- One staging buffer of each output window of region 0 and the scratch, as views their contents are stated through. -/
abbrev VO0_5 : View sig .tc .vmem S128x256 .f32 := (Memref.whole cc0_stg5_0 : Memref sig .tc .vmem S128x256 .f32).view
abbrev VO0_6 : View sig .tc .vmem S1x256 .f32 := (Memref.whole cc0_stg6_0 : Memref sig .tc .vmem S1x256 .f32).view
abbrev VS0_0 : View sig .tc .vmem S1x256 .f32 := scM0_0.view

/-- The scoped buffers region 0 neither stages nor names: region 1's staging buffers, each whole at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- Region 0's class invariant with the accumulator as a memref owned at some contents. -/
theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA others0; rw [scopedRest0_eq]; simp only [scM0_0, owns_whole]; try rfl

/-! ## The blocks the input windows of region 0 hold -/

section Blocks
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The same for region 1's two input windows. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Blocks

end Cert.KernelIdeal.Hand

end
-- ==== Proof.KernelIdeal.Run0A.lean ====
/-
  The gate kernel's body at the first row tile of a column tile: the accumulator, whatever it held, is reset, the gated block is stored, and the block's column sums are added to the accumulator; the column-sum window is left as found. The pieces the stores leave are found by running the body.
-/
import proofs.«146286_j30580167147772_1_alg».proof.Proof.KernelIdeal.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hc0 : cond0_0 i) (hc1 : ¬cond0_1 i)
    (x0 : Vec F S128x256x64 .f32) (x1 : Vec F S128x64 .f32) (x2 : Vec F S256x64 .f32) (x3 : Vec F S1x64 .f32) (x4 : Vec F S1x1 .f32) :
    Σ' (L5 : List (View.Piece (Elt F) S128x256 .f32)), { LS0 : List (View.Piece (Elt F) S1x256 .f32) //
      ∀ (xi6 : Vec F S1x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__geom_gate_kernel i arg2 harg2 arg3 harg3 arg4 harg4 arg5 harg5 arg6 harg6 arg7 harg7 arg8 harg8 arg9 harg9) K } := by
  refine ⟨?_, ?_, fun xi6 E K => ?run⟩
  case run =>
    simp only [cc0__geom_gate_kernel_eq_skeleton]; unfold cc0__geom_gate_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    iexists _; iexact HS0

end Cert.KernelIdeal.Hand

end
-- ==== Proof.KernelIdeal.Run0B.lean ====
/-
  The gate kernel's body at a row tile that is neither the first nor the last of its column tile: the gated block is stored and its column sums are added to what the accumulator held; the column-sum window is left as found.
-/
import proofs.«146286_j30580167147772_1_alg».proof.Proof.KernelIdeal.Run0A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : ¬cond0_1 i)
    (x0 : Vec F S128x256x64 .f32) (x1 : Vec F S128x64 .f32) (x2 : Vec F S256x64 .f32) (x3 : Vec F S1x64 .f32) (x4 : Vec F S1x1 .f32) (xs0 : Vec F S1x256 .f32) :
    Σ' (L5 : List (View.Piece (Elt F) S128x256 .f32)), { LS0 : List (View.Piece (Elt F) S1x256 .f32) //
      ∀ (xi6 : Vec F S1x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__geom_gate_kernel i arg2 harg2 arg3 harg3 arg4 harg4 arg5 harg5 arg6 harg6 arg7 harg7 arg8 harg8 arg9 harg9) K } := by
  refine ⟨?_, ?_, fun xi6 E K => ?run⟩
  case run =>
    simp only [cc0__geom_gate_kernel_eq_skeleton]; unfold cc0__geom_gate_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    iexists _; iexact HS0

end Cert.KernelIdeal.Hand

end
-- ==== Proof.KernelIdeal.Run0C.lean ====
/-
  The gate kernel's body at the last row tile of a column tile: the gated block is stored, its column sums are added to what the accumulator held, and the accumulator is copied to the column-sum window.
-/
import proofs.«146286_j30580167147772_1_alg».proof.Proof.KernelIdeal.Run0B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : cond0_1 i)
    (x0 : Vec F S128x256x64 .f32) (x1 : Vec F S128x64 .f32) (x2 : Vec F S256x64 .f32) (x3 : Vec F S1x64 .f32) (x4 : Vec F S1x1 .f32) (xs0 : Vec F S1x256 .f32) :
    Σ' (L5 : List (View.Piece (Elt F) S128x256 .f32)) (L6 : List (View.Piece (Elt F) S1x256 .f32)), { LS0 : List (View.Piece (Elt F) S1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0__geom_gate_kernel i arg2 harg2 arg3 harg3 arg4 harg4 arg5 harg5 arg6 harg6 arg7 harg7 arg8 harg8 arg9 harg9) K } := by
  refine ⟨?_, ?_, ?_, fun E K => ?run⟩
  case run =>
    simp only [cc0__geom_gate_kernel_eq_skeleton]; unfold cc0__geom_gate_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact HS0

end Cert.KernelIdeal.Hand

end
-- ==== Proof.KernelIdeal.Region0.lean ====
/-
  Region 0, the gate kernel, as proof data for the pipeline: what the stores of each of the body's three
  cases leave in the gated-block window, the column-sum window and the accumulator (the pieces the runs
  found, read back), what those hold after each grid point by recursion on the point (the accumulator at a
  later row tile is computed from what the tile before left), the region invariant that carries the
  accumulator between points, and the body obligation at every point.
-/
import proofs.«146286_j30580167147772_1_alg».proof.Proof.KernelIdeal.Run0C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

theorem cover0_A_5 (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hc0 : cond0_0 i) (hc1 : ¬cond0_1 i) (x0 : Vec F S128x256x64 .f32) (x1 : Vec F S128x64 .f32) (x2 : Vec F S256x64 .f32) (x3 : Vec F S1x64 .f32) (x4 : Vec F S1x1 .f32) (y : S128x256.Idx) :
    ∃ pc ∈ (kernelRun0_A c i arg2 harg2 arg3 harg3 arg4 harg4 arg5 harg5 arg6 harg6 arg7 harg7 arg8 harg8 arg9 harg9 hc0 hc1 x0 x1 x2 x3 x4).1, y ∈ pc.1.set :=
  View.cover_of_tiledL (kernelRun0_A c i arg2 harg2 arg3 harg3 arg4 harg4 arg5 harg5 arg6 harg6 arg7 harg7 arg8 harg8 arg9 harg9 hc0 hc1 x0 x1 x2 x3 x4).1 S128x256.size (by sl_kernel_rfl) y
theorem scover0_A_0 (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hc0 : cond0_0 i) (hc1 : ¬cond0_1 i) (x0 : Vec F S128x256x64 .f32) (x1 : Vec F S128x64 .f32) (x2 : Vec F S256x64 .f32) (x3 : Vec F S1x64 .f32) (x4 : Vec F S1x1 .f32) (y : S1x256.Idx) :
    ∃ pc ∈ (kernelRun0_A c i arg2 harg2 arg3 harg3 arg4 harg4 arg5 harg5 arg6 harg6 arg7 harg7 arg8 harg8 arg9 harg9 hc0 hc1 x0 x1 x2 x3 x4).2.1, y ∈ pc.1.set :=
  View.cover_of_tiledL (kernelRun0_A c i arg2 harg2 arg3 harg3 arg4 harg4 arg5 harg5 arg6 harg6 arg7 harg7 arg8 harg8 arg9 harg9 hc0 hc1 x0 x1 x2 x3 x4).2.1 S1x256.size (by sl_kernel_rfl) y
theorem cover0_B_5 (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : ¬cond0_1 i) (x0 : Vec F S128x256x64 .f32) (x1 : Vec F S128x64 .f32) (x2 : Vec F S256x64 .f32) (x3 : Vec F S1x64 .f32) (x4 : Vec F S1x1 .f32) (xs0 : Vec F S1x256 .f32) (y : S128x256.Idx) :
    ∃ pc ∈ (kernelRun0_B c i arg2 harg2 arg3 harg3 arg4 harg4 arg5 harg5 arg6 harg6 arg7 harg7 arg8 harg8 arg9 harg9 hc0 hc1 x0 x1 x2 x3 x4 xs0).1, y ∈ pc.1.set :=
  View.cover_of_tiledL (kernelRun0_B c i arg2 harg2 arg3 harg3 arg4 harg4 arg5 harg5 arg6 harg6 arg7 harg7 arg8 harg8 arg9 harg9 hc0 hc1 x0 x1 x2 x3 x4 xs0).1 S128x256.size (by sl_kernel_rfl) y
theorem scover0_B_0 (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : ¬cond0_1 i) (x0 : Vec F S128x256x64 .f32) (x1 : Vec F S128x64 .f32) (x2 : Vec F S256x64 .f32) (x3 : Vec F S1x64 .f32) (x4 : Vec F S1x1 .f32) (xs0 : Vec F S1x256 .f32) (y : S1x256.Idx) :
    ∃ pc ∈ (kernelRun0_B c i arg2 harg2 arg3 harg3 arg4 harg4 arg5 harg5 arg6 harg6 arg7 harg7 arg8 harg8 arg9 harg9 hc0 hc1 x0 x1 x2 x3 x4 xs0).2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 x4 xs0).2.1 S1x256.size (by sl_kernel_rfl) y
theorem cover0_C_5 (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : cond0_1 i) (x0 : Vec F S128x256x64 .f32) (x1 : Vec F S128x64 .f32) (x2 : Vec F S256x64 .f32) (x3 : Vec F S1x64 .f32) (x4 : Vec F S1x1 .f32) (xs0 : Vec F S1x256 .f32) (y : S128x256.Idx) :
    ∃ pc ∈ (kernelRun0_C c i arg2 harg2 arg3 harg3 arg4 harg4 arg5 harg5 arg6 harg6 arg7 harg7 arg8 harg8 arg9 harg9 hc0 hc1 x0 x1 x2 x3 x4 xs0).1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 xs0).1 S128x256.size (by sl_kernel_rfl) y
theorem cover0_C_6 (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : cond0_1 i) (x0 : Vec F S128x256x64 .f32) (x1 : Vec F S128x64 .f32) (x2 : Vec F S256x64 .f32) (x3 : Vec F S1x64 .f32) (x4 : Vec F S1x1 .f32) (xs0 : Vec F S1x256 .f32) (y : S1x256.Idx) :
    ∃ pc ∈ (kernelRun0_C c i arg2 harg2 arg3 harg3 arg4 harg4 arg5 harg5 arg6 harg6 arg7 harg7 arg8 harg8 arg9 harg9 hc0 hc1 x0 x1 x2 x3 x4 xs0).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 xs0).2.1 S1x256.size (by sl_kernel_rfl) y
theorem scover0_C_0 (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : cond0_1 i) (x0 : Vec F S128x256x64 .f32) (x1 : Vec F S128x64 .f32) (x2 : Vec F S256x64 .f32) (x3 : Vec F S1x64 .f32) (x4 : Vec F S1x1 .f32) (xs0 : Vec F S1x256 .f32) (y : S1x256.Idx) :
    ∃ pc ∈ (kernelRun0_C c i arg2 harg2 arg3 harg3 arg4 harg4 arg5 harg5 arg6 harg6 arg7 harg7 arg8 harg8 arg9 harg9 hc0 hc1 x0 x1 x2 x3 x4 xs0).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 xs0).2.2.1 S1x256.size (by sl_kernel_rfl) y

/-- A case's pieces for the gated-block window, read back over junk. -/
def out0_A_5 (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hc0 : cond0_0 i) (hc1 : ¬cond0_1 i) (x0 : Vec F S128x256x64 .f32) (x1 : Vec F S128x64 .f32) (x2 : Vec F S256x64 .f32) (x3 : Vec F S1x64 .f32) (x4 : Vec F S1x1 .f32) : Vec F S128x256 .f32 :=
  VO0_5.read (Elt F) (VO0_5.writes (Elt F) VO0_5.junk (kernelRun0_A c i arg2 harg2 arg3 harg3 arg4 harg4 arg5 harg5 arg6 harg6 arg7 harg7 arg8 harg8 arg9 harg9 hc0 hc1 x0 x1 x2 x3 x4).1)
def sout0_A_0 (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hc0 : cond0_0 i) (hc1 : ¬cond0_1 i) (x0 : Vec F S128x256x64 .f32) (x1 : Vec F S128x64 .f32) (x2 : Vec F S256x64 .f32) (x3 : Vec F S1x64 .f32) (x4 : Vec F S1x1 .f32) : Vec F S1x256 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2 x3 x4).2.1)
def out0_B_5 (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : ¬cond0_1 i) (x0 : Vec F S128x256x64 .f32) (x1 : Vec F S128x64 .f32) (x2 : Vec F S256x64 .f32) (x3 : Vec F S1x64 .f32) (x4 : Vec F S1x1 .f32) (xs0 : Vec F S1x256 .f32) : Vec F S128x256 .f32 :=
  VO0_5.read (Elt F) (VO0_5.writes (Elt F) VO0_5.junk (kernelRun0_B c i arg2 harg2 arg3 harg3 arg4 harg4 arg5 harg5 arg6 harg6 arg7 harg7 arg8 harg8 arg9 harg9 hc0 hc1 x0 x1 x2 x3 x4 xs0).1)
def sout0_B_0 (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : ¬cond0_1 i) (x0 : Vec F S128x256x64 .f32) (x1 : Vec F S128x64 .f32) (x2 : Vec F S256x64 .f32) (x3 : Vec F S1x64 .f32) (x4 : Vec F S1x1 .f32) (xs0 : Vec F S1x256 .f32) : Vec F S1x256 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 x3 x4 xs0).2.1)
def out0_C_5 (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : cond0_1 i) (x0 : Vec F S128x256x64 .f32) (x1 : Vec F S128x64 .f32) (x2 : Vec F S256x64 .f32) (x3 : Vec F S1x64 .f32) (x4 : Vec F S1x1 .f32) (xs0 : Vec F S1x256 .f32) : Vec F S128x256 .f32 :=
  VO0_5.read (Elt F) (VO0_5.writes (Elt F) VO0_5.junk (kernelRun0_C c i arg2 harg2 arg3 harg3 arg4 harg4 arg5 harg5 arg6 harg6 arg7 harg7 arg8 harg8 arg9 harg9 hc0 hc1 x0 x1 x2 x3 x4 xs0).1)
def out0_C_6 (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : cond0_1 i) (x0 : Vec F S128x256x64 .f32) (x1 : Vec F S128x64 .f32) (x2 : Vec F S256x64 .f32) (x3 : Vec F S1x64 .f32) (x4 : Vec F S1x1 .f32) (xs0 : Vec F S1x256 .f32) : Vec F S1x256 .f32 :=
  VO0_6.read (Elt F) (VO0_6.writes (Elt F) VO0_6.junk (kernelRun0_C c i arg2 harg2 arg3 harg3 arg4 harg4 arg5 harg5 arg6 harg6 arg7 harg7 arg8 harg8 arg9 harg9 hc0 hc1 x0 x1 x2 x3 x4 xs0).2.1)
def sout0_C_0 (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : cond0_1 i) (x0 : Vec F S128x256x64 .f32) (x1 : Vec F S128x64 .f32) (x2 : Vec F S256x64 .f32) (x3 : Vec F S1x64 .f32) (x4 : Vec F S1x1 .f32) (xs0 : Vec F S1x256 .f32) : Vec F S1x256 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 x3 x4 xs0).2.2.1)
/-- The column-sum window where no case stores into it: a placeholder nothing consults (the window is idle and not written back there). -/
def out0_idle_6 : Vec F S1x256 .f32 := VO0_6.read (Elt F) (VO0_6.writes (Elt F) VO0_6.junk [])

section Region
variable (V : (c : Dev nD) → (b : Ref sig .tc) → Buf (Elt F) ((c : Thread nD τ).loc b))

/-! ## What the two output windows and the accumulator hold after each point -/

/-- The gated block, the column-sum window and the accumulator after the body at position `n`: the case the closed forms
    select there, run at the point's memrefs and input blocks, the accumulator of a later row tile computed from what
    position `n - 1` left. -/
def outsAt0 (c : Dev nD) : (n : ℕ) → n < cfg0.N → Vec F S128x256 .f32 × Vec F S1x256 .f32 × Vec F S1x256 .f32
  | 0, hn =>
    (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩),
     out0_idle_6,
     sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 16 = 0 then
      if h1 : (n + 1) % 16 = 15 then
        False.elim (by omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩),
         out0_idle_6,
         sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      if h1 : (n + 1) % 16 = 15 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2,
         out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2,
         sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2,
         out0_idle_6,
         sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2)

theorem outsAt0_A (c : Dev nD) (t : Fin cfg0.N) (h0 : t.val % 16 = 0) (h1 : ¬t.val % 16 = 15) :
    outsAt0 V c t.val t.isLt =
      (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t),
       out0_idle_6,
       sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 V c t.val t.isLt =
      (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2,
       out0_idle_6,
       sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 V c t.val t.isLt =
      (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2,
       out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2,
       sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator carried between points -/

/-- Before the first point the class's invariant (the accumulator at anything); afterwards the accumulator at what
    the point before left in it, region 1's staging buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ others0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2.2) ∗ others0 c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2.2) ∗ others0 c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]
theorem leaves0_3 (c : Dev nD) (t : Fin cfg0.N) : (dat0 V c).leavesExact 3 t = owns (c : Thread nD τ) (ms0_3 t) fullShare (iblk0 V c 3 t) := by
  unfold Dat.leavesExact; rw [liveAt0_3 t, after0_3]
theorem leaves0_4 (c : Dev nD) (t : Fin cfg0.N) : (dat0 V c).leavesExact 4 t = owns (c : Thread nD τ) (ms0_4 t) fullShare (iblk0 V c 4 t) := by
  unfold Dat.leavesExact; rw [liveAt0_4 t, after0_4]
theorem leaves0_5 (c : Dev nD) (t : Fin cfg0.N) : (dat0 V c).leavesExact 5 t = owns (c : Thread nD τ) (ms0_5 t) fullShare ((outsAt0 V c t.val t.isLt).1) := by
  unfold Dat.leavesExact; rw [liveAt0_5 t, after0_5]

set_option maxHeartbeats 4800000 in
/-- The body at any point: the closed forms say which case the point is in; the invariant hands the body the accumulator
    at what the point before left (at anything at the very first point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2, leaves0_3, leaves0_4, leaves0_5]
  have hN : t.val < 128 := lt_of_lt_of_eq t.isLt (show cfg0.N = 128 from N_0)
  by_cases h0 : t.val % 16 = 0
  · have h1 : ¬t.val % 16 = 15 := by omega
    rw [Dat.leavesExact_idle (dat0 V c) 6 t (idleAt0_6 t (fun h => h1 ((hcond0_1 t).mp h))) (noFlush0_6 t (fun h => h1 ((hcond0_1 t).mp h)))]
    rw [outsAt0_A V c t h0 h1]
    unfold out0_A_5 sout0_A_0; (try dsimp only)
    by_cases hz : t.val = 0
    · rw [PhiS_castSucc V c t, PhiS_zero V c _ _ hz, PhiA0_eq]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      iintro ⟨H0, H1, H2, H3, H4, ⟨%e5, H5⟩, H6, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _)
      iexists _; iexact H6
    · rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexists _; iexact HS0
      iintro ⟨H0, H1, H2, H3, H4, ⟨%e5, H5⟩, H6, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _)
      iexists _; iexact H6
  · have hz : t.val ≠ 0 := by omega
    by_cases h1 : t.val % 16 = 15
    · rw [show (dat0 V c).leavesExact 6 t = owns (c : Thread nD τ) (ms0_6 t) fullShare ((dat0 V c).after 6 t) from by
        unfold Dat.leavesExact; rw [liveAt0_6 t ((hcond0_1 t).mpr h1)], after0_6]
      rw [outsAt0_C V c t h0 h1]
      unfold out0_C_5 out0_C_6 sout0_C_0; (try dsimp only)
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      iintro ⟨H0, H1, H2, H3, H4, ⟨%e5, H5⟩, ⟨%e6, H6⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_C_5 c _ _ _ _ _ _ _ _ _ _ _ _ _ _ _ _ _ _ _ _ _ _ _ _ _)
      unfold owns; iexists _; isplitr
      swap; · iexact H6
      ipureintro; exact View.read_writes_of_cover _ _ _ _ _ (cover0_C_6 c _ _ _ _ _ _ _ _ _ _ _ _ _ _ _ _ _ _ _ _ _ _ _ _ _)
    · rw [Dat.leavesExact_idle (dat0 V c) 6 t (idleAt0_6 t (fun h => h1 ((hcond0_1 t).mp h))) (noFlush0_6 t (fun h => h1 ((hcond0_1 t).mp h)))]
      rw [outsAt0_B V c t h0 h1]
      unfold out0_B_5 sout0_B_0; (try dsimp only)
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _).2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      iintro ⟨H0, H1, H2, H3, H4, ⟨%e5, H5⟩, H6, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _)
      iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hoth⟩, Hg⟩
  isplitl [HS0 Hoth]
  · isplitl [HS0]
    · iexists _; iexact HS0
    iexact Hoth
  iexact Hg

theorem hout0 (c : Dev nD) : (dat0 V c).Φ (Fin.last cfg0.N) ⊢ Pipeline.ΦA spec0 c :=
  Phi_out0 V c _ (by rw [Fin.val_last]; have : cfg0.N = 128 := N_0; omega)

end Region

end Cert.KernelIdeal.Hand

end
-- ==== Proof.KernelIdeal.Region1.lean ====
/-
  Region 1, the weighted-sum kernel, as proof data for the pipeline: each grid point contracts a block of 512
  rows of the un-normalised weights with the whole rescaled value array and stores the product block; the body
  keeps nothing between points, so what the output window holds after a point is one function of the two input
  blocks at that point.
-/
import proofs.«146286_j30580167147772_1_alg».proof.Proof.KernelIdeal.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The body's accesses, and what it leaves in the output window -/

abbrev r1_0 : Rect S512x2048 := Rect.unit (s := S512x2048) ![0, 0] S512x2048.size inb_S512x2048_S512x2048_0_0
abbrev r1_1 : Rect S2048x8 := Rect.unit (s := S2048x8) ![0, 0] S2048x8.size inb_S2048x8_S2048x8_0_0
abbrev r1_2 : Rect S512x8 := Rect.unit (s := S512x8) ![0, 0] S512x8.size inb_S512x8_S512x8_0_0

/-- The product block: the one store's payload over the two loaded blocks. -/
def out1_2 (x0 : Vec F S512x2048 .f32) (x1 : Vec F S2048x8 .f32) : Vec F S512x8 .f32 :=
  View.canon [⟨r1_2, k1_pay1 (View.ld x0 r1_0) (View.ld x1 r1_1)⟩]

theorem cover1_2 (p0 : Vec F S512x8 .f32) (y : S512x8.Idx) :
    ∃ pc ∈ ([⟨r1_2, p0⟩] : List (View.Piece (Elt F) S512x8 .f32)), y ∈ pc.1.set :=
  View.cover_of_tiled [⟨r1_2, p0⟩] S512x8.size (by rfl) y

set_option maxHeartbeats 1000000 in
/-- The body on whole staging memrefs, the inputs' at read contents and the output's at anything, runs to the
    continuation holding the inputs' as they were and the output's at the product block. -/
theorem sound_kernel1 (c : Dev nD) (E : Set ℕ) (i : grid1.Coords) (arg1 : Memref sig .tc .vmem S512x2048 .f32) (harg1 : arg1.IsWhole) (arg2 : Memref sig .tc .vmem S2048x8 .f32) (harg2 : arg2.IsWhole) (arg3 : Memref sig .tc .vmem S512x8 .f32) (harg3 : arg3.IsWhole)
    (x0 : Vec F S512x2048 .f32) (x1 : Vec F S2048x8 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__wsum_kernel i arg1 harg1 arg2 harg2 arg3 harg3) K := by
  simp only [cc1__wsum_kernel_eq_skeleton]; unfold cc1__wsum_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Region

end Cert.KernelIdeal.Hand

end
-- ==== Proof.KernelIdeal.Main.lean ====
/-
  The whole run of the program: the buffers' contents at each boundary of @main as a fold (the host
  operations before the gate kernel, what the gate kernel's pipeline leaves in its two result arrays, the
  three host operations that rescale the value projection, what the weighted-sum kernel's pipeline leaves in
  the result), both kernel regions as segments over the thread state "every unscoped buffer at the
  boundary's contents", and the launch: every weakly fair execution terminates, nothing faults, and at the
  end every unscoped buffer holds the last boundary's contents. The argument arrays are written by no host
  operation and by no region, so the fold at an argument walks back to the launch memory.
-/
import proofs.«146286_j30580167147772_1_alg».proof.Proof.KernelIdeal.Region0
import proofs.«146286_j30580167147772_1_alg».proof.Proof.KernelIdeal.Region1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m ρ 0 c).Φ 0 from hin0 (V1 m ρ) c)
    unfold Pipeline.ΦA
    iintro ⟨Hp, -, Hr⟩
    isplitl [Hr]; · iexact Hr
    iexact Hp
  hout c := by
    rw [Pipeline.ownSems0_none]
    refine BIBase.Entails.trans (show (pdats m ρ 0 c).Φ (Fin.last _) ⊢ Pipeline.ΦA spec0 c from hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and at the end every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c)⟩) (run_all m ρ)

/-- The result array and the arguments at the end: the result is what the weighted-sum kernel's pipeline leaves in it. -/
theorem run_value : θ_run defs (onTc (τ := τ) (main (F := F))) ⟨m, fun _ => 0, ρ⟩ (fun r => ∀ c : Dev nD,
      r.2.mem ((c.tc : Thread nD τ).loc main_v18) = (dat1 (V3 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(h c _ (mem_uc main_v18 (by decide))).trans (W4_arr m ρ c 2),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c)⟩) (run_all m ρ)

end Cert.KernelIdeal.Hand

end
-- ==== Proof.ValPay.lean ====
/- The arithmetic of the kernel bodies, read at one index at the ideal values (every float an extended real, every
   operation exact, a change of format the identity).

   First kernel, one grid point: the block of weights is, at row `r` and column `s`,
       max (∑ g, geom r s g * gate g + bias) 0 * exp ((∑ e, key r e * query s e) / 8),
   the factor 1/8 being the constant with bit pattern 0x3E000000; the running column sum adds, at column `s`, the sum of
   that block over its rows. The accumulator is reset to zero at the first point of a row of the grid and copied out
   unchanged. Second kernel: a plain matrix product, `∑ j, w r j * v j c`.

   Each layout operation (casts to the same shape, the cast [1,64] → [1,1,64], the broadcast to [128,256,64], the
   transpose [256,64] → [64,256], the cast [256] → [1,256]) reads its operand at one index named by coordinates; a sum
   over one axis is a sum over that axis's coordinate; a product into a zero accumulator is the sum over the one
   contracted coordinate of the operands' products. -/
import proofs.«146286_j30580167147772_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.ValueIdx
open scoped BigOperators

/-! ## Pointwise and layout operations at an index -/

/-- The exponential of a vector, at an index, is the extended reals' exponential of the element. -/
theorem exp_apply {s : Shape} {φ : FTy} (a : FVec Ideal s φ) (i : s.Idx) :
    Idealize.ShloMosaic.exp a i = Ideal.exp (a i) := rfl

/-- The gate row [1,64], viewed [1,1,64] and broadcast over a [128,256,64] block, reads at (r, s, e) its entry e. -/
theorem gateRow_apply (g : FVec Ideal S1x64 .f32) (h1 : S1x64.ShapeCasts S1x1x64) (h2 : S1x1x64.Broadcasts S128x256x64)
    (r : Fin 128) (s : Fin 256) (e : Fin 64) :
    broadcastTo S128x256x64 (shapeCast S1x1x64 g h1) h2 (ix3 r s e) = g (ix2 0 e) := by
  refine (broadcastTo_apply _ h2 (ix3 r s e) (ix3 (0 : Fin 1) (0 : Fin 1) e) fun a => ?_).trans ?_
  · match a with
    | ⟨0, _⟩ => rfl
    | ⟨1, _⟩ => rfl
    | ⟨2, _⟩ => rfl
  · exact shapeCast_ab_1ab_apply g h1 0 0 e

/-- The sum over the last axis of a [128,256,64] block, at (r, s), is the sum over e of the block at (r, s, e). -/
theorem laneSum_apply (v : FVec Ideal S128x256x64 .f32) (h : S128x256x64.Reduces [2] S128x256)
    (hφ : FKind.Formats .f32) (hacc : (0x00000000#32 : BitVec 32) = FKind.add.neutral .f32 hφ) (r : Fin 128) (s : Fin 256) :
    multiReduction (F := Ideal) .add [2] S128x256 v 0x00000000#32 h hφ hacc (ix2 r s) = ∑ e : Fin 64, v (ix3 r s e) := by
  refine (Ideal.multiReduction_add_single v _ h hφ hacc (ix2 r s)).trans ?_
  refine Finset.sum_congr rfl fun e _ => congrArg v (funext fun x => Fin.ext ?_)
  match x with
  | ⟨0, _⟩ => rfl
  | ⟨1, _⟩ => rfl
  | ⟨2, _⟩ => rfl

/-- The sum over the rows of a [128,256] block, at column s, is the sum over r of the block at (r, s). -/
theorem rowSum_apply (P : FVec Ideal S128x256 .f32) (h : S128x256.Reduces [0] S256)
    (hφ : FKind.Formats .f32) (hacc : (0x00000000#32 : BitVec 32) = FKind.add.neutral .f32 hφ) (s : Fin 256) :
    multiReduction (F := Ideal) .add [0] S256 P 0x00000000#32 h hφ hacc (ix1 s) = ∑ r : Fin 128, P (ix2 r s) := by
  refine (Ideal.multiReduction_add_single P _ h hφ hacc (ix1 s)).trans ?_
  refine Finset.sum_congr rfl fun r _ => congrArg P (funext fun x => Fin.ext ?_)
  match x with
  | ⟨0, _⟩ => rfl
  | ⟨1, _⟩ => rfl

/-- A block cast to its own shape and then narrowed to bf16 is, at the ideal values, the block itself at every index. -/
theorem narrow_apply {s : Shape} (x : Vec Ideal s .f32) (hs : s.ShapeCasts s) (hb : FTy.bits .bf16 < FTy.bits .f32) (i : s.Idx) :
    truncf (F := Ideal) (φ := .f32) .bf16 (shapeCast s x hs) hb i = x i :=
  congrFun (shapeCast_self x hs) i

/-- The one entry of the [1,1] bias. -/
theorem bias_apply (b : Vec Ideal S1x1 .f32) (h : ∀ a, (![0, 0] : Fin 2 → Nat) a < S1x1.size a) :
    extractAt ![0, 0] b h = b (ix2 0 0) := by
  unfold extractAt
  exact congrArg b (funext fun a => Fin.ext (match a with | ⟨0, _⟩ => rfl | ⟨1, _⟩ => rfl))

/-! ## The two matrix products: the operand indices coordinate by coordinate, then the sum over the contracted one -/

theorem lhs_score_0 (i : S128x256.Idx) (q : dot_S128x64_S64x256_S128x256_1_0_0_1_n_n.contr.Idx) :
    (dot_S128x64_S64x256_S128x256_1_0_0_1_n_n.lhsIdx i q 0).val = (i 0).val := by
  unfold DotDims.lhsIdx
  rw [dif_neg (show ¬(0 : Fin S128x64.rank) ∈ dot_S128x64_S64x256_S128x256_1_0_0_1_n_n.lhsBatch by decide), dif_pos (show (0 : Fin S128x64.rank) ∈ dot_S128x64_S64x256_S128x256_1_0_0_1_n_n.lhsNonContracting by decide)]
  rfl
theorem lhs_score_1 (i : S128x256.Idx) (q : dot_S128x64_S64x256_S128x256_1_0_0_1_n_n.contr.Idx) :
    (dot_S128x64_S64x256_S128x256_1_0_0_1_n_n.lhsIdx i q 1).val = (q ⟨0, by decide⟩).val :=
  dot_S128x64_S64x256_S128x256_1_0_0_1_n_n.lhsIdx_val_of_single rfl i q
theorem rhs_score_0 (i : S128x256.Idx) (q : dot_S128x64_S64x256_S128x256_1_0_0_1_n_n.contr.Idx) :
    (dot_S128x64_S64x256_S128x256_1_0_0_1_n_n.rhsIdx i q 0).val = (q ⟨0, by decide⟩).val :=
  dot_S128x64_S64x256_S128x256_1_0_0_1_n_n.rhsIdx_val_of_single rfl i q
theorem rhs_score_1 (i : S128x256.Idx) (q : dot_S128x64_S64x256_S128x256_1_0_0_1_n_n.contr.Idx) :
    (dot_S128x64_S64x256_S128x256_1_0_0_1_n_n.rhsIdx i q 1).val = (i 1).val := by
  unfold DotDims.rhsIdx
  rw [dif_neg (show ¬(1 : Fin S64x256.rank) ∈ dot_S128x64_S64x256_S128x256_1_0_0_1_n_n.rhsBatch by decide), dif_pos (show (1 : Fin S64x256.rank) ∈ dot_S128x64_S64x256_S128x256_1_0_0_1_n_n.rhsNonContracting by decide)]
  rfl

/-- A [128,64] by [64,256] product into the zero accumulator, at (r, c): the sum over the 64 contracted coordinates. -/
theorem score_apply (a : FVec Ideal S128x64 .bf16) (b : FVec Ideal S64x256 .bf16) (r : Fin 128) (c : Fin 256) :
    matmul dot_S128x64_S64x256_S128x256_1_0_0_1_n_n none a b (constant (F := Ideal) S128x256 .f32 0x00000000#32) (ix2 r c)
      = ∑ k : Fin 64, a (ix2 r k) * b (ix2 k c) := by
  refine (Ideal.matmul_constant_zero_apply dot_S128x64_S64x256_S128x256_1_0_0_1_n_n none a b (ix2 r c)).trans ?_
  rw [← Equiv.sum_comp (ValueIdx.contrEquiv1 dot_S128x64_S64x256_S128x256_1_0_0_1_n_n 64 rfl rfl).symm]
  refine Finset.sum_congr rfl fun k _ => ?_
  have hk := ValueIdx.contrEquiv1_symm_val dot_S128x64_S64x256_S128x256_1_0_0_1_n_n 64 rfl rfl k
  have el : dot_S128x64_S64x256_S128x256_1_0_0_1_n_n.lhsIdx (ix2 r c) ((ValueIdx.contrEquiv1 dot_S128x64_S64x256_S128x256_1_0_0_1_n_n 64 rfl rfl).symm k) = ix2 r k := funext fun x => Fin.ext (by
    match x with
    | ⟨0, _⟩ => exact lhs_score_0 _ _
    | ⟨1, _⟩ => exact (lhs_score_1 _ _).trans hk)
  have er : dot_S128x64_S64x256_S128x256_1_0_0_1_n_n.rhsIdx (ix2 r c) ((ValueIdx.contrEquiv1 dot_S128x64_S64x256_S128x256_1_0_0_1_n_n 64 rfl rfl).symm k) = ix2 k c := funext fun x => Fin.ext (by
    match x with
    | ⟨0, _⟩ => exact (rhs_score_0 _ _).trans hk
    | ⟨1, _⟩ => exact rhs_score_1 _ _)
  rw [el, er]

theorem lhs_wsum_0 (i : S512x8.Idx) (q : dot_S512x2048_S2048x8_S512x8_1_0_0_1_n_n.contr.Idx) :
    (dot_S512x2048_S2048x8_S512x8_1_0_0_1_n_n.lhsIdx i q 0).val = (i 0).val := by
  unfold DotDims.lhsIdx
  rw [dif_neg (show ¬(0 : Fin S512x2048.rank) ∈ dot_S512x2048_S2048x8_S512x8_1_0_0_1_n_n.lhsBatch by decide), dif_pos (show (0 : Fin S512x2048.rank) ∈ dot_S512x2048_S2048x8_S512x8_1_0_0_1_n_n.lhsNonContracting by decide)]
  rfl
theorem lhs_wsum_1 (i : S512x8.Idx) (q : dot_S512x2048_S2048x8_S512x8_1_0_0_1_n_n.contr.Idx) :
    (dot_S512x2048_S2048x8_S512x8_1_0_0_1_n_n.lhsIdx i q 1).val = (q ⟨0, by decide⟩).val :=
  dot_S512x2048_S2048x8_S512x8_1_0_0_1_n_n.lhsIdx_val_of_single rfl i q
theorem rhs_wsum_0 (i : S512x8.Idx) (q : dot_S512x2048_S2048x8_S512x8_1_0_0_1_n_n.contr.Idx) :
    (dot_S512x2048_S2048x8_S512x8_1_0_0_1_n_n.rhsIdx i q 0).val = (q ⟨0, by decide⟩).val :=
  dot_S512x2048_S2048x8_S512x8_1_0_0_1_n_n.rhsIdx_val_of_single rfl i q
theorem rhs_wsum_1 (i : S512x8.Idx) (q : dot_S512x2048_S2048x8_S512x8_1_0_0_1_n_n.contr.Idx) :
    (dot_S512x2048_S2048x8_S512x8_1_0_0_1_n_n.rhsIdx i q 1).val = (i 1).val := by
  unfold DotDims.rhsIdx
  rw [dif_neg (show ¬(1 : Fin S2048x8.rank) ∈ dot_S512x2048_S2048x8_S512x8_1_0_0_1_n_n.rhsBatch by decide), dif_pos (show (1 : Fin S2048x8.rank) ∈ dot_S512x2048_S2048x8_S512x8_1_0_0_1_n_n.rhsNonContracting by decide)]
  rfl

/-- A [512,2048] by [2048,8] product into the zero accumulator, at (r, c): the sum over the 2048 contracted coordinates. -/
theorem wsum_apply (a : FVec Ideal S512x2048 .bf16) (b : FVec Ideal S2048x8 .bf16) (r : Fin 512) (c : Fin 8) :
    matmul dot_S512x2048_S2048x8_S512x8_1_0_0_1_n_n none a b (constant (F := Ideal) S512x8 .f32 0x00000000#32) (ix2 r c)
      = ∑ k : Fin 2048, a (ix2 r k) * b (ix2 k c) := by
  refine (Ideal.matmul_constant_zero_apply dot_S512x2048_S2048x8_S512x8_1_0_0_1_n_n none a b (ix2 r c)).trans ?_
  rw [← Equiv.sum_comp (ValueIdx.contrEquiv1 dot_S512x2048_S2048x8_S512x8_1_0_0_1_n_n 2048 rfl rfl).symm]
  refine Finset.sum_congr rfl fun k _ => ?_
  have hk := ValueIdx.contrEquiv1_symm_val dot_S512x2048_S2048x8_S512x8_1_0_0_1_n_n 2048 rfl rfl k
  have el : dot_S512x2048_S2048x8_S512x8_1_0_0_1_n_n.lhsIdx (ix2 r c) ((ValueIdx.contrEquiv1 dot_S512x2048_S2048x8_S512x8_1_0_0_1_n_n 2048 rfl rfl).symm k) = ix2 r k := funext fun x => Fin.ext (by
    match x with
    | ⟨0, _⟩ => exact lhs_wsum_0 _ _
    | ⟨1, _⟩ => exact (lhs_wsum_1 _ _).trans hk)
  have er : dot_S512x2048_S2048x8_S512x8_1_0_0_1_n_n.rhsIdx (ix2 r c) ((ValueIdx.contrEquiv1 dot_S512x2048_S2048x8_S512x8_1_0_0_1_n_n 2048 rfl rfl).symm k) = ix2 k c := funext fun x => Fin.ext (by
    match x with
    | ⟨0, _⟩ => exact (rhs_wsum_0 _ _).trans hk
    | ⟨1, _⟩ => exact rhs_wsum_1 _ _)
  rw [el, er]

/-! ## The payloads -/

/-- The weight block at (r, s): the gated geometric term, clamped at zero, times the exponential of the scaled score. -/
theorem pay3_apply (x0 : Vec Ideal S128x256x64 .f32) (x3 : Vec Ideal S1x64 .f32) (x4 : Vec Ideal S1x1 .f32) (x1 : Vec Ideal S128x64 .f32) (x2 : Vec Ideal S256x64 .f32) (r : Fin 128) (s : Fin 256) :
    k0_pay3 (F := Ideal) x0 x3 x4 x1 x2 (ix2 r s)
      = max ((∑ g : Fin 64, x0 (ix3 r s g) * x3 (ix2 0 g)) + x4 (ix2 0 0)) 0
        * Ideal.exp ((∑ e : Fin 64, x1 (ix2 r e) * x2 (ix2 s e)) * Ideal.ofBits .f32 0x3E000000#32) := by
  unfold k0_pay3
  refine (mulf_apply _ _ (ix2 r s)).trans ?_
  refine congrArg₂ (fun a b : EReal => a * b) ?_ ?_
  · refine (maximumf_apply _ _ (ix2 r s)).trans ?_
    refine congrArg₂ (fun a b : EReal => max a b) ?_ Ideal.ofBits_zero_f32
    refine (addf_apply _ _ (ix2 r s)).trans ?_
    refine congrArg₂ (fun a b : EReal => a + b) ?_ (bias_apply x4 _)
    refine (laneSum_apply _ _ _ _ r s).trans ?_
    refine Finset.sum_congr rfl fun g _ => ?_
    refine (mulf_apply _ _ (ix3 r s g)).trans ?_
    refine congrArg (fun a : EReal => x0 (ix3 r s g) * a) ?_
    refine (gateRow_apply _ _ _ r s g).trans ?_
    exact congrFun (shapeCast_self x3 _) (ix2 0 g)
  · refine (exp_apply _ (ix2 r s)).trans ?_
    refine congrArg Ideal.exp ?_
    refine (mulf_apply _ _ (ix2 r s)).trans ?_
    refine congrArg (fun a : EReal => a * Ideal.ofBits .f32 0x3E000000#32) ?_
    refine (score_apply _ _ r s).trans ?_
    refine Finset.sum_congr rfl fun e _ => ?_
    refine congrArg₂ (fun a b : EReal => a * b) ?_ ?_
    · exact narrow_apply x1 _ _ (ix2 r e)
    · refine (transpose_ix2_apply _ _ e s).trans ?_
      exact narrow_apply x2 _ _ (ix2 s e)

/-- The running column sum after one grid point: what it held plus the sum of the weight block over its rows. -/
theorem pay4_apply (x0 : Vec Ideal S128x256x64 .f32) (x3 : Vec Ideal S1x64 .f32) (x4 : Vec Ideal S1x1 .f32) (x1 : Vec Ideal S128x64 .f32) (x2 : Vec Ideal S256x64 .f32) (v29 : Vec Ideal S1x256 .f32) (s : Fin 256) :
    k0_pay4 (F := Ideal) x0 x3 x4 x1 x2 v29 (ix2 0 s) = v29 (ix2 0 s) + ∑ r : Fin 128, k0_pay3 (F := Ideal) x0 x3 x4 x1 x2 (ix2 r s) := by
  unfold k0_pay4
  generalize k0_pay3 (F := Ideal) x0 x3 x4 x1 x2 = P
  refine (addf_apply _ _ (ix2 0 s)).trans ?_
  refine congrArg (fun a : EReal => v29 (ix2 0 s) + a) ?_
  refine (shapeCast_a_1a_apply _ _ 0 s).trans ?_
  exact rowSum_apply P _ _ _ s

/-- The accumulator's reset value is zero everywhere. -/
theorem pay2_apply (j : S1x256.Idx) : k0_pay2 (F := Ideal) j = 0 := by
  unfold k0_pay2
  refine (congrFun (shapeCast_self _ _) j).trans ?_
  exact Ideal.ofBits_zero_f32

/-- The accumulator is written back as it is. -/
theorem pay1_eq (v : FVec Ideal S1x256 .f32) : k0_pay1 (F := Ideal) v = v := by
  unfold k0_pay1
  exact shapeCast_self v _

/-- The second kernel's block at (r, c): the row of weights against the column of values. -/
theorem k1_pay1_apply (v0 : Vec Ideal S512x2048 .f32) (v3 : Vec Ideal S2048x8 .f32) (r : Fin 512) (c : Fin 8) :
    k1_pay1 (F := Ideal) v0 v3 (ix2 r c) = ∑ j : Fin 2048, v0 (ix2 r j) * v3 (ix2 j c) := by
  unfold k1_pay1
  refine (wsum_apply _ _ r c).trans ?_
  refine Finset.sum_congr rfl fun j _ => ?_
  refine congrArg₂ (fun a b : EReal => a * b) ?_ ?_
  · exact narrow_apply v0 _ _ (ix2 r j)
  · exact narrow_apply v3 _ _ (ix2 j c)

end Cert.KernelIdeal.Val

end
-- ==== Proof.Spec.lean ====
/-
  The mathematics of the gated relation weights, stated once over plain index types, and the one law
  that joins the two programs. With `wn i j ≥ 0` the un-normalised weight of row `i` in column `j`
  and `ap j c` the value projection, the reference normalises each column of `wn` by its sum and then
  contracts with `ap`; the kernel divides each row of `ap` by that column sum and contracts the
  un-normalised `wn` with the quotient. On the extended reals both are
  `∑ j, wn i j · (∑ i', wn i' j)⁻¹ · ap j c` as soon as no column sum is zero: the quotient by a
  non-zero divisor is the product with its inverse, and the product is commutative and associative.
  (At a zero column sum the two quotients are different junk values: the claim's precondition excludes it.)
  Also here: a sum over 2048 rows regrouped as 16 tiles of 128 rows, which is how the kernel
  accumulates the column sums.
-/
import Idealize.ShloMosaic.PureOps.Ideal
import Idealize.ShloMosaic.PureOps.Ideal.Laws
import Idealize.ShloMosaic.Lib.ValueIdx

noncomputable section

namespace Cert.Spec

open Idealize.ShloMosaic

/-- The geometric gate: the embedding's projection on the gate vector plus the bias, clamped at zero. -/
def gate (geom : Fin 2048 → Fin 2048 → Fin 64 → EReal) (wg : Fin 64 → EReal) (bg : EReal) (i j : Fin 2048) : EReal :=
  max ((∑ g : Fin 64, geom i j g * wg g) + bg) 0

/-- The appearance logit: key row `i` against query row `j`, scaled. -/
def logit (k q : Fin 2048 → Fin 64 → EReal) (sc : EReal) (i j : Fin 2048) : EReal :=
  (∑ e : Fin 64, k i e * q j e) * sc

/-- The un-normalised weight. -/
def wnom (geom : Fin 2048 → Fin 2048 → Fin 64 → EReal) (wg : Fin 64 → EReal) (bg : EReal)
    (k q : Fin 2048 → Fin 64 → EReal) (sc : EReal) (i j : Fin 2048) : EReal :=
  gate geom wg bg i j * Ideal.exp (logit k q sc i j)

/-- A column's normaliser. -/
def colsum (wn : Fin 2048 → Fin 2048 → EReal) (j : Fin 2048) : EReal := ∑ i : Fin 2048, wn i j

/-- The reference: normalise, then contract. -/
def outRef (wn : Fin 2048 → Fin 2048 → EReal) (ap : Fin 2048 → Fin 8 → EReal) (i : Fin 2048) (c : Fin 8) : EReal :=
  ∑ j : Fin 2048, Ideal.div (wn i j) (colsum wn j) * ap j c

/-- The kernel: rescale the values, then contract the un-normalised weights. -/
def outKer (wn : Fin 2048 → Fin 2048 → EReal) (ap : Fin 2048 → Fin 8 → EReal) (i : Fin 2048) (c : Fin 8) : EReal :=
  ∑ j : Fin 2048, wn i j * Ideal.div (ap j c) (colsum wn j)

/-- The quotient by a non-zero divisor is the product with the inverse. -/
theorem div_of_ne {x d : EReal} (hd : d ≠ 0) : Ideal.div x d = x * d⁻¹ := by
  unfold Ideal.div; rw [if_neg hd]

/-- One term of the two contractions. -/
theorem term_eq (a b d : EReal) (hd : d ≠ 0) : a * Ideal.div b d = Ideal.div a d * b := by
  rw [div_of_ne hd, div_of_ne hd, mul_assoc, mul_comm b d⁻¹]

/-- THE LAW: with no column sum zero the kernel's contraction is the reference's. -/
theorem outKer_eq_outRef (wn : Fin 2048 → Fin 2048 → EReal) (ap : Fin 2048 → Fin 8 → EReal)
    (h : ∀ j, colsum wn j ≠ 0) (i : Fin 2048) (c : Fin 8) : outKer wn ap i c = outRef wn ap i c := by
  unfold outKer outRef
  exact Finset.sum_congr rfl fun j _ => term_eq _ _ _ (h j)

/-! ## Sixteen tiles of 128 rows -/

/-- Row `r` of tile `b`. -/
def tileRow (b : Fin 16) (r : Fin 128) : Fin 2048 := ⟨b.val * 128 + r.val, by have := b.isLt; have := r.isLt; omega⟩

/-- The tiles' partial sums, accumulated from zero in tile order. -/
def accTiles (f : Fin 2048 → EReal) : (n : ℕ) → n ≤ 16 → EReal
  | 0, _ => 0
  | n + 1, h => accTiles f n (Nat.le_of_succ_le h) + ∑ r : Fin 128, f (tileRow ⟨n, h⟩ r)

/-- All sixteen tiles accumulated are the whole sum. -/
theorem accTiles_all (f : Fin 2048 → EReal) : accTiles f 16 (le_refl _) = ∑ i : Fin 2048, f i := by
  have key : ∀ (n : ℕ) (h : n ≤ 16), accTiles f n h = ∑ i ∈ Finset.univ.filter (fun i : Fin 2048 => i.val < n * 128), f i := by
    intro n
    induction n with
    | zero => intro h; simp [accTiles]
    | succ n ih =>
      intro h
      rw [accTiles, ih (Nat.le_of_succ_le h)]
      have hsplit : (Finset.univ.filter fun i : Fin 2048 => i.val < (n + 1) * 128)
          = (Finset.univ.filter fun i : Fin 2048 => i.val < n * 128) ∪ (Finset.univ.image (tileRow ⟨n, h⟩)) := by
        ext i
        simp only [Finset.mem_filter, Finset.mem_univ, true_and, Finset.mem_union, Finset.mem_image]
        constructor
        · intro hi
          by_cases hlt : i.val < n * 128
          · exact Or.inl hlt
          · refine Or.inr ⟨⟨i.val - n * 128, by omega⟩, Fin.ext ?_⟩
            show n * 128 + (i.val - n * 128) = i.val
            omega
        · rintro (hi | ⟨r, rfl⟩)
          · omega
          · show n * 128 + r.val < (n + 1) * 128
            have := r.isLt; omega
      have hdisj : Disjoint (Finset.univ.filter fun i : Fin 2048 => i.val < n * 128) (Finset.univ.image (tileRow ⟨n, h⟩)) := by
        rw [Finset.disjoint_left]
        intro i hi hi'
        simp only [Finset.mem_filter, Finset.mem_univ, true_and, Finset.mem_image] at hi hi'
        obtain ⟨r, rfl⟩ := hi'
        have : n * 128 + r.val < n * 128 := hi
        omega
      rw [hsplit, Finset.sum_union hdisj, Finset.sum_image]
      intro a _ b _ hab
      have := congrArg Fin.val hab
      exact Fin.ext (by simpa [tileRow] using this)
  rw [key 16 (le_refl _)]
  refine Finset.sum_congr ?_ fun _ _ => rfl
  ext i; simp only [Finset.mem_filter, Finset.mem_univ, true_and, iff_true]; exact i.isLt

end Cert.Spec

end
-- ==== Proof.ValRegion0.lean ====
/-
  The values the gate kernel leaves in its two arrays, read at an index, at the ideal values (every float an extended
  real, every operation exact).

  Point `t` of the 8 × 16 grid is at row tile `t % 16` (128 rows) of column tile `t / 16` (256 columns). Each input
  block read at a block coordinate is its array at block index × block size + coordinate, so the block the body
  computes at `t` is, at (r, s), the un-normalised weight `wn` of row `(t % 16)·128 + r` and column `(t / 16)·256 + s`.
  The accumulator is reset at row tile 0 and added the block's column sums at every point: by induction on the point
  it holds, after point `t` and at column `s`, the column sums of row tiles `0 … t % 16` accumulated from zero in tile
  order, which after row tile 15 is the sum over all 2048 rows. Every point writes its gated block back, and the block
  of the point `(j / 256)·16 + i / 128` holds (i, j); the points at row tile 15 write the accumulator back as the column
  sums, and the point `(j / 256)·16 + 15` holds column `j`.
-/
import proofs.«146286_j30580167147772_1_alg».proof.Proof.KernelIdeal.Region0
import proofs.«146286_j30580167147772_1_alg».proof.Proof.ValPay
import proofs.«146286_j30580167147772_1_alg».proof.Proof.Spec
import Idealize.ShloMosaic.Lib.ValueIdx
import Idealize.ShloMosaic.Lib.Pipeline.Value

set_option maxRecDepth 16384

noncomputable section

namespace Cert.KernelIdeal.Val0

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## What each case's stores leave, as the payloads of the blocks the body was entered with -/

/-- Away from the first row tile the accumulator ends at what it held plus the block's column sums. -/
theorem sB (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : ¬cond0_1 i) (x0 : Vec F S128x256x64 .f32) (x1 : Vec F S128x64 .f32) (x2 : Vec F S256x64 .f32) (x3 : Vec F S1x64 .f32) (x4 : Vec F S1x1 .f32) (xs0 : Vec F S1x256 .f32) :
    sout0_B_0 c i arg2 harg2 arg3 harg3 arg4 harg4 arg5 harg5 arg6 harg6 arg7 harg7 arg8 harg8 arg9 harg9 hc0 hc1 x0 x1 x2 x3 x4 xs0 = k0_pay1 (k0_pay4 x0 x3 x4 x1 x2 xs0) := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 xs0)]
  unfold kernelRun0_B
  dsimp only
  sl_unfold_words
  rw [View.canon_unit_zero hz2]
  simp only [View.readAt_eq_ld, harg2.read_unread, harg3.read_unread, harg4.read_unread, harg5.read_unread, harg6.read_unread, harg9.read_unread, View.ld_unit_zero (S := S1x256) hz2, View.ld_unit_zero (S := S128x256x64) hz3, View.ld_unit_zero (S := S128x64) hz2, View.ld_unit_zero (S := S256x64) hz2, View.ld_unit_zero (S := S1x64) hz2, View.ld_unit_zero (S := S1x1) hz2]

/-- At the first row tile the accumulator is reset and then added the block's column sums. -/
theorem sA (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hc0 : cond0_0 i) (hc1 : ¬cond0_1 i) (x0 : Vec F S128x256x64 .f32) (x1 : Vec F S128x64 .f32) (x2 : Vec F S256x64 .f32) (x3 : Vec F S1x64 .f32) (x4 : Vec F S1x1 .f32) :
    sout0_A_0 c i arg2 harg2 arg3 harg3 arg4 harg4 arg5 harg5 arg6 harg6 arg7 harg7 arg8 harg8 arg9 harg9 hc0 hc1 x0 x1 x2 x3 x4 = k0_pay1 (k0_pay4 x0 x3 x4 x1 x2 k0_pay2) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1x256) hz2]
  simp only [View.readAt_eq_ld, harg2.read_unread, harg3.read_unread, harg4.read_unread, harg5.read_unread, harg6.read_unread, harg9.read_unread, View.readCov_unit_zero (S := S1x256) _ hz2, View.ld_unit_zero (S := S1x256) hz2, View.ld_unit_zero (S := S128x256x64) hz3, View.ld_unit_zero (S := S128x64) hz2, View.ld_unit_zero (S := S256x64) hz2, View.ld_unit_zero (S := S1x64) hz2, View.ld_unit_zero (S := S1x1) hz2]

/-- At the last row tile the accumulator ends the same way, -/
theorem sC (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : cond0_1 i) (x0 : Vec F S128x256x64 .f32) (x1 : Vec F S128x64 .f32) (x2 : Vec F S256x64 .f32) (x3 : Vec F S1x64 .f32) (x4 : Vec F S1x1 .f32) (xs0 : Vec F S1x256 .f32) :
    sout0_C_0 c i arg2 harg2 arg3 harg3 arg4 harg4 arg5 harg5 arg6 harg6 arg7 harg7 arg8 harg8 arg9 harg9 hc0 hc1 x0 x1 x2 x3 x4 xs0 = k0_pay1 (k0_pay4 x0 x3 x4 x1 x2 xs0) := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz2]
  simp only [View.readAt_eq_ld, harg2.read_unread, harg3.read_unread, harg4.read_unread, harg5.read_unread, harg6.read_unread, harg9.read_unread, View.ld_unit_zero (S := S1x256) hz2, View.ld_unit_zero (S := S128x256x64) hz3, View.ld_unit_zero (S := S128x64) hz2, View.ld_unit_zero (S := S256x64) hz2, View.ld_unit_zero (S := S1x64) hz2, View.ld_unit_zero (S := S1x1) hz2]

/-- and the column-sum window is handed a copy of it. -/
theorem oC6 (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : cond0_1 i) (x0 : Vec F S128x256x64 .f32) (x1 : Vec F S128x64 .f32) (x2 : Vec F S256x64 .f32) (x3 : Vec F S1x64 .f32) (x4 : Vec F S1x1 .f32) (xs0 : Vec F S1x256 .f32) :
    out0_C_6 c i arg2 harg2 arg3 harg3 arg4 harg4 arg5 harg5 arg6 harg6 arg7 harg7 arg8 harg8 arg9 harg9 hc0 hc1 x0 x1 x2 x3 x4 xs0 = k0_pay1 (k0_pay4 x0 x3 x4 x1 x2 xs0) := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz2]
  simp only [View.readAt_eq_ld, harg2.read_unread, harg3.read_unread, harg4.read_unread, harg5.read_unread, harg6.read_unread, harg9.read_unread, View.readCov_unit_zero (S := S1x256) _ hz2, View.ld_unit_zero (S := S1x256) hz2, View.ld_unit_zero (S := S128x256x64) hz3, View.ld_unit_zero (S := S128x64) hz2, View.ld_unit_zero (S := S256x64) hz2, View.ld_unit_zero (S := S1x64) hz2, View.ld_unit_zero (S := S1x1) hz2]

/-- In every case the gated-block window is left the gated block. -/
theorem oA5 (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hc0 : cond0_0 i) (hc1 : ¬cond0_1 i) (x0 : Vec F S128x256x64 .f32) (x1 : Vec F S128x64 .f32) (x2 : Vec F S256x64 .f32) (x3 : Vec F S1x64 .f32) (x4 : Vec F S1x1 .f32) :
    out0_A_5 c i arg2 harg2 arg3 harg3 arg4 harg4 arg5 harg5 arg6 harg6 arg7 harg7 arg8 harg8 arg9 harg9 hc0 hc1 x0 x1 x2 x3 x4 = k0_pay3 x0 x3 x4 x1 x2 := by
  unfold out0_A_5
  rw [View.read_writes_eq_canon _ _ _ (cover0_A_5 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_unit_zero hz2]
  simp only [View.readAt_eq_ld, harg2.read_unread, harg3.read_unread, harg4.read_unread, harg5.read_unread, harg6.read_unread, View.ld_unit_zero (S := S128x256x64) hz3, View.ld_unit_zero (S := S128x64) hz2, View.ld_unit_zero (S := S256x64) hz2, View.ld_unit_zero (S := S1x64) hz2, View.ld_unit_zero (S := S1x1) hz2]
theorem oB5 (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : ¬cond0_1 i) (x0 : Vec F S128x256x64 .f32) (x1 : Vec F S128x64 .f32) (x2 : Vec F S256x64 .f32) (x3 : Vec F S1x64 .f32) (x4 : Vec F S1x1 .f32) (xs0 : Vec F S1x256 .f32) :
    out0_B_5 c i arg2 harg2 arg3 harg3 arg4 harg4 arg5 harg5 arg6 harg6 arg7 harg7 arg8 harg8 arg9 harg9 hc0 hc1 x0 x1 x2 x3 x4 xs0 = k0_pay3 x0 x3 x4 x1 x2 := by
  unfold out0_B_5
  rw [View.read_writes_eq_canon _ _ _ (cover0_B_5 c i arg2 harg2 arg3 harg3 arg4 harg4 arg5 harg5 arg6 harg6 arg7 harg7 arg8 harg8 arg9 harg9 hc0 hc1 x0 x1 x2 x3 x4 xs0)]
  unfold kernelRun0_B
  dsimp only
  sl_unfold_words
  rw [View.canon_unit_zero hz2]
  simp only [View.readAt_eq_ld, harg2.read_unread, harg3.read_unread, harg4.read_unread, harg5.read_unread, harg6.read_unread, View.ld_unit_zero (S := S128x256x64) hz3, View.ld_unit_zero (S := S128x64) hz2, View.ld_unit_zero (S := S256x64) hz2, View.ld_unit_zero (S := S1x64) hz2, View.ld_unit_zero (S := S1x1) hz2]
theorem oC5 (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : cond0_1 i) (x0 : Vec F S128x256x64 .f32) (x1 : Vec F S128x64 .f32) (x2 : Vec F S256x64 .f32) (x3 : Vec F S1x64 .f32) (x4 : Vec F S1x1 .f32) (xs0 : Vec F S1x256 .f32) :
    out0_C_5 c i arg2 harg2 arg3 harg3 arg4 harg4 arg5 harg5 arg6 harg6 arg7 harg7 arg8 harg8 arg9 harg9 hc0 hc1 x0 x1 x2 x3 x4 xs0 = k0_pay3 x0 x3 x4 x1 x2 := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz2]
  simp only [View.readAt_eq_ld, harg2.read_unread, harg3.read_unread, harg4.read_unread, harg5.read_unread, harg6.read_unread, View.ld_unit_zero (S := S128x256x64) hz3, View.ld_unit_zero (S := S128x64) hz2, View.ld_unit_zero (S := S256x64) hz2, View.ld_unit_zero (S := S1x64) hz2, View.ld_unit_zero (S := S1x1) hz2]

/-! ## The arrays the gate kernel is entered with, and its blocks read at an index -/

section Region
variable (V : (c : Dev nD) → (b : Ref sig .tc) → Buf (Elt Ideal) ((c : Thread nD τ).loc b))

abbrev geomA (c : Dev nD) : Vec Ideal S2048x2048x64 .f32 := V c main_arg1
abbrev keyA (c : Dev nD) : Vec Ideal S2048x64 .f32 := V c main_v7
abbrev qryA (c : Dev nD) : Vec Ideal S2048x64 .f32 := V c main_v11
abbrev gateA (c : Dev nD) : Vec Ideal S1x64 .f32 := V c main_v12
abbrev biasA (c : Dev nD) : Vec Ideal S1x1 .f32 := V c main_v13
/-- the un-normalised weight as the gate kernel computes it from the arrays it is entered with -/
def wn (c : Dev nD) (i j : Fin 2048) : EReal :=
  max ((∑ g : Fin 64, geomA V c (ix3 i j g) * gateA V c (ix2 0 g)) + biasA V c (ix2 0 0)) 0
    * Ideal.exp ((∑ e : Fin 64, keyA V c (ix2 i e) * qryA V c (ix2 j e)) * Ideal.ofBits .f32 0x3E000000#32)

/-- The blocks of the five input windows at a point, each at its literal type. -/
abbrev gblk (c : Dev nD) (t : Fin cfg0.N) : Vec Ideal S128x256x64 .f32 := iblk0 V c 0 t
abbrev kblk (c : Dev nD) (t : Fin cfg0.N) : Vec Ideal S128x64 .f32 := iblk0 V c 1 t
abbrev qblk (c : Dev nD) (t : Fin cfg0.N) : Vec Ideal S256x64 .f32 := iblk0 V c 2 t
abbrev wblk (c : Dev nD) (t : Fin cfg0.N) : Vec Ideal S1x64 .f32 := iblk0 V c 3 t
abbrev bblk (c : Dev nD) (t : Fin cfg0.N) : Vec Ideal S1x1 .f32 := iblk0 V c 4 t

/-- Row `r` of row tile `b` (taken modulo 16, so that no bound is owed). -/
def rowN (b : ℕ) (r : Fin 128) : Fin 2048 := ⟨(b % 16) * 128 + r.val, by have := Nat.mod_lt b (show 0 < 16 by decide); have := r.isLt; omega⟩
/-- Column `s` of column tile `q` (taken modulo 8). -/
def colN (q : ℕ) (s : Fin 256) : Fin 2048 := ⟨(q % 8) * 256 + s.val, by have := Nat.mod_lt q (show 0 < 8 by decide); have := s.isLt; omega⟩

theorem tileRow_eq (b : ℕ) (h : b < 16) (r : Fin 128) : Cert.Spec.tileRow ⟨b, h⟩ r = rowN b r :=
  Fin.ext (by show b * 128 + r.val = (b % 16) * 128 + r.val; rw [Nat.mod_eq_of_lt h])

/-- The block indices of the windows over the grid: point `t` is at row tile `t % 16` of column tile `t / 16`. -/
theorem idx0_0 : ∀ t : Fin cfg0.N, (cfg0.win 0).index t 0 = t.val % 16 ∧ (cfg0.win 0).index t 1 = t.val / 16 ∧ (cfg0.win 0).index t 2 = 0 :=
  (by decide +kernel : ∀ t : Fin grid0.N, win0_0.index t 0 = t.val % 16 ∧ win0_0.index t 1 = t.val / 16 ∧ win0_0.index t 2 = 0)
theorem idx0_1 : ∀ t : Fin cfg0.N, (cfg0.win 1).index t 0 = t.val % 16 ∧ (cfg0.win 1).index t 1 = 0 :=
  (by decide +kernel : ∀ t : Fin grid0.N, win0_1.index t 0 = t.val % 16 ∧ win0_1.index t 1 = 0)
theorem idx0_2 : ∀ t : Fin cfg0.N, (cfg0.win 2).index t 0 = t.val / 16 ∧ (cfg0.win 2).index t 1 = 0 :=
  (by decide +kernel : ∀ t : Fin grid0.N, win0_2.index t 0 = t.val / 16 ∧ win0_2.index t 1 = 0)
theorem idx0_3 : ∀ t : Fin cfg0.N, (cfg0.win 3).index t 0 = 0 ∧ (cfg0.win 3).index t 1 = 0 :=
  (by decide +kernel : ∀ t : Fin grid0.N, win0_3.index t 0 = 0 ∧ win0_3.index t 1 = 0)
theorem idx0_4 : ∀ t : Fin cfg0.N, (cfg0.win 4).index t 0 = 0 ∧ (cfg0.win 4).index t 1 = 0 :=
  (by decide +kernel : ∀ t : Fin grid0.N, win0_4.index t 0 = 0 ∧ win0_4.index t 1 = 0)
theorem idx0_5 : ∀ t : Fin cfg0.N, (cfg0.win 5).index t 0 = t.val % 16 ∧ (cfg0.win 5).index t 1 = t.val / 16 :=
  (by decide +kernel : ∀ t : Fin grid0.N, win0_5.index t 0 = t.val % 16 ∧ win0_5.index t 1 = t.val / 16)
theorem idx0_6 : ∀ t : Fin cfg0.N, (cfg0.win 6).index t 0 = 0 ∧ (cfg0.win 6).index t 1 = t.val / 16 :=
  (by decide +kernel : ∀ t : Fin grid0.N, win0_6.index t 0 = 0 ∧ win0_6.index t 1 = t.val / 16)

theorem tlt (t : Fin cfg0.N) : t.val < 128 := lt_of_lt_of_eq t.isLt (show cfg0.N = 128 from N_0)

/-- The geometry block at point `t` reads the geometry array at the point's rows and columns. -/
theorem gblk_apply (c : Dev nD) (t : Fin cfg0.N) (r : Fin 128) (s : Fin 256) (g : Fin 64) :
    gblk V c t (ix3 r s g) = geomA V c (ix3 (rowN t.val r) (colN (t.val / 16) s) g) := by
  have ht := tlt t
  obtain ⟨h0, h1, h2⟩ := idx0_0 t
  show iblk0 V c 0 t (ix3 r s g) = V c main_arg1 _
  unfold iblk0
  rw [View.read_apply]
  show V c main_arg1 _ = V c main_arg1 _
  congr 1
  funext a
  apply Fin.ext
  match a with
  | ⟨0, _⟩ => show (cfg0.win 0).index t 0 * 128 + 1 * r.val = (t.val % 16) * 128 + r.val; rw [h0]; omega
  | ⟨1, _⟩ => show (cfg0.win 0).index t 1 * 256 + 1 * s.val = (t.val / 16 % 8) * 256 + s.val; rw [h1]; omega
  | ⟨2, _⟩ => show (cfg0.win 0).index t 2 * 64 + 1 * g.val = g.val; rw [h2]; omega

theorem kblk_apply (c : Dev nD) (t : Fin cfg0.N) (r : Fin 128) (e : Fin 64) :
    kblk V c t (ix2 r e) = keyA V c (ix2 (rowN t.val r) e) := by
  have ht := tlt t
  obtain ⟨h0, h1⟩ := idx0_1 t
  show iblk0 V c 1 t (ix2 r e) = V c main_v7 _
  unfold iblk0
  rw [View.read_apply]
  show V c main_v7 _ = V c main_v7 _
  congr 1
  funext a
  apply Fin.ext
  match a with
  | ⟨0, _⟩ => show (cfg0.win 1).index t 0 * 128 + 1 * r.val = (t.val % 16) * 128 + r.val; rw [h0]; omega
  | ⟨1, _⟩ => show (cfg0.win 1).index t 1 * 64 + 1 * e.val = e.val; rw [h1]; omega

theorem qblk_apply (c : Dev nD) (t : Fin cfg0.N) (s : Fin 256) (e : Fin 64) :
    qblk V c t (ix2 s e) = qryA V c (ix2 (colN (t.val / 16) s) e) := by
  have ht := tlt t
  obtain ⟨h0, h1⟩ := idx0_2 t
  show iblk0 V c 2 t (ix2 s e) = V c main_v11 _
  unfold iblk0
  rw [View.read_apply]
  show V c main_v11 _ = V c main_v11 _
  congr 1
  funext a
  apply Fin.ext
  match a with
  | ⟨0, _⟩ => show (cfg0.win 2).index t 0 * 256 + 1 * s.val = (t.val / 16 % 8) * 256 + s.val; rw [h0]; omega
  | ⟨1, _⟩ => show (cfg0.win 2).index t 1 * 64 + 1 * e.val = e.val; rw [h1]; omega

theorem wblk_apply (c : Dev nD) (t : Fin cfg0.N) (g : Fin 64) :
    wblk V c t (ix2 0 g) = gateA V c (ix2 0 g) := by
  obtain ⟨h0, h1⟩ := idx0_3 t
  show iblk0 V c 3 t (ix2 0 g) = V c main_v12 _
  unfold iblk0
  rw [View.read_apply]
  show V c main_v12 _ = V c main_v12 _
  congr 1
  funext a
  apply Fin.ext
  match a with
  | ⟨0, _⟩ => show (cfg0.win 3).index t 0 * 1 + 1 * 0 = 0; rw [h0]
  | ⟨1, _⟩ => show (cfg0.win 3).index t 1 * 64 + 1 * g.val = g.val; rw [h1]; omega

theorem bblk_apply (c : Dev nD) (t : Fin cfg0.N) :
    bblk V c t (ix2 0 0) = biasA V c (ix2 0 0) := by
  obtain ⟨h0, h1⟩ := idx0_4 t
  show iblk0 V c 4 t (ix2 0 0) = V c main_v13 _
  unfold iblk0
  rw [View.read_apply]
  show V c main_v13 _ = V c main_v13 _
  congr 1
  funext a
  apply Fin.ext
  match a with
  | ⟨0, _⟩ => show (cfg0.win 4).index t 0 * 1 + 1 * 0 = 0; rw [h0]
  | ⟨1, _⟩ => show (cfg0.win 4).index t 1 * 1 + 1 * 0 = 0; rw [h1]

/-- The gated block the body computes at point `t`, at row `r` and column `s` of the block, is the un-normalised
    weight of the array row and column the point's tiles put there. -/
theorem blockWn (c : Dev nD) (t : Fin cfg0.N) (r : Fin 128) (s : Fin 256) :
    k0_pay3 (F := Ideal) (gblk V c t) (wblk V c t) (bblk V c t) (kblk V c t) (qblk V c t) (ix2 r s)
      = wn V c (rowN t.val r) (colN (t.val / 16) s) := by
  refine (Cert.KernelIdeal.Val.pay3_apply (gblk V c t) (wblk V c t) (bblk V c t) (kblk V c t) (qblk V c t) r s).trans ?_
  unfold wn
  simp only [gblk_apply, kblk_apply, qblk_apply, wblk_apply, bblk_apply]

/-! ## What the three arrays hold after a point, read at an index -/

/-- The gated-block window after point `t`: the weights of the point's rows and columns. -/
theorem blk5_apply (c : Dev nD) (t : Fin cfg0.N) (r : Fin 128) (s : Fin 256) :
    ((outsAt0 V c t.val t.isLt).1 : Vec Ideal S128x256 .f32) (ix2 r s) = wn V c (rowN t.val r) (colN (t.val / 16) s) := by
  by_cases h0 : t.val % 16 = 0
  · have h1 : ¬t.val % 16 = 15 := by omega
    rw [outsAt0_A V c t h0 h1]; dsimp only
    refine (congrFun (oA5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (gblk V c t) (kblk V c t) (qblk V c t) (wblk V c t) (bblk V c t)) (ix2 r s)).trans ?_
    exact blockWn V c t r s
  · by_cases h1 : t.val % 16 = 15
    · rw [outsAt0_C V c t h0 h1]; dsimp only
      refine (congrFun (oC5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (gblk V c t) (kblk V c t) (qblk V c t) (wblk V c t) (bblk V c t) (outsAt0 V c (t.val - 1) (Nat.lt_of_le_of_lt (Nat.sub_le _ _) t.isLt)).2.2) (ix2 r s)).trans ?_
      exact blockWn V c t r s
    · rw [outsAt0_B V c t h0 h1]; dsimp only
      refine (congrFun (oB5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (gblk V c t) (kblk V c t) (qblk V c t) (wblk V c t) (bblk V c t) (outsAt0 V c (t.val - 1) (Nat.lt_of_le_of_lt (Nat.sub_le _ _) t.isLt)).2.2) (ix2 r s)).trans ?_
      exact blockWn V c t r s

/-- The accumulator after a point at the first row tile: the tile's column sums, from zero. -/
theorem accA (c : Dev nD) (t : Fin cfg0.N) (h0 : t.val % 16 = 0) (s : Fin 256) :
    ((outsAt0 V c t.val t.isLt).2.2 : Vec Ideal S1x256 .f32) (ix2 0 s)
      = 0 + ∑ r : Fin 128, wn V c (rowN t.val r) (colN (t.val / 16) s) := by
  have h1 : ¬t.val % 16 = 15 := by omega
  rw [outsAt0_A V c t h0 h1]; dsimp only
  refine (congrFun (sA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (gblk V c t) (kblk V c t) (qblk V c t) (wblk V c t) (bblk V c t)) (ix2 0 s)).trans ?_
  rw [Cert.KernelIdeal.Val.pay1_eq]
  refine (Cert.KernelIdeal.Val.pay4_apply (gblk V c t) (wblk V c t) (bblk V c t) (kblk V c t) (qblk V c t) (k0_pay2 (F := Ideal)) s).trans ?_
  rw [Cert.KernelIdeal.Val.pay2_apply]
  exact congrArg (fun x => (0 : EReal) + x) (Finset.sum_congr rfl fun r _ => blockWn V c t r s)

/-- The accumulator after a later point: what the point before left, plus the tile's column sums. -/
theorem accBC (c : Dev nD) (t : Fin cfg0.N) (h0 : ¬t.val % 16 = 0) (s : Fin 256) :
    ((outsAt0 V c t.val t.isLt).2.2 : Vec Ideal S1x256 .f32) (ix2 0 s)
      = ((outsAt0 V c (t.val - 1) (Nat.lt_of_le_of_lt (Nat.sub_le _ _) t.isLt)).2.2 : Vec Ideal S1x256 .f32) (ix2 0 s) + ∑ r : Fin 128, wn V c (rowN t.val r) (colN (t.val / 16) s) := by
  by_cases h1 : t.val % 16 = 15
  · rw [outsAt0_C V c t h0 h1]; dsimp only
    refine (congrFun (sC (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (gblk V c t) (kblk V c t) (qblk V c t) (wblk V c t) (bblk V c t) (outsAt0 V c (t.val - 1) (Nat.lt_of_le_of_lt (Nat.sub_le _ _) t.isLt)).2.2) (ix2 0 s)).trans ?_
    rw [Cert.KernelIdeal.Val.pay1_eq]
    refine (Cert.KernelIdeal.Val.pay4_apply (gblk V c t) (wblk V c t) (bblk V c t) (kblk V c t) (qblk V c t) (outsAt0 V c (t.val - 1) (Nat.lt_of_le_of_lt (Nat.sub_le _ _) t.isLt)).2.2 s).trans ?_
    exact congrArg (fun x => ((outsAt0 V c (t.val - 1) (Nat.lt_of_le_of_lt (Nat.sub_le _ _) t.isLt)).2.2 : Vec Ideal S1x256 .f32) (ix2 0 s) + x) (Finset.sum_congr rfl fun r _ => blockWn V c t r s)
  · rw [outsAt0_B V c t h0 h1]; dsimp only
    refine (congrFun (sB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (gblk V c t) (kblk V c t) (qblk V c t) (wblk V c t) (bblk V c t) (outsAt0 V c (t.val - 1) (Nat.lt_of_le_of_lt (Nat.sub_le _ _) t.isLt)).2.2) (ix2 0 s)).trans ?_
    rw [Cert.KernelIdeal.Val.pay1_eq]
    refine (Cert.KernelIdeal.Val.pay4_apply (gblk V c t) (wblk V c t) (bblk V c t) (kblk V c t) (qblk V c t) (outsAt0 V c (t.val - 1) (Nat.lt_of_le_of_lt (Nat.sub_le _ _) t.isLt)).2.2 s).trans ?_
    exact congrArg (fun x => ((outsAt0 V c (t.val - 1) (Nat.lt_of_le_of_lt (Nat.sub_le _ _) t.isLt)).2.2 : Vec Ideal S1x256 .f32) (ix2 0 s) + x) (Finset.sum_congr rfl fun r _ => blockWn V c t r s)

/-- At the last row tile the column-sum window is left what the accumulator ends at. -/
theorem blk6_eq (c : Dev nD) (t : Fin cfg0.N) (h1 : t.val % 16 = 15) :
    (outsAt0 V c t.val t.isLt).2.1 = (outsAt0 V c t.val t.isLt).2.2 := by
  have h0 : ¬t.val % 16 = 0 := by omega
  rw [outsAt0_C V c t h0 h1]; dsimp only
  exact (oC6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (gblk V c t) (kblk V c t) (qblk V c t) (wblk V c t) (bblk V c t) (outsAt0 V c (t.val - 1) (Nat.lt_of_le_of_lt (Nat.sub_le _ _) t.isLt)).2.2).trans
    (sC (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (gblk V c t) (kblk V c t) (qblk V c t) (wblk V c t) (bblk V c t) (outsAt0 V c (t.val - 1) (Nat.lt_of_le_of_lt (Nat.sub_le _ _) t.isLt)).2.2).symm

/-! ## The accumulator over a column tile: the tiles' column sums accumulated from zero -/

theorem accTiles_congr (f : Fin 2048 → EReal) {m m' : ℕ} (e : m = m') (h : m ≤ 16) (h' : m' ≤ 16) :
    Cert.Spec.accTiles f m h = Cert.Spec.accTiles f m' h' := by subst e; rfl

theorem rowN_congr {a b : ℕ} (h : a % 16 = b % 16) (r : Fin 128) : rowN a r = rowN b r :=
  Fin.ext (by show a % 16 * 128 + r.val = b % 16 * 128 + r.val; rw [h])

theorem hb16 (n : ℕ) : n % 16 + 1 ≤ 16 := Nat.succ_le_of_lt (Nat.mod_lt n (by decide))

theorem acc_first (c : Dev nD) (t : Fin cfg0.N) (h0 : t.val % 16 = 0) (s : Fin 256) :
    ((outsAt0 V c t.val t.isLt).2.2 : Vec Ideal S1x256 .f32) (ix2 0 s)
      = Cert.Spec.accTiles (fun i => wn V c i (colN (t.val / 16) s)) (t.val % 16 + 1) (hb16 t.val) := by
  refine (accA V c t h0 s).trans ?_
  rw [accTiles_congr _ (show t.val % 16 + 1 = 0 + 1 by omega) _ (by decide)]
  show _ = (0 : EReal) + ∑ r : Fin 128, wn V c (Cert.Spec.tileRow ⟨0, _⟩ r) (colN (t.val / 16) s)
  refine congrArg (fun x => (0 : EReal) + x) (Finset.sum_congr rfl fun r _ => ?_)
  rw [tileRow_eq, rowN_congr (show t.val % 16 = 0 % 16 by omega)]

/-- After point `n` the accumulator holds, at column `s`, the column sums of the row tiles `0 … n % 16` of column
    tile `n / 16`, accumulated from zero in tile order. -/
theorem acc_eq (c : Dev nD) : ∀ (n : ℕ) (hn : n < cfg0.N) (s : Fin 256),
    ((outsAt0 V c n hn).2.2 : Vec Ideal S1x256 .f32) (ix2 0 s)
      = Cert.Spec.accTiles (fun i => wn V c i (colN (n / 16) s)) (n % 16 + 1) (hb16 n) := by
  intro n
  induction n with
  | zero => intro hn s; exact acc_first V c ⟨0, hn⟩ rfl s
  | succ m ih =>
    intro hn s
    by_cases h0 : (m + 1) % 16 = 0
    · exact acc_first V c ⟨m + 1, hn⟩ h0 s
    · refine (accBC V c ⟨m + 1, hn⟩ h0 s).trans ?_
      have hm : m % 16 + 1 < 16 := by omega
      rw [accTiles_congr _ (show (m + 1) % 16 + 1 = (m % 16 + 1) + 1 by omega) _ (by omega)]
      show ((outsAt0 V c m _).2.2 : Vec Ideal S1x256 .f32) (ix2 0 s) + _
        = Cert.Spec.accTiles _ (m % 16 + 1) _ + ∑ r : Fin 128, wn V c (Cert.Spec.tileRow ⟨m % 16 + 1, _⟩ r) (colN ((m + 1) / 16) s)
      rw [ih _ s, show (m + 1) / 16 = m / 16 by omega]
      congr 1
      refine Finset.sum_congr rfl fun r _ => ?_
      rw [tileRow_eq, rowN_congr (show (m + 1) % 16 = (m % 16 + 1) % 16 by omega)]

/-- So after the last row tile of a column tile it holds the whole column sums. -/
theorem acc_last (c : Dev nD) (t : Fin cfg0.N) (h1 : t.val % 16 = 15) (s : Fin 256) :
    ((outsAt0 V c t.val t.isLt).2.2 : Vec Ideal S1x256 .f32) (ix2 0 s) = ∑ i : Fin 2048, wn V c i (colN (t.val / 16) s) := by
  rw [acc_eq V c t.val t.isLt s, accTiles_congr _ (show t.val % 16 + 1 = 16 by omega) _ (le_refl _)]
  exact Cert.Spec.accTiles_all _

/-! ## The two arrays the region leaves -/

/-- The gated array: the weight at every row and column. -/
def G5 (c : Dev nD) : Vec Ideal S2048x2048 .f32 := fun x => wn V c (x 0) (x 1)
/-- The column-sum array: every column's sum over all rows. -/
def G6 (c : Dev nD) : Vec Ideal S1x2048 .f32 := fun x => ∑ i : Fin 2048, wn V c i (x 1)

/-- Every point writes back its block of the gated array. -/
theorem flushed5 (c : Dev nD) (t : Fin cfg0.N) (hf : (cfg0.win 5).flush t = true) :
    (dat0 (F := Ideal) V c).flushed 5 t = ((cfg0.win 5).blk t).view.read (Elt Ideal) (G5 V c) := by
  show (cfg0.win 5).cut (grid0.coords t) ((dat0 (F := Ideal) V c).after 5 t) = _
  rw [after0_5]
  have ht := tlt t
  obtain ⟨h0, h1⟩ := idx0_5 t
  funext y
  obtain ⟨r, s, rfl⟩ : ∃ (r : Fin 128) (s : Fin 256), y = ix2 r s := ⟨y 0, y 1, eq_ix2 y⟩
  show ((outsAt0 V c t.val t.isLt).1 : Vec Ideal S128x256 .f32) (ix2 r s) = _
  rw [blk5_apply, View.read_apply]
  show wn V c _ _ = wn V c _ _
  refine congrArg₂ (wn V c) (Fin.ext ?_) (Fin.ext ?_)
  · show (t.val % 16) * 128 + r.val = (cfg0.win 5).index t 0 * 128 + 1 * r.val
    rw [h0]; omega
  · show (t.val / 16 % 8) * 256 + s.val = (cfg0.win 5).index t 1 * 256 + 1 * s.val
    rw [h1]; omega

/-- The points at the last row tile write back their block of the column-sum array. -/
theorem flushed6 (c : Dev nD) (t : Fin cfg0.N) (hf : (cfg0.win 6).flush t = true) :
    (dat0 (F := Ideal) V c).flushed 6 t = ((cfg0.win 6).blk t).view.read (Elt Ideal) (G6 V c) := by
  have h15 : t.val % 16 = 15 := (flush0_6 t).mp hf
  show (cfg0.win 6).cut (grid0.coords t) ((dat0 (F := Ideal) V c).after 6 t) = _
  rw [after0_6, blk6_eq V c t h15]
  have ht := tlt t
  obtain ⟨h0, h1⟩ := idx0_6 t
  funext y
  obtain ⟨r, s, rfl⟩ : ∃ (r : Fin 1) (s : Fin 256), y = ix2 r s := ⟨y 0, y 1, eq_ix2 y⟩
  obtain rfl : r = 0 := Subsingleton.elim _ _
  show ((outsAt0 V c t.val t.isLt).2.2 : Vec Ideal S1x256 .f32) (ix2 0 s) = _
  rw [acc_last V c t h15 s, View.read_apply]
  show _ = ∑ i : Fin 2048, wn V c i _
  refine Finset.sum_congr rfl fun i _ => congrArg (wn V c i) (Fin.ext ?_)
  show (t.val / 16 % 8) * 256 + s.val = (cfg0.win 6).index t 1 * 256 + 1 * s.val
  rw [h1]; omega

/-- The point whose gated block holds row `i` and column `j`. -/
def pt5 (i j : Fin 2048) : Fin cfg0.N :=
  ⟨(j.val / 256) * 16 + i.val / 128, by rw [show cfg0.N = 128 from N_0]; have := i.isLt; have := j.isLt; omega⟩
/-- The point that writes back the column sums of column `j`. -/
def pt6 (j : Fin 2048) : Fin cfg0.N :=
  ⟨(j.val / 256) * 16 + 15, by rw [show cfg0.N = 128 from N_0]; have := j.isLt; omega⟩

theorem wnomArr_apply (c : Dev nD) (i j : Fin 2048) :
    ((dat0 (F := Ideal) V c).arrAt 5 cfg0.N : Vec Ideal S2048x2048 .f32) (ix2 i j) = wn V c i j := by
  refine ((dat0 (F := Ideal) V c).arrAt_apply_of_mem 5 (G5 V c) (flushed5 V c) cfg0.N (pt5 i j) (ix2 i j) (pt5 i j).isLt (flush0_5 _) ?_).trans rfl
  show ix2 i j ∈ ((View.whole main_v14_0).slice ((cfg0.win 5).rect (pt5 i j))).set
  rw [View.set_slice_whole, Rect.mem_set_unit]
  obtain ⟨h0, h1⟩ := idx0_5 (pt5 i j)
  have hv : (pt5 i j).val = (j.val / 256) * 16 + i.val / 128 := rfl
  have hi := i.isLt
  have hj := j.isLt
  intro a
  match a with
  | ⟨0, _⟩ =>
    show (cfg0.win 5).index (pt5 i j) 0 * 128 ≤ i.val ∧ i.val < (cfg0.win 5).index (pt5 i j) 0 * 128 + 128
    rw [h0, hv]; omega
  | ⟨1, _⟩ =>
    show (cfg0.win 5).index (pt5 i j) 1 * 256 ≤ j.val ∧ j.val < (cfg0.win 5).index (pt5 i j) 1 * 256 + 256
    rw [h1, hv]; omega

theorem denomArr_apply (c : Dev nD) (j : Fin 2048) :
    ((dat0 (F := Ideal) V c).arrAt 6 cfg0.N : Vec Ideal S1x2048 .f32) (ix2 0 j) = ∑ i : Fin 2048, wn V c i j := by
  have hv : (pt6 j).val = (j.val / 256) * 16 + 15 := rfl
  have hj := j.isLt
  have hf : (cfg0.win 6).flush (pt6 j) = true := (flush0_6 (pt6 j)).mpr (by rw [hv]; omega)
  refine ((dat0 (F := Ideal) V c).arrAt_apply_of_mem 6 (G6 V c) (flushed6 V c) cfg0.N (pt6 j) (ix2 0 j) (pt6 j).isLt hf ?_).trans rfl
  show ix2 0 j ∈ ((View.whole main_v14_1).slice ((cfg0.win 6).rect (pt6 j))).set
  rw [View.set_slice_whole, Rect.mem_set_unit]
  obtain ⟨h0, h1⟩ := idx0_6 (pt6 j)
  intro a
  match a with
  | ⟨0, _⟩ =>
    show (cfg0.win 6).index (pt6 j) 0 * 1 ≤ 0 ∧ 0 < (cfg0.win 6).index (pt6 j) 0 * 1 + 1
    rw [h0]; omega
  | ⟨1, _⟩ =>
    show (cfg0.win 6).index (pt6 j) 1 * 256 ≤ j.val ∧ j.val < (cfg0.win 6).index (pt6 j) 1 * 256 + 256
    rw [h1, hv]; omega

end Region

end Cert.KernelIdeal.Val0

end
-- ==== Proof.ValRegion1.lean ====
/-
  The second kernel region, read as a value. Its grid has four points; point t takes rows 512 t … 512 t + 511 of the
  weight array W (2048 by 2048), the whole value array A (2048 by 8), and stores the 512 by 8 product block
      (r, k) ↦ ∑ j, W (512 t + r, j) * A (j, k)
  into rows 512 t … 512 t + 511 of the result. A block's coordinate on an axis is its block index times the block's
  size plus the coordinate inside the block; on the row axis the weight block and the result block have the same block
  index t, on every other axis the block index is 0. So what point t writes back is its own block of ONE array,
      P (i, k) = ∑ j, W (i, j) * A (j, k),
  and since row i lies in the block of point i / 512 and every point writes back, the result array ends holding P.
-/
import proofs.«146286_j30580167147772_1_alg».proof.Proof.KernelIdeal.Region1
import proofs.«146286_j30580167147772_1_alg».proof.Proof.ValPay
import Idealize.ShloMosaic.Lib.ValueIdx
import Idealize.ShloMosaic.Lib.Pipeline.Value

set_option maxRecDepth 16384

noncomputable section

namespace Cert.KernelIdeal.Val1

open Cert.KernelIdeal Cert.KernelIdeal.Gen Cert.KernelIdeal.Hand Idealize.ShloMosaic Idealize.ShloMosaic.TcCoe Idealize.ShloMosaic.ValueIdx Idealize.SL.Sem
open scoped BigOperators

variable (V : (c : Dev nD) → (b : Ref sig .tc) → Buf (Elt Ideal) ((c : Thread nD τ).loc b))

/-- The offsets of the body's three accesses are all zero. -/
theorem zero_offsets : (![0, 0] : Fin 2 → Nat) = fun _ => 0 := funext fun a => by fin_cases a <;> rfl

/-- The product of the weight array and the value array, entry by entry. -/
def prodArr (wn : Vec Ideal S2048x2048 .f32) (sa : Vec Ideal S2048x8 .f32) : Vec Ideal S2048x8 .f32 :=
  fun idx => ∑ j : Fin 2048, wn (ix2 (idx 0) j) * sa (ix2 j (idx 1))

/-- The product array at row i and column k. -/
theorem prodArr_apply (wn : Vec Ideal S2048x2048 .f32) (sa : Vec Ideal S2048x8 .f32) (i : Fin 2048) (k : Fin 8) :
    prodArr wn sa (ix2 i k) = ∑ j : Fin 2048, wn (ix2 i j) * sa (ix2 j k) := rfl

/-- The block one point leaves in the result window, at row r and column k of the block: row r of its weight block
    against column k of its value block. -/
theorem block_apply (x0 : Vec Ideal S512x2048 .f32) (x1 : Vec Ideal S2048x8 .f32) (r : Fin 512) (k : Fin 8) :
    out1_2 (F := Ideal) x0 x1 (ix2 r k) = ∑ j : Fin 2048, x0 (ix2 r j) * x1 (ix2 j k) := by
  unfold out1_2
  rw [View.canon_unit_zero zero_offsets]
  simp only [View.ld_unit_zero (S := S512x2048) zero_offsets, View.ld_unit_zero (S := S2048x8) zero_offsets]
  exact Val.k1_pay1_apply x0 x1 r k

/-- The block indices over the grid: the weight block and the result block of point t are the t-th along the rows, and
    every other block index is 0. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 4 :=
  (by decide +kernel : ∀ t : Fin grid1.N, _)

/-- The weight block of point t at (r, j) is the weight array at (512 t + r, j). -/
theorem weight_block_apply (c : Dev nD) (t : Fin cfg1.N) (r : Fin 512) (j : Fin 2048) (i : Fin 2048) (hi : i.val = t.val * 512 + r.val) :
    (iblk1 V c 0 t : Vec Ideal S512x2048 .f32) (ix2 r j) = (V c main_v14_0 : Vec Ideal S2048x2048 .f32) (ix2 i j) := by
  obtain ⟨e0, e1, -, -, -, -, -⟩ := block_indices t
  unfold iblk1
  rw [View.read_apply]
  show V c main_v14_0 _ = V c main_v14_0 _
  congr 1
  funext a
  apply Fin.ext
  match a with
  | ⟨0, _⟩ => show win1_0.index t (0 : Fin 2) * 512 + 1 * r.val = i.val; omega
  | ⟨1, _⟩ => show win1_0.index t (1 : Fin 2) * 2048 + 1 * j.val = j.val; omega

/-- The value block of any point is the whole value array. -/
theorem value_block_apply (c : Dev nD) (t : Fin cfg1.N) (j : Fin 2048) (k : Fin 8) :
    (iblk1 V c 1 t : Vec Ideal S2048x8 .f32) (ix2 j k) = (V c main_v17 : Vec Ideal S2048x8 .f32) (ix2 j k) := by
  obtain ⟨-, -, e2, e3, -, -, -⟩ := block_indices t
  unfold iblk1
  rw [View.read_apply]
  show V c main_v17 _ = V c main_v17 _
  congr 1
  funext a
  apply Fin.ext
  match a with
  | ⟨0, _⟩ => show win1_1.index t (0 : Fin 2) * 2048 + 1 * j.val = j.val; omega
  | ⟨1, _⟩ => show win1_1.index t (1 : Fin 2) * 8 + 1 * k.val = k.val; omega

/-- What point t writes back is its block of the product array. -/
theorem flushed_eq (c : Dev nD) (t : Fin cfg1.N) :
    (dat1 (F := Ideal) V c).flushed 2 t
      = ((cfg1.win 2).blk t).view.read (Elt Ideal) (prodArr (V c main_v14_0) (V c main_v17)) := by
  obtain ⟨-, -, -, -, e4, e5, hN⟩ := block_indices t
  show (cfg1.win 2).cut (grid1.coords t) ((dat1 V c).after 2 t) = _
  rw [after1_2]
  funext y
  obtain ⟨r, k, rfl⟩ : ∃ (r : Fin 512) (k : Fin 8), y = ix2 r k := ⟨y 0, y 1, eq_ix2 y⟩
  have hrow : t.val * 512 + r.val < 2048 := by have := r.isLt; omega
  -- the block's index (r, k) as an index of the block, and as an index of the array
  have hin : (cfg1.win 2).xinj (grid1.coords t) (ix2 r k) = (ix2 r k : S512x8.Idx) := by
    funext a
    apply Fin.ext
    match a with
    | ⟨0, _⟩ => rfl
    | ⟨1, _⟩ => rfl
  have hemb : ((cfg1.win 2).blk t).view.emb (ix2 r k) = (ix2 (⟨t.val * 512 + r.val, hrow⟩ : Fin 2048) k : S2048x8.Idx) := by
    funext a
    apply Fin.ext
    match a with
    | ⟨0, _⟩ => show win1_2.index t (0 : Fin 2) * 512 + 1 * r.val = t.val * 512 + r.val; omega
    | ⟨1, _⟩ => show win1_2.index t (1 : Fin 2) * 8 + 1 * k.val = k.val; omega
  show out1_2 (iblk1 V c 0 t) (iblk1 V c 1 t) ((cfg1.win 2).xinj (grid1.coords t) (ix2 r k))
      = prodArr (V c main_v14_0) (V c main_v17) (((cfg1.win 2).blk t).view.emb (ix2 r k))
  rw [hin, hemb]
  refine (block_apply _ _ r k).trans ?_
  refine Eq.trans ?_ (prodArr_apply (V c main_v14_0) (V c main_v17) ⟨t.val * 512 + r.val, hrow⟩ k).symm
  refine Finset.sum_congr rfl fun j _ => ?_
  refine congrArg₂ (fun a b : EReal => a * b) ?_ ?_
  · exact weight_block_apply V c t r j _ rfl
  · exact value_block_apply V c t j k

/-- An index of the result array is in point t's block iff each coordinate is in the block's range on its axis. -/
theorem mem_block (t : Fin cfg1.N) (i : S2048x8.Idx) :
    i ∈ ((cfg1.win 2).blk t).view.set ↔ ∀ a : Fin 2, win1_2.index t a * S512x8.size a ≤ (i a).val ∧ (i a).val < win1_2.index t a * S512x8.size a + S512x8.size a := by
  show i ∈ ((View.whole main_v18).slice (win1_2.rect t)).set ↔ _
  rw [View.set_slice_whole, Rect.mem_set_unit]
  exact Iff.rfl

/-- Every index of the result array is in the block of the point its row falls to: row i in that of point i / 512. -/
theorem cover (i : S2048x8.Idx) : ∃ t : Fin cfg1.N, (cfg1.win 2).flush t = true ∧ i ∈ ((cfg1.win 2).blk t).view.set := by
  have hi0 : (i 0).val < 2048 := (i 0).isLt
  have hi1 : (i 1).val < 8 := (i 1).isLt
  let t : Fin cfg1.N := ⟨(i 0).val / 512, by rw [show cfg1.N = 4 from N_1]; omega⟩
  obtain ⟨-, -, -, -, e4, e5, -⟩ := block_indices t
  have ht : t.val = (i 0).val / 512 := rfl
  refine ⟨t, flush1_2 t, ?_⟩
  rw [mem_block]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 8 ≤ (i 1).val ∧ (i 1).val < win1_2.index t (1 : Fin 2) * 8 + 8; omega

/-- The result array after the region: the product array. -/
theorem outArr_eq (c : Dev nD) :
    (dat1 (F := Ideal) V c).arrAt 2 cfg1.N = prodArr (V c main_v14_0) (V c main_v17) :=
  (dat1 (F := Ideal) V c).arrAt_eq_of_cover 2 (prodArr (V c main_v14_0) (V c main_v17)) (fun t _ => flushed_eq V c t) cover

/-- The result array after the region, read at row i and column k, for the weight and value arrays under any names:
    row i of the weights against column k of the values. -/
theorem outArr_apply_of (c : Dev nD) (wn : Vec Ideal S2048x2048 .f32) (sa : Vec Ideal S2048x8 .f32)
    (hwn : wn = V c main_v14_0) (hsa : sa = V c main_v17) (i : Fin 2048) (k : Fin 8) :
    ((dat1 (F := Ideal) V c).arrAt 2 cfg1.N : Vec Ideal S2048x8 .f32) (ix2 i k)
      = ∑ j : Fin 2048, wn (ix2 i j) * sa (ix2 j k) := by
  subst hwn; subst hsa
  rw [outArr_eq]
  rfl

/-- The same with the arrays as the region finds them. -/
theorem outArr_apply (c : Dev nD) (i : Fin 2048) (k : Fin 8) :
    ((dat1 (F := Ideal) V c).arrAt 2 cfg1.N : Vec Ideal S2048x8 .f32) (ix2 i k)
      = ∑ j : Fin 2048, HMul.hMul (α := EReal) (β := EReal) (γ := EReal)
          ((V c main_v14_0 : Vec Ideal S2048x2048 .f32) (ix2 i j)) ((V c main_v17 : Vec Ideal S2048x8 .f32) (ix2 j k)) :=
  outArr_apply_of V c _ _ rfl rfl i k

end Cert.KernelIdeal.Val1

end
-- ==== Proof.RefRead.lean ====
/-
  The reference's run read back one operation at a time: this module only brings the generated
  run and read-at-an-index lemmas of the reference program into the build.
-/
import proofs.«146286_j30580167147772_1_alg».proof.Proof.Gen.ReferenceIdeal.Run
import proofs.«146286_j30580167147772_1_alg».proof.Proof.Gen.ReferenceIdeal.Read
-- ==== Proof.KernelHost.lean ====
/-
  What the host operations of the kernel's program compute, read off the valuation fold:
  the three projections (values, keys, queries) are the reference's terms of the same arguments,
  the gate row and the bias are the arguments re-laid-out, and the final scaling is an elementwise
  quotient by the row of normalisers.
-/
import proofs.«146286_j30580167147772_1_alg».proof.Proof.Gen.KernelIdeal.Launch
import proofs.«146286_j30580167147772_1_alg».proof.Proof.RefRead
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HostVal

open Cert.KernelIdeal Cert.KernelIdeal.Gen Idealize.ShloMosaic Idealize.ShloMosaic.TcCoe Idealize.ShloMosaic.ValueIdx Idealize.SL.Sem

variable (W : Valuation τ sig (Elt Ideal))

/-- The keys: the token matrix times the key weights plus the key bias broadcast down the rows. -/
theorem keys_eq : (StableHlo.after hostOps0 W (Proc.devRef .tc main_v7) : (⟨S2048x64, .f32⟩ : BufTy).Contents (Elt Ideal))
    = Cert.ReferenceIdeal.Read.val_main_v7 (F := Ideal) (W (Proc.devRef .tc main_arg0)) (W (Proc.devRef .tc main_arg4)) (W (Proc.devRef .tc main_arg5)) := by
  simp only [hostOps0]
  after_results
  rfl

/-- The queries: the token matrix times the query weights plus the query bias broadcast down the rows. -/
theorem queries_eq : StableHlo.after hostOps0 W (Proc.devRef .tc main_v11)
    = Cert.ReferenceIdeal.Read.val_main_v11 (F := Ideal) (W (Proc.devRef .tc main_arg0)) (W (Proc.devRef .tc main_arg6)) (W (Proc.devRef .tc main_arg7)) := by
  simp only [hostOps0]
  after_results
  rfl

/-- The values: the token matrix times the value weights plus the value bias broadcast down the rows. -/
theorem values_eq : StableHlo.after hostOps0 W (Proc.devRef .tc main_v3)
    = Cert.ReferenceIdeal.Read.val_main_v3 (F := Ideal) (W (Proc.devRef .tc main_arg0)) (W (Proc.devRef .tc main_arg2)) (W (Proc.devRef .tc main_arg3)) := by
  simp only [hostOps0]
  after_results
  rfl

/-- The gate row is the gate column transposed: its entry `(0, g)` is the column's entry `(g, 0)`. -/
theorem gaterow_apply (g : Fin 64) :
    (StableHlo.after hostOps0 W (Proc.devRef .tc main_v12) : (⟨S1x64, .f32⟩ : BufTy).Contents (Elt Ideal)) (ix2 0 g)
      = (W (Proc.devRef .tc main_arg8) : (⟨S64x1, .f32⟩ : BufTy).Contents (Elt Ideal)) (ix2 g 0) := by
  have e : (StableHlo.after hostOps0 W (Proc.devRef .tc main_v12) : (⟨S1x64, .f32⟩ : BufTy).Contents (Elt Ideal))
      = transpose S1x64 [1, 0] (W (Proc.devRef .tc main_arg8) : (⟨S64x1, .f32⟩ : BufTy).Contents (Elt Ideal)) transposes_S64x1_S1x64_1_0 := by
    simp only [hostOps0]
    after_results
  rw [e]
  exact transpose_ix2_apply _ transposes_S64x1_S1x64_1_0 (0 : Fin 1) g

/-- The bias as a one-by-one matrix holds the bias vector's single entry. -/
theorem bias_apply :
    (StableHlo.after hostOps0 W (Proc.devRef .tc main_v13) : (⟨S1x1, .f32⟩ : BufTy).Contents (Elt Ideal)) (ix2 0 0)
      = (W (Proc.devRef .tc main_arg9) : (⟨S1, .f32⟩ : BufTy).Contents (Elt Ideal)) (ix1 0) := by
  have e : (StableHlo.after hostOps0 W (Proc.devRef .tc main_v13) : (⟨S1x1, .f32⟩ : BufTy).Contents (Elt Ideal))
      = shapeCast S1x1 (W (Proc.devRef .tc main_arg9) : (⟨S1, .f32⟩ : BufTy).Contents (Elt Ideal)) shapeCasts_S1_S1x1 := by
    simp only [hostOps0]
    after_results
    rfl
  rw [e]
  exact shapeCast_a_1a_apply _ shapeCasts_S1_S1x1 (0 : Fin 1) (0 : Fin 1)

/-- The first host stretch writes no argument: the geometry tensor is as it was. -/
theorem geom_kept : StableHlo.after hostOps0 W (Proc.devRef .tc main_arg1) = W (Proc.devRef .tc main_arg1) := by
  simp only [hostOps0]
  after_results

/-- The final scaling: the unnormalised output's entry `(j, c)` divided by row `j`'s normaliser. -/
theorem scaled_apply (j : Fin 2048) (c : Fin 8) :
    (StableHlo.after hostOps1 W (Proc.devRef .tc main_v17) : (⟨S2048x8, .f32⟩ : BufTy).Contents (Elt Ideal)) (ix2 j c)
      = Ideal.div ((W (Proc.devRef .tc main_v3) : (⟨S2048x8, .f32⟩ : BufTy).Contents (Elt Ideal)) (ix2 j c))
          ((W (Proc.devRef .tc main_v14_1) : (⟨S1x2048, .f32⟩ : BufTy).Contents (Elt Ideal)) (ix2 0 j)) := by
  have e : (StableHlo.after hostOps1 W (Proc.devRef .tc main_v17) : (⟨S2048x8, .f32⟩ : BufTy).Contents (Elt Ideal))
      = Host.divf (F := Ideal) (s := S2048x8) (φ := .f32) (W (Proc.devRef .tc main_v3) : (⟨S2048x8, .f32⟩ : BufTy).Contents (Elt Ideal))
          (broadcastInDim S2048x8 ![0, 1] bcast_S2048x1_S2048x8_0_1
            (transpose S2048x1 [1, 0] (W (Proc.devRef .tc main_v14_1) : (⟨S1x2048, .f32⟩ : BufTy).Contents (Elt Ideal)) transposes_S1x2048_S2048x1_1_0)) := by
    simp only [hostOps1]
    after_results
  rw [e]
  show FloatOps.hostDivf _ _ = _
  rw [Ideal.hostDivf_def]
  congr 1
  rw [broadcastInDim_apply _ bcast_S2048x1_S2048x8_0_1 _ (ix2 j c) (ix2 j (0 : Fin 1)) (fun a => match a with
    | ⟨0, _⟩ => by show j.val = if (2048 : Nat) = 1 then 0 else j.val; rw [if_neg (by decide)]
    | ⟨1, _⟩ => by show 0 = if (1 : Nat) = 1 then 0 else c.val; rw [if_pos rfl])]
  exact transpose_ix2_apply _ transposes_S1x2048_S2048x1_1_0 j (0 : Fin 1)

/-- The second host stretch does not write the first kernel call's first result: it is as it was. -/
theorem wnom_kept : StableHlo.after hostOps1 W (Proc.devRef .tc main_v14_0) = W (Proc.devRef .tc main_v14_0) := by
  simp only [hostOps1]
  after_results

end Cert.KernelIdeal.HostVal

end
-- ==== Proof.RefValue.lean ====
/-
  The reference program's result read at an index, in the words of the mathematics: the scale it
  computes as 1/sqrt(64) is the dyadic 1/8; an un-normalised weight is the clamped geometric gate
  times the exponential of the scaled key-query product; a column's normaliser is the sum of that
  column's weights; the output is the normalised weights contracted with the value projection.
  Two reshapes sit on the gate's path: the pair-embedding array [2048,2048,64] is read as
  [4194304,64], row i*2048+j being pair (i,j), and the column [4194304,1] of gate values is read
  back as [2048,2048]; at an index the two undo one another by quotient and remainder by 2048.
  The key, query and value projections stay closed: only their entries are named.
-/
import proofs.«146286_j30580167147772_1_alg».proof.Proof.RefRead
import proofs.«146286_j30580167147772_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-! ## The three literals -/

/-- The pattern of `1.0` denotes the real one. -/
theorem ofBits_one : Ideal.ofBits .f32 0x3F800000#32 = ((1 : ℝ) : EReal) := by
  simp [Ideal.ofBits, Ideal.ieee, -EReal.coe_mul]; norm_num

/-- The pattern of `64.0` denotes the real sixty-four. -/
theorem ofBits_sixtyfour : Ideal.ofBits .f32 0x42800000#32 = ((64 : ℝ) : EReal) := by
  simp [Ideal.ofBits, Ideal.ieee, -EReal.coe_mul]; norm_num

/-- The pattern of `0.125` denotes the real one eighth. -/
theorem ofBits_eighth : Ideal.ofBits .f32 0x3E000000#32 = ((1 / 8 : ℝ) : EReal) := by
  simp [Ideal.ofBits, Ideal.ieee, -EReal.coe_mul]; norm_num

/-- The square root of sixty-four is eight. -/
theorem sqrt_sixtyfour : Real.sqrt 64 = 8 := by
  rw [show (64 : ℝ) = 8 ^ 2 by norm_num]
  exact Real.sqrt_sq (by norm_num)

/-- the scale 1/sqrt(64) the reference computes is the dyadic 1/8 the kernel carries as a literal -/
theorem scale_eq : val_main_v15 (F := Ideal) ix0 = Ideal.ofBits .f32 0x3E000000#32 := by
  show Ideal.div (Ideal.ofBits .f32 0x3F800000#32) (Ideal.sqrt (Ideal.ofBits .f32 0x42800000#32)) = _
  rw [ofBits_one, ofBits_sixtyfour, ofBits_eighth, Ideal.sqrt_coe, if_neg (by norm_num), sqrt_sixtyfour,
    Ideal.div_coe (by norm_num), ← EReal.coe_mul, one_mul]

/-! ## The composed index maps, at explicit coordinates -/

/-- Pair `(i, j)`'s gate value sits in row `i * 2048 + j` of the flattened column, and that row's entry `g`
    of the flattened pair embeddings is entry `(i, j, g)` of the array: quotient and remainder by 2048. -/
theorem idx_geom (i j : Fin 2048) (g : Fin 64) :
    idx_main_v18 (lidx_main_v19 (idx_main_v23 (ix2 i j)) g) = ix3 i j g := by
  have hi := i.isLt; have hj := j.isLt; have hg := g.isLt
  funext a
  refine Fin.ext ?_
  match a with
  | ⟨0, _⟩ => show ((i.val * 2048 + j.val) / 1 * 64 + g.val) / 131072 = i.val; omega
  | ⟨1, _⟩ => show ((i.val * 2048 + j.val) / 1 * 64 + g.val) / 64 % 2048 = j.val; omega
  | ⟨2, _⟩ => show ((i.val * 2048 + j.val) / 1 * 64 + g.val) % 64 = g.val; omega

/-- The gate vector is a one-column matrix: entry `g` of the contraction reads its row `g`. -/
theorem idx_wg (i j : Fin 2048) (g : Fin 64) :
    ridx_main_v19 (idx_main_v23 (ix2 i j)) g = ix2 g (0 : Fin 1) :=
  funext fun a => Fin.ext (by match a with | ⟨0, _⟩ => rfl | ⟨1, _⟩ => rfl)

/-- The gate bias is one number, read at its only index. -/
theorem idx_bg (i j : Fin 2048) :
    idx_main_v20 (idx_main_v21 (idx_main_v23 (ix2 i j))) = ix1 (0 : Fin 1) :=
  funext fun a => Fin.ext (by match a with | ⟨0, _⟩ => rfl)

/-- The key row of the logit at `(i, j)` is row `i`. -/
theorem idx_key (i j : Fin 2048) (e : Fin 64) : lidx_main_v13 (ix2 i j) e = ix2 i e :=
  funext fun a => Fin.ext (by match a with | ⟨0, _⟩ => rfl | ⟨1, _⟩ => rfl)

/-- The query row of the logit at `(i, j)` is row `j`, read through the transpose. -/
theorem idx_query (i j : Fin 2048) (e : Fin 64) : idx_main_v12 (ridx_main_v13 (ix2 i j) e) = ix2 j e :=
  funext fun a => Fin.ext (by match a with | ⟨0, _⟩ => rfl | ⟨1, _⟩ => rfl)

/-- Summand `k` of column `j`'s normaliser is the weight at `(k, j)`. -/
theorem idx_col (j k : Fin 2048) : idx_main_v27 (ix1 j) k = ix2 k j :=
  funext fun a => Fin.ext (by match a with | ⟨0, _⟩ => rfl | ⟨1, _⟩ => rfl)

/-- Summand `k` of the output at `(i, c)` reads the normalised weight at `(i, k)`. -/
theorem idx_outl (i : Fin 2048) (c : Fin 8) (k : Fin 2048) : lidx_main_v31 (ix2 i c) k = ix2 i k :=
  funext fun a => Fin.ext (by match a with | ⟨0, _⟩ => rfl | ⟨1, _⟩ => rfl)

/-- Summand `k` of the output at `(i, c)` reads the value projection at `(k, c)`. -/
theorem idx_outr (i : Fin 2048) (c : Fin 8) (k : Fin 2048) : ridx_main_v31 (ix2 i c) k = ix2 k c :=
  funext fun a => Fin.ext (by match a with | ⟨0, _⟩ => rfl | ⟨1, _⟩ => rfl)

/-- The normaliser broadcast over the rows: at `(i, k)` it is column `k`'s. -/
theorem idx_norm (i k : Fin 2048) : idx_main_v28 (idx_main_v29 (ix2 i k)) = ix1 k :=
  funext fun a => Fin.ext (by match a with | ⟨0, _⟩ => rfl)

variable (x0 : (⟨S2048x128, .f32⟩ : BufTy).Contents (Elt Ideal)) (x1 : (⟨S2048x2048x64, .f32⟩ : BufTy).Contents (Elt Ideal))
  (x2 : (⟨S128x8, .f32⟩ : BufTy).Contents (Elt Ideal)) (x3 : (⟨S8, .f32⟩ : BufTy).Contents (Elt Ideal))
  (x4 : (⟨S128x64, .f32⟩ : BufTy).Contents (Elt Ideal)) (x5 : (⟨S64, .f32⟩ : BufTy).Contents (Elt Ideal))
  (x6 : (⟨S128x64, .f32⟩ : BufTy).Contents (Elt Ideal)) (x7 : (⟨S64, .f32⟩ : BufTy).Contents (Elt Ideal))
  (x8 : (⟨S64x1, .f32⟩ : BufTy).Contents (Elt Ideal)) (x9 : (⟨S1, .f32⟩ : BufTy).Contents (Elt Ideal))

/-! ## The gate and the logit -/

/-- The geometric gate at pair `(i, j)`: the embedding against the gate vector, plus the bias, clamped at zero. -/
theorem gate_apply (i j : Fin 2048) :
    val_main_v24 (F := Ideal) x1 x8 x9 (ix2 i j)
      = Cert.Spec.gate (fun i j g => x1 (ix3 i j g)) (fun g => x8 (ix2 g 0)) (x9 (ix1 0)) i j := by
  rw [val_main_v24_apply, val_main_v23_apply, val_main_v22_apply, val_main_v19_apply, val_main_v21_apply,
    val_main_v20_apply, val_main_call0_v0_apply, val_main_call0_cst_apply, idx_bg]
  simp only [val_main_v18_apply, idx_geom, idx_wg]
  rw [Ideal.maximumf_def, Ideal.addf_def, Ideal.ofBits_def, Ideal.ofBits_zero_f32]
  rfl

/-- The scaled logit at pair `(i, j)`: key row `i` against query row `j`, times one eighth. -/
theorem logit_apply (i j : Fin 2048) :
    val_main_v17 (F := Ideal) x0 x4 x5 x6 x7 (ix2 i j)
      = Cert.Spec.logit (fun i e => val_main_v7 (F := Ideal) x0 x4 x5 (ix2 i e))
          (fun j e => val_main_v11 (F := Ideal) x0 x6 x7 (ix2 j e)) (Ideal.ofBits .f32 0x3E000000#32) i j := by
  rw [val_main_v17_apply, val_main_v13_apply, val_main_v16_apply,
    show idx_main_v16 (ix2 i j) = ix0 from rfl, scale_eq]
  simp only [val_main_v12_apply, idx_key, idx_query]
  rw [Ideal.mulf_def]
  rfl

/-- The un-normalised weight at pair `(i, j)`: the gate times the exponential of the scaled logit. -/
theorem wnom_apply (i j : Fin 2048) :
    val_main_v26 (F := Ideal) x0 x1 x4 x5 x6 x7 x8 x9 (ix2 i j)
      = Cert.Spec.wnom (fun i j g => x1 (ix3 i j g)) (fun g => x8 (ix2 g 0)) (x9 (ix1 0))
          (fun i e => val_main_v7 (F := Ideal) x0 x4 x5 (ix2 i e)) (fun j e => val_main_v11 (F := Ideal) x0 x6 x7 (ix2 j e))
          (Ideal.ofBits .f32 0x3E000000#32) i j := by
  rw [val_main_v26_apply, val_main_v25_apply, gate_apply, logit_apply, Ideal.mulf_def, Ideal.hostUnary_exp_def]
  rfl

/-! ## The normaliser and the output -/

/-- Column `j`'s normaliser: the sum from zero of that column's un-normalised weights over all rows. -/
theorem colsum_apply (j : Fin 2048) :
    val_main_v27 (F := Ideal) x0 x1 x4 x5 x6 x7 x8 x9 (ix1 j)
      = Cert.Spec.colsum (fun i j => val_main_v26 (F := Ideal) x0 x1 x4 x5 x6 x7 x8 x9 (ix2 i j)) j := by
  rw [val_main_v27_apply, val_main_cst_1_apply, Ideal.ofBits_def, Ideal.ofBits_zero_f32, zero_add]
  simp only [idx_col]
  rfl

/-- The output at `(i, c)`: every weight of row `i` divided by its column's normaliser, contracted with the
    value projection's column `c`. -/
theorem out_apply (i : Fin 2048) (c : Fin 8) :
    val_main_v31 (F := Ideal) x0 x1 x2 x3 x4 x5 x6 x7 x8 x9 (ix2 i c)
      = Cert.Spec.outRef (fun i j => val_main_v26 (F := Ideal) x0 x1 x4 x5 x6 x7 x8 x9 (ix2 i j))
          (fun j c => val_main_v3 (F := Ideal) x0 x2 x3 (ix2 j c)) i c := by
  rw [val_main_v31_apply]
  simp only [idx_outl, idx_outr, val_main_v30_apply, val_main_v29_apply, val_main_v28_apply, idx_norm,
    Ideal.hostDivf_def, colsum_apply]
  rfl

end Cert.ReferenceIdeal.RefValue

end
-- ==== Proof.PreDecode.lean ====
/-
  What the precondition says at the ideal instance, as far as the column normaliser goes. The precondition's last
  conjunct recomputes the reference's column normaliser from the inputs (two projections of the rows, their scaled
  scores, a gate clipped below at zero, the product of the gate with the exponential of the scores, summed down
  each column) and says that every entry of it is above zero. Here that conjunct is read back: under the
  precondition, every entry of the reference's normaliser is a positive extended real.
-/
import proofs.«146286_j30580167147772_1_alg».proof.Proof.Gen.Pre_finite_inputs
import proofs.«146286_j30580167147772_1_alg».proof.Proof.RefRead
import Idealize.ShloMosaic.Lib.ValueIdx
import Idealize.ShloMosaic.Lib.ReduceAll
import Idealize.ShloMosaic.Lib.StableHlo.Predicate
import Idealize.ShloMosaic.PureOps.Ideal.Laws

noncomputable section

namespace Cert.PreDecode

open Idealize.ShloMosaic
open Cert.Pre_finite_inputs Cert.Pre_finite_inputs.Facts

/-- The scalar shape has one index. -/
instance : Subsingleton S_.Idx := ⟨fun a b => funext fun d => d.elim0⟩

/-- The last conjunct of the precondition, read back: when the predicate's tail (the comparison of the column sums of
    `w` against zero, all of them, in conjunction with the earlier conjuncts `c`) is true, every column sum of `w`
    is above zero. -/
theorem part4_pos (c : IVec S_ 1) (w : FVec Ideal S2048x2048 .f32)
    (h : fn_part4 (F := Ideal) c w ValueIdx.ix0 = 1#1) (j : Fin 2048) :
    (0 : EReal) < Host.reduceAdd (F := Ideal) w (constant (F := Ideal) S_ .f32 0x00000000#32)
      reducesTo_S2048x2048_S2048_d0 h_S_ (ValueIdx.ix1 j) := by
  unfold fn_part4 at h
  dsimp only at h
  -- the conjunction's last operand is the `all` over the 2048 comparisons
  have h2 := (IntOp.andi_eq_one.1 h).2
  -- so each comparison is true
  have h3 := Host.reduce_andi_all _ _ _ _ _ h2 (ValueIdx.ix1 j)
  rw [ValueIdx.cmpf_apply, Ideal.cmpf_def] at h3
  -- the right operand of the comparison is the zero constant, broadcast
  have hz : broadcastInDim S2048 ![] bcast_S_S2048 (constant (F := Ideal) S_ .f32 0x00000000#32) (ValueIdx.ix1 j)
      = (0 : EReal) := Ideal.ofBits_zero_f32
  rw [hz] at h3
  -- and "greater than", on the extended reals, is the order's
  have h4 := (StableHlo.Predicate.ofBool_eq_one_iff _).1 h3
  exact of_decide_eq_true h4

/-! ## The predicate's own normaliser, stage by stage

The predicate recomputes the reference's column normaliser from the inputs. Its stages are named here, over the
predicate's own contraction records and shape facts, and each is identified with the stage of the reference it
repeats: the two differ only in the names of records with the same fields and in proofs of propositions. -/

/-- A projection of the rows: `x · w + b`, the bias along the rows. -/
def proj (x : FVec Ideal S2048x128 .f32) (w : FVec Ideal S128x64 .f32) (b : FVec Ideal S64 .f32) : FVec Ideal S2048x64 .f32 :=
  addf (Host.dotGeneral (F := Ideal) dot_S2048x128_S128x64_S2048x64_1_0_0_1_n_n none x w)
    (broadcastInDim S2048x64 ![0, 1] bcast_S1x64_S2048x64_0_1 (broadcastInDim S1x64 ![1] bcast_S64_S1x64_1 b))

theorem proj_eq_v7 (x : FVec Ideal S2048x128 .f32) (w : FVec Ideal S128x64 .f32) (b : FVec Ideal S64 .f32) :
    proj x w b = Cert.ReferenceIdeal.Read.val_main_v7 (F := Ideal) x w b := rfl

theorem proj_eq_v11 (x : FVec Ideal S2048x128 .f32) (w : FVec Ideal S128x64 .f32) (b : FVec Ideal S64 .f32) :
    proj x w b = Cert.ReferenceIdeal.Read.val_main_v11 (F := Ideal) x w b := rfl

/-- The scale `1 / sqrt 64`, broadcast. -/
def scale : FVec Ideal S2048x2048 .f32 :=
  broadcastInDim S2048x2048 ![] bcast_S_S2048x2048
    (Host.divf (F := Ideal) (constant (F := Ideal) S_ .f32 0x3F800000#32) (Host.sqrt (F := Ideal) (constant (F := Ideal) S_ .f32 0x42800000#32)))

theorem scale_eq : scale = Cert.ReferenceIdeal.Read.val_main_v16 (F := Ideal) := rfl

/-- The scaled scores: the first projection against the transposed second, times the scale. -/
def scores (a0 : FVec Ideal S2048x128 .f32) (a4 : FVec Ideal S128x64 .f32) (a5 : FVec Ideal S64 .f32)
    (a6 : FVec Ideal S128x64 .f32) (a7 : FVec Ideal S64 .f32) : FVec Ideal S2048x2048 .f32 :=
  mulf (Host.dotGeneral (F := Ideal) dot_S2048x64_S64x2048_S2048x2048_1_0_0_1_n_n none (proj a0 a4 a5)
      (transpose S64x2048 [1, 0] (proj a0 a6 a7) transposes_S2048x64_S64x2048_1_0)) scale

theorem scores_eq (a0 : FVec Ideal S2048x128 .f32) (a4 : FVec Ideal S128x64 .f32) (a5 : FVec Ideal S64 .f32)
    (a6 : FVec Ideal S128x64 .f32) (a7 : FVec Ideal S64 .f32) :
    scores a0 a4 a5 a6 a7 = Cert.ReferenceIdeal.Read.val_main_v17 (F := Ideal) a0 a4 a5 a6 a7 := by
  unfold scores Cert.ReferenceIdeal.Read.val_main_v17 Cert.ReferenceIdeal.Read.val_main_v13 Cert.ReferenceIdeal.Read.val_main_v12
  rw [proj_eq_v7, proj_eq_v11, scale_eq]
  rfl

/-- The gate: the pair features against the gate vector, plus its bias, clipped below at zero. -/
def gate (a1 : FVec Ideal S2048x2048x64 .f32) (a8 : FVec Ideal S64x1 .f32) (a9 : FVec Ideal S1 .f32) : FVec Ideal S2048x2048 .f32 :=
  maximumf
    (shapeCast S2048x2048
      (addf (Host.dotGeneral (F := Ideal) dot_S4194304x64_S64x1_S4194304x1_1_0_0_1_n_n none
          (shapeCast S4194304x64 a1 shapeCasts_S2048x2048x64_S4194304x64) a8)
        (broadcastInDim S4194304x1 ![0, 1] bcast_S1x1_S4194304x1_0_1 (broadcastInDim S1x1 ![1] bcast_S1_S1x1_1 a9)))
      shapeCasts_S4194304x1_S2048x2048)
    (broadcastInDim S2048x2048 ![] bcast_S_S2048x2048 (constant (F := Ideal) S_ .f32 0x00000000#32))

theorem gate_eq (a1 : FVec Ideal S2048x2048x64 .f32) (a8 : FVec Ideal S64x1 .f32) (a9 : FVec Ideal S1 .f32) :
    gate a1 a8 a9 = Cert.ReferenceIdeal.Read.val_main_v24 (F := Ideal) a1 a8 a9 := rfl

/-- The unnormalised weights: the gate times the exponential of the scaled scores. -/
def weights (a0 : FVec Ideal S2048x128 .f32) (a1 : FVec Ideal S2048x2048x64 .f32) (a4 : FVec Ideal S128x64 .f32)
    (a5 : FVec Ideal S64 .f32) (a6 : FVec Ideal S128x64 .f32) (a7 : FVec Ideal S64 .f32) (a8 : FVec Ideal S64x1 .f32)
    (a9 : FVec Ideal S1 .f32) : FVec Ideal S2048x2048 .f32 :=
  mulf (gate a1 a8 a9) (Host.exp (F := Ideal) (scores a0 a4 a5 a6 a7))

theorem weights_eq (a0 : FVec Ideal S2048x128 .f32) (a1 : FVec Ideal S2048x2048x64 .f32) (a4 : FVec Ideal S128x64 .f32)
    (a5 : FVec Ideal S64 .f32) (a6 : FVec Ideal S128x64 .f32) (a7 : FVec Ideal S64 .f32) (a8 : FVec Ideal S64x1 .f32)
    (a9 : FVec Ideal S1 .f32) :
    weights a0 a1 a4 a5 a6 a7 a8 a9 = Cert.ReferenceIdeal.Read.val_main_v26 (F := Ideal) a0 a1 a4 a5 a6 a7 a8 a9 := by
  unfold weights Cert.ReferenceIdeal.Read.val_main_v26 Cert.ReferenceIdeal.Read.val_main_v25
  rw [gate_eq, scores_eq]

/-- The column sums of the weights are the reference's normaliser. -/
theorem colsum_eq (a0 : FVec Ideal S2048x128 .f32) (a1 : FVec Ideal S2048x2048x64 .f32) (a4 : FVec Ideal S128x64 .f32)
    (a5 : FVec Ideal S64 .f32) (a6 : FVec Ideal S128x64 .f32) (a7 : FVec Ideal S64 .f32) (a8 : FVec Ideal S64x1 .f32)
    (a9 : FVec Ideal S1 .f32) :
    Host.reduceAdd (F := Ideal) (weights a0 a1 a4 a5 a6 a7 a8 a9) (constant (F := Ideal) S_ .f32 0x00000000#32)
        reducesTo_S2048x2048_S2048_d0 h_S_
      = Cert.ReferenceIdeal.Read.val_main_v27 (F := Ideal) a0 a1 a4 a5 a6 a7 a8 a9 := by
  unfold Cert.ReferenceIdeal.Read.val_main_v27
  rw [weights_eq]
  rfl

/-- Under the precondition every entry of the reference's column normaliser is above zero. -/
theorem colsum_pos_of_pre
    (a0 : (⟨Cert.ReferenceIdeal.S2048x128, .f32⟩ : BufTy).Contents (Elt Ideal))
    (a1 : (⟨Cert.ReferenceIdeal.S2048x2048x64, .f32⟩ : BufTy).Contents (Elt Ideal))
    (a2 : (⟨Cert.ReferenceIdeal.S128x8, .f32⟩ : BufTy).Contents (Elt Ideal))
    (a3 : (⟨Cert.ReferenceIdeal.S8, .f32⟩ : BufTy).Contents (Elt Ideal))
    (a4 : (⟨Cert.ReferenceIdeal.S128x64, .f32⟩ : BufTy).Contents (Elt Ideal))
    (a5 : (⟨Cert.ReferenceIdeal.S64, .f32⟩ : BufTy).Contents (Elt Ideal))
    (a6 : (⟨Cert.ReferenceIdeal.S128x64, .f32⟩ : BufTy).Contents (Elt Ideal))
    (a7 : (⟨Cert.ReferenceIdeal.S64, .f32⟩ : BufTy).Contents (Elt Ideal))
    (a8 : (⟨Cert.ReferenceIdeal.S64x1, .f32⟩ : BufTy).Contents (Elt Ideal))
    (a9 : (⟨Cert.ReferenceIdeal.S1, .f32⟩ : BufTy).Contents (Elt Ideal))
    (h : Cert.Pre_finite_inputs.fn (F := Ideal) a0 a1 a2 a3 a4 a5 a6 a7 a8 a9 = fun _ => 1#1) (j : Fin 2048) :
    (0 : EReal) < Cert.ReferenceIdeal.Read.val_main_v27 (F := Ideal) a0 a1 a4 a5 a6 a7 a8 a9 (Idealize.ShloMosaic.ValueIdx.ix1 j) := by
  rw [← colsum_eq]
  exact part4_pos _ (weights a0 a1 a4 a5 a6 a7 a8 a9) (congrFun h ValueIdx.ix0) j

end Cert.PreDecode

end
-- ==== Proof.Bridge.lean ====
/-
  The kernel's result array is the reference's result term of the same arguments, under the precondition.
  What the weighted-sum kernel leaves is, at (i, k), the sum over j of the gate kernel's un-normalised
  weight wn i j times the rescaled value ap j k / (∑ i', wn i' j); the host operations between the two
  kernels do the rescaling, the host operations before the gate kernel compute the same key, query and
  value projections as the reference does, and the gate row and bias are the arguments re-laid-out, so
  wn is the reference's un-normalised weight entry by entry. The reference's result is
  ∑ j, (wn i j / ∑ i', wn i' j) · ap j k. The precondition says that no column sum ∑ i', wn i' j is
  zero, and then the two sums agree term by term.
-/
import proofs.«146286_j30580167147772_1_alg».proof.Proof.KernelIdeal.Main
import proofs.«146286_j30580167147772_1_alg».proof.Proof.ValRegion0
import proofs.«146286_j30580167147772_1_alg».proof.Proof.ValRegion1
import proofs.«146286_j30580167147772_1_alg».proof.Proof.KernelHost
import proofs.«146286_j30580167147772_1_alg».proof.Proof.RefValue
import proofs.«146286_j30580167147772_1_alg».proof.Proof.PreDecode
import proofs.«146286_j30580167147772_1_alg».proof.Proof.Spec

set_option maxRecDepth 16384

noncomputable section

namespace Cert.KernelIdeal.Bridge

open Cert.KernelIdeal Cert.KernelIdeal.Gen Cert.KernelIdeal.Hand
open Idealize.ShloMosaic Idealize.ShloMosaic.TcCoe Idealize.ShloMosaic.ValueIdx Idealize.SL.Sem
open Cert.ReferenceIdeal.Read (val_main_v3 val_main_v7 val_main_v11 val_main_v26 val_main_v27 val_main_v31)

variable (m : (ℓ : Loc nD τ sig) → Buf (Elt Ideal) ℓ) (ρ : Dev nD → PrngReg)

/-- The ten argument arrays of core `c` at launch. -/
abbrev A0 (c : Dev nD) : FVec Ideal S2048x128 .f32 := m ((c.tc : Thread nD τ).loc main_arg0)
abbrev A1 (c : Dev nD) : FVec Ideal S2048x2048x64 .f32 := m ((c.tc : Thread nD τ).loc main_arg1)
abbrev A2 (c : Dev nD) : FVec Ideal S128x8 .f32 := m ((c.tc : Thread nD τ).loc main_arg2)
abbrev A3 (c : Dev nD) : FVec Ideal S8 .f32 := m ((c.tc : Thread nD τ).loc main_arg3)
abbrev A4 (c : Dev nD) : FVec Ideal S128x64 .f32 := m ((c.tc : Thread nD τ).loc main_arg4)
abbrev A5 (c : Dev nD) : FVec Ideal S64 .f32 := m ((c.tc : Thread nD τ).loc main_arg5)
abbrev A6 (c : Dev nD) : FVec Ideal S128x64 .f32 := m ((c.tc : Thread nD τ).loc main_arg6)
abbrev A7 (c : Dev nD) : FVec Ideal S64 .f32 := m ((c.tc : Thread nD τ).loc main_arg7)
abbrev A8 (c : Dev nD) : FVec Ideal S64x1 .f32 := m ((c.tc : Thread nD τ).loc main_arg8)
abbrev A9 (c : Dev nD) : FVec Ideal S1 .f32 := m ((c.tc : Thread nD τ).loc main_arg9)

/-- The reference's un-normalised weights and value projection, entry by entry. -/
abbrev WN (c : Dev nD) (i j : Fin 2048) : EReal := val_main_v26 (F := Ideal) (A0 m c) (A1 m c) (A4 m c) (A5 m c) (A6 m c) (A7 m c) (A8 m c) (A9 m c) (ix2 i j)
abbrev AP (c : Dev nD) (j : Fin 2048) (k : Fin 8) : EReal := val_main_v3 (F := Ideal) (A0 m c) (A2 m c) (A3 m c) (ix2 j k)

/-- The gate kernel's weight, computed from the arrays it is entered with, is the reference's. -/
theorem wn_eq (c : Dev nD) (i j : Fin 2048) : Val0.wn (V1 m ρ) c i j = WN m c i j := by
  have hg : Val0.geomA (V1 m ρ) c = A1 m c := HostVal.geom_kept (W0 m ρ c)
  have hk : Val0.keyA (V1 m ρ) c = val_main_v7 (F := Ideal) (A0 m c) (A4 m c) (A5 m c) := HostVal.keys_eq (W0 m ρ c)
  have hq : Val0.qryA (V1 m ρ) c = val_main_v11 (F := Ideal) (A0 m c) (A6 m c) (A7 m c) := HostVal.queries_eq (W0 m ρ c)
  have hw : ∀ g : Fin 64, Val0.gateA (V1 m ρ) c (ix2 0 g) = A8 m c (ix2 g 0) := fun g => HostVal.gaterow_apply (W0 m ρ c) g
  have hb : Val0.biasA (V1 m ρ) c (ix2 0 0) = A9 m c (ix1 0) := HostVal.bias_apply (W0 m ρ c)
  show _ = val_main_v26 (F := Ideal) (A0 m c) (A1 m c) (A4 m c) (A5 m c) (A6 m c) (A7 m c) (A8 m c) (A9 m c) (ix2 i j)
  rw [Cert.ReferenceIdeal.RefValue.wnom_apply]
  unfold Val0.wn Cert.Spec.wnom Cert.Spec.gate Cert.Spec.logit
  rw [hg, hk, hq, hb]
  simp only [hw]

/-- Under the precondition no column of the reference's weights sums to zero. -/
theorem colsum_ne (c : Dev nD)
    (hpre : Cert.Pre_finite_inputs.fn (F := Ideal) (A0 m c) (A1 m c) (A2 m c) (A3 m c) (A4 m c) (A5 m c) (A6 m c) (A7 m c) (A8 m c) (A9 m c) = fun _ => 1#1) (j : Fin 2048) :
    Cert.Spec.colsum (WN m c) j ≠ 0 := by
  have h := Cert.PreDecode.colsum_pos_of_pre (A0 m c) (A1 m c) (A2 m c) (A3 m c) (A4 m c) (A5 m c) (A6 m c) (A7 m c) (A8 m c) (A9 m c) hpre j
  rw [Cert.ReferenceIdeal.RefValue.colsum_apply] at h
  exact ne_of_gt h

/-- The weights the weighted-sum kernel is entered with are the gate kernel's result, untouched by the host operations between. -/
theorem weights_entry (c : Dev nD) (i j : Fin 2048) :
    (V3 m ρ c main_v14_0 : Vec Ideal S2048x2048 .f32) (ix2 i j) = WN m c i j := by
  rw [show (V3 m ρ c main_v14_0 : Vec Ideal S2048x2048 .f32) = ((dat0 (F := Ideal) (V1 m ρ) c).arrAt 5 cfg0.N : Vec Ideal S2048x2048 .f32)
    from (HostVal.wnom_kept (W2 m ρ c)).trans (W2_arr m ρ c 5)]
  rw [Val0.wnomArr_apply, wn_eq]

/-- The rescaled values it is entered with: the value projection over the gate kernel's column sums. -/
theorem scaled_entry (c : Dev nD) (j : Fin 2048) (k : Fin 8) :
    (V3 m ρ c main_v17 : Vec Ideal S2048x8 .f32) (ix2 j k) = Ideal.div (AP m c j k) (Cert.Spec.colsum (WN m c) j) := by
  rw [show (V3 m ρ c main_v17 : Vec Ideal S2048x8 .f32) (ix2 j k) = _ from HostVal.scaled_apply (W2 m ρ c) j k]
  rw [show (W2 m ρ c (Proc.devRef .tc main_v3) : FVec Ideal S2048x8 .f32) = val_main_v3 (F := Ideal) (A0 m c) (A2 m c) (A3 m c)
    from (W2_of_ne m ρ c main_v3 (by decide)).trans (HostVal.values_eq (W0 m ρ c))]
  rw [show (W2 m ρ c (Proc.devRef .tc main_v14_1) : FVec Ideal S1x2048 .f32) = ((dat0 (F := Ideal) (V1 m ρ) c).arrAt 6 cfg0.N : Vec Ideal S1x2048 .f32)
    from W2_arr m ρ c 6]
  rw [Val0.denomArr_apply]
  unfold Cert.Spec.colsum
  simp only [wn_eq]

/-- The product of the weights the weighted-sum kernel is entered with and its rescaled values, at row `i` and column `k`,
    is the reference's result there. -/
theorem product_apply (c : Dev nD)
    (hpre : Cert.Pre_finite_inputs.fn (F := Ideal) (A0 m c) (A1 m c) (A2 m c) (A3 m c) (A4 m c) (A5 m c) (A6 m c) (A7 m c) (A8 m c) (A9 m c) = fun _ => 1#1) (i : Fin 2048) (k : Fin 8) :
    Val1.prodArr (V3 m ρ c main_v14_0) (V3 m ρ c main_v17) (ix2 i k)
      = val_main_v31 (F := Ideal) (A0 m c) (A1 m c) (A2 m c) (A3 m c) (A4 m c) (A5 m c) (A6 m c) (A7 m c) (A8 m c) (A9 m c) (ix2 i k) := by
  rw [Val1.prodArr_apply, Cert.ReferenceIdeal.RefValue.out_apply]
  rw [← Cert.Spec.outKer_eq_outRef (WN m c) (AP m c) (colsum_ne m c hpre)]
  unfold Cert.Spec.outKer
  refine Finset.sum_congr rfl fun j _ => ?_
  rw [weights_entry m ρ c i j, scaled_entry m ρ c j k]

/-- THE VALUE: what the weighted-sum kernel's pipeline leaves in the result array is the reference's result term. -/
theorem kernel_value (c : Dev nD)
    (hpre : Cert.Pre_finite_inputs.fn (F := Ideal) (A0 m c) (A1 m c) (A2 m c) (A3 m c) (A4 m c) (A5 m c) (A6 m c) (A7 m c) (A8 m c) (A9 m c) = fun _ => 1#1) :
    ((dat1 (F := Ideal) (V3 m ρ) c).arrAt 2 cfg1.N : Vec Ideal S2048x8 .f32)
      = val_main_v31 (F := Ideal) (A0 m c) (A1 m c) (A2 m c) (A3 m c) (A4 m c) (A5 m c) (A6 m c) (A7 m c) (A8 m c) (A9 m c) := by
  have h : Val1.prodArr (V3 m ρ c main_v14_0) (V3 m ρ c main_v17)
      = (val_main_v31 (F := Ideal) (A0 m c) (A1 m c) (A2 m c) (A3 m c) (A4 m c) (A5 m c) (A6 m c) (A7 m c) (A8 m c) (A9 m c) : FVec Ideal S2048x8 .f32) := funext fun idx => by
    obtain ⟨i, k, rfl⟩ : ∃ (i : Fin 2048) (k : Fin 8), idx = ix2 i k := ⟨idx 0, idx 1, eq_ix2 idx⟩
    exact product_apply m ρ c hpre i k
  exact (Val1.outArr_eq (V3 m ρ) c).trans h

end Cert.KernelIdeal.Bridge

end
-- ==== Proof.lean ====
/-
  The certificate of the gated relation-weights kernel against its reference.
  Three frames: both printings of the kernel's program (host projections, the gate kernel's region, three
  host operations, the weighted-sum kernel's region) run to the end without fault and leave their arguments
  as launched, by the run of @main segment by segment; the reference by its run read back.
  The idealization rewrote nothing, so the kernel's program read at the ideal values is its own idealization.
  The value: at the ideal values the kernel's result is, entry by entry, the reference's — both are
  ∑ j, wn i j · (∑ i', wn i' j)⁻¹ · ap j k once no column sum of the un-normalised weights wn is zero, which
  is what the precondition says beside finiteness.
-/
import proofs.«146286_j30580167147772_1_alg».proof.Defs
import proofs.«146286_j30580167147772_1_alg».proof.Proof.Gen.Kernel
import proofs.«146286_j30580167147772_1_alg».proof.Proof.Gen.KernelIdeal
import proofs.«146286_j30580167147772_1_alg».proof.Proof.Gen.ReferenceIdeal
import proofs.«146286_j30580167147772_1_alg».proof.Proof.Gen.Pre_finite_inputs
import proofs.«146286_j30580167147772_1_alg».proof.Proof.Kernel.Main
import proofs.«146286_j30580167147772_1_alg».proof.Proof.KernelIdeal.Main
import proofs.«146286_j30580167147772_1_alg».proof.Proof.Bridge
import proofs.«146286_j30580167147772_1_alg».proof.Proof.RefRead
import Idealize.ShloMosaic.Adequacy
import Idealize.ShloMosaic.Init

noncomputable section

namespace Cert.Proof

open Idealize.ShloMosaic Idealize.ShloMosaic.TcCoe Idealize.SL.Sem

/-- The printed program runs, and its arguments end as launched. -/
theorem frame_p : Cert.frame_Kernel (hKernel := Cert.Kernel.Gen.facts) (hPre_finite_inputs := Cert.Pre_finite_inputs.Gen.facts) :=
  fun m ρ _ => Cert.Kernel.Hand.frame (F := Bits) m ρ

/-- The same program read at the ideal values. -/
theorem frame_pi : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference runs: its run read back, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the ideal values, from memories agreeing on the arguments, both programs end with the reference's result term
    of the kernel's arguments in their result arrays. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.ReferenceIdeal.Read.val_main_v31 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.Bridge.kernel_value m ρ c (hpre c)), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v31_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
